-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x1024x1024 : Shape := ⟨3, ![1, 1024, 1024]⟩
abbrev S1x256x1024 : Shape := ⟨3, ![1, 256, 1024]⟩
abbrev S1x1024x1 : Shape := ⟨3, ![1, 1024, 1]⟩
abbrev S1x1024x256 : Shape := ⟨3, ![1, 1024, 256]⟩
abbrev S1x1024 : Shape := ⟨2, ![1, 1024]⟩

abbrev nBuf : Space → Nat
  | .hbm => 32
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .bf16⟩
  | .hbm, ⟨29, _⟩ => ⟨S4x2048x1024, .bf16⟩
  | .hbm, ⟨30, _⟩ => ⟨S4x2048x1024, .bf16⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x1024x1024, .f32⟩
  | .local _ .vmem, ⟨28, _⟩ => ⟨S1x1024x1024, .f32⟩
  | .local _ .vmem, ⟨29, _⟩ => ⟨S1x1024x1, .f32⟩
  | .local _ .vmem, ⟨30, _⟩ => ⟨S1x1024x1, .f32⟩
  | .local _ .vmem, ⟨31, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v52 : BitVec 1 := Scalar.cmpi .eq arg2 c7_i32
  let v53 : BitVec 32 := Scalar.extui v52
  let c0_i32_47 : BitVec 32 := 0#32
  let v54 : BitVec 1 := Scalar.cmpi .ne v53 c0_i32_47
  v54

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x1024x256_S1x1024 : S1x1024x256.Reduces [2] S1x1024
  shapeCasts_S1x1024_S1x1024x1 : S1x1024.ShapeCasts S1x1024x1
  broadcasts_S1x1024x1_S1x1024x256 : S1x1024x1.Broadcasts S1x1024x256
  broadcasts_S1x1024x1_S1x1024x1024 : S1x1024x1.Broadcasts S1x1024x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S1x1024x1024_S1x256x1024_S1x1024x256_2_2_1_1_0_0_wf : DotDims.WF S1x1024x1024 S1x256x1024 S1x1024x256 [2] [2] [1] [1] [0] [0]
  dot_S1x1024x256_S1x256x1024_S1x1024x1024_2_1_1_2_0_0_wf : DotDims.WF S1x1024x256 S1x256x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .bf16 = 32 ∨ (Rect.block (s := S8192x1024) S512x1024.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .bf16 = 32 ∨ (Rect.block (s := S4x2048x1024) S1x256x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .bf16 = 32 ∨ (Rect.block (s := S4x2048x1024) S1x256x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x2048x1024.size a
  hwx1_5 : ∀ i : grid1.Coords, EltTy.bits .f32 = 32 ∨ (Rect.block (s := S4x2048x1024) S1x1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x1024x1024_S1x256x1024_S1x1024x256_2_2_1_1_0_0 : DotDims S1x1024x1024 S1x256x1024 S1x1024x256 where
  lhsContracting := [2]
  rhsContracting := [2]
  lhsNonContracting := [1]
  rhsNonContracting := [1]
  lhsBatch := [0]
  rhsBatch := [0]
  wf := dot_S1x1024x1024_S1x256x1024_S1x1024x256_2_2_1_1_0_0_wf
def dot_S1x1024x256_S1x256x1024_S1x1024x1024_2_1_1_2_0_0 : DotDims S1x1024x256 S1x256x1024 S1x1024x1024 where
  lhsContracting := [2]
  rhsContracting := [1]
  lhsNonContracting := [1]
  rhsNonContracting := [2]
  lhsBatch := [0]
  rhsBatch := [0]
  wf := dot_S1x1024x256_S1x256x1024_S1x1024x1024_2_1_1_2_0_0_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_2) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_3) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_4) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KI.R0.lean ====
/- Region 0 (the projection kernel, grid 16): what each output window's staging buffer holds after the body at a
   point, as the canon of its one whole-block store over the payloads of the input blocks; the proof data; the
   body obligation. Stated at a parameter V, the buffer contents when the region is entered. -/
import proofs.«414092_j9835475108302_3_alg».proof.Proof.Gen.KernelIdeal.Launch
import proofs.«414092_j9835475108302_3_alg».proof.Proof.Gen.KernelIdeal.Skeleton
import proofs.«414092_j9835475108302_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- q_hi block: the three-pass product of the x block with the two Wq pieces. -/
def out0_6 (x : Vec F S512x1024 .f32) (w1 w2 : Vec F S1024x1024 .bf16) : Vec F S512x1024 .bf16 :=
  View.canon [⟨rX0, k0_pay9 (View.ld x rX0) (View.ld w1 rW0) (View.ld w1 rW0) (View.ld w2 rW0)⟩]
/-- q_lo block: the residue of that product against itself. -/
def out0_7 (x : Vec F S512x1024 .f32) (w1 w2 : Vec F S1024x1024 .bf16) : Vec F S512x1024 .bf16 :=
  View.canon [⟨rX0, k0_pay10 (View.ld x rX0) (View.ld w1 rW0) (View.ld w1 rW0) (View.ld w2 rW0)⟩]
/-- ak_hi block. -/
def out0_8 (x : Vec F S512x1024 .f32) (w3 w4 : Vec F S1024x1024 .bf16) : Vec F S512x1024 .bf16 :=
  View.canon [⟨rX0, k0_pay2 (k0_pay11 (View.ld x rX0) (View.ld w3 rW0) (View.ld w3 rW0)) (k0_pay12 (View.ld x rX0) (View.ld w4 rW0))⟩]
/-- ak_lo block. -/
def out0_9 (x : Vec F S512x1024 .f32) (w3 w4 : Vec F S1024x1024 .bf16) : Vec F S512x1024 .bf16 :=
  View.canon [⟨rX0, k0_pay3 (k0_pay11 (View.ld x rX0) (View.ld w3 rW0) (View.ld w3 rW0)) (k0_pay12 (View.ld x rX0) (View.ld w4 rW0))⟩]
/-- u block. -/
def out0_10 (x : Vec F S512x1024 .f32) (w5 : Vec F S1024x1024 .bf16) : Vec F S512x1024 .bf16 :=
  View.canon [⟨rX0, k0_pay4 (k0_pay6 (View.ld x rX0)) (View.ld w5 rW0)⟩]

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t)
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 3 t) (iblk0 V c 4 t)
    | ⟨10, _⟩ => out0_10 (iblk0 V c 0 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 0 t) (iblk0 V c 5 t) := by dsimp only [dat0]

/-- Each input window's current staging buffer holds its block at every point, fetched there or not: for any proof data
    whose array is V's and whose body leaves the block in place (an input not fetched at a point has not moved its block
    index, so the block it still holds is this point's). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- A one-piece store of the whole 512x1024 block covers the buffer. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

set_option maxHeartbeats 1000000 in
/-- The body on whole staging memrefs: the six inputs at read contents x0 … x5 and the five outputs at anything; it
    runs to the continuation holding the inputs as they were and each output at the canon of its one whole-block
    store over the payloads of what was loaded. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole)
    (x0 : Vec F S512x1024 .f32) (x1 x2 x3 x4 x5 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare (out0_6 x0 x1 x2)
          ∗ owns (c : Thread nD τ) arg8 fullShare (out0_7 x0 x1 x2)
          ∗ owns (c : Thread nD τ) arg9 fullShare (out0_8 x0 x3 x4)
          ∗ owns (c : Thread nD τ) arg10 fullShare (out0_9 x0 x3 x4)
          ∗ owns (c : Thread nD τ) arg11 fullShare (out0_10 x0 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  isplitl [H7]
  · iexists _; isplitr
    swap; · iexact H7
    ipureintro
    try dsimp only
    exact View.read_writes_eq_canon _ _ _ (cover0 _)
  isplitl [H8]
  · iexists _; isplitr
    swap; · iexact H8
    ipureintro
    try dsimp only
    exact View.read_writes_eq_canon _ _ _ (cover0 _)
  isplitl [H9]
  · iexists _; isplitr
    swap; · iexact H9
    ipureintro
    try dsimp only
    exact View.read_writes_eq_canon _ _ _ (cover0 _)
  iexists _; isplitr
  swap; · iexact H10
  ipureintro
  try dsimp only
  exact View.read_writes_eq_canon _ _ _ (cover0 _)

/-- What the body leaves in the input windows' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t: the invariant, what is owed, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the input buffers hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/- Region 1, what its three whole-body runs share: the windows' blocks, the body's two branch conditions decided
   over the grid, where the output window is idle, the staging and scratch memrefs. -/
import proofs.«414092_j9835475108302_3_alg».proof.Proof.Gen.KernelIdeal.Launch
import proofs.«414092_j9835475108302_3_alg».proof.Proof.Gen.KernelIdeal.Skeleton
import proofs.«414092_j9835475108302_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own, passed beside the windows. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x1024 .f32 := Memref.whole cc1_scratch2

/-! ## The input windows' blocks -/

/-- Input window 0's current staging buffer holds its block at every point, fetched there or not: where the point
    does not fetch, the block index has not moved since the last fetch. For any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the point
    does not fetch, the block index has not moved since the last fetch. For any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the point
    does not fetch, the block index has not moved since the last fetch. For any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the point
    does not fetch, the block index has not moved since the last fetch. For any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where the point
    does not fetch, the block index has not moved since the last fetch. For any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first branch's condition (the key/value axis is at its first block: the running statistics are reset),
    as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the key/value axis is at its last block: the quotient is written out). -/
abbrev cond1_1 (i : grid1.Coords) : Prop := k1_cond2 i = 1#1
/-- It holds at the points ≡ 7 (mod 8): decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Where the first branch is taken and the second is not, the output window is idle: nothing is stored into it. -/
theorem idleAt1_5_A : ∀ t : Fin cfg1.N, cond1_0 (grid1.coords t) → ¬cond1_1 (grid1.coords t) → cfg1.idle 5 (grid1.coords t) = true := by decide +kernel
/-- There its block is not written back. -/
theorem noFlush1_5_A : ∀ t : Fin cfg1.N, cond1_0 (grid1.coords t) → ¬cond1_1 (grid1.coords t) → (cfg1.win 5).flush t = false := by decide +kernel
/-- Where neither branch is taken, the output window is idle. -/
theorem idleAt1_5_B : ∀ t : Fin cfg1.N, ¬cond1_0 (grid1.coords t) → ¬cond1_1 (grid1.coords t) → cfg1.idle 5 (grid1.coords t) = true := by decide +kernel
/-- There its block is not written back. -/
theorem noFlush1_5_B : ∀ t : Fin cfg1.N, ¬cond1_0 (grid1.coords t) → ¬cond1_1 (grid1.coords t) → (cfg1.win 5).flush t = false := by decide +kernel
/-- Where the second branch is taken, the output window is live: the quotient is stored into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of the output window, through which its contents are stated (the choice does not matter). -/
abbrev VO1_5 : View sig .tc .vmem S1x1024x1024 .f32 := (Memref.whole cc1_stg5_0 : Memref sig .tc .vmem S1x1024x1024 .f32).view
/-- Each window's current staging memref at point t, as the pipeline passes it to the body, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The scratch operands as views: what each holds between points is stated through them. -/
abbrev VS1_0 : View sig .tc .vmem S1x1024x1 .f32 := scM1_0.view
abbrev VS1_1 : View sig .tc .vmem S1x1024x1 .f32 := scM1_1.view
abbrev VS1_2 : View sig .tc .vmem S1x1024x1024 .f32 := scM1_2.view

/-! ## What the launch hands the region -/

/-- The scoped buffers of the core that are neither this region's staging buffers nor its scratch (the other
    region's seventeen staging buffers), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The launch's invariant for this region: the other region's staging buffers, the three scratch operands as
    memrefs owned at some contents, the generator register. -/
theorem PhiA1_eq (c : Dev nD) :
    (Pipeline.ΦA spec1 c : sProp 𝕄)
      = iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA; rw [scopedRest1_eq]; simp only [scM1_0, scM1_1, scM1_2, owns_whole]; unfold others1
  refine BI.equiv_iff.mp ⟨?_, ?_⟩
  · show (_ : sProp 𝕄) ⊢ _
    iintro ⟨⟨B0, B1, B2, B3, B4, B5, B6, B7, B8, B9, B10, B11, B12, B13, B14, B15, B16, S0, S1, S2⟩, R⟩
    iframe
  · show (_ : sProp 𝕄) ⊢ _
    iintro ⟨⟨B0, B1, B2, B3, B4, B5, B6, B7, B8, B9, B10, B11, B12, B13, B14, B15, B16⟩, S0, S1, S2, R⟩
    iframe

end Cert.KernelIdeal.Hand

end
-- ==== Proof.KI.R1RunA.lean ====
/- Region 1, the whole-body run in control case A: the body's triple over the skeleton, the pieces each buffer ends with found by symbolic execution. -/
import proofs.«414092_j9835475108302_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first branch is taken and the second is not (the key/value axis at its first block): on whole
    memrefs — the five inputs at their blocks, the output buffer at contents handed back untouched, the three scratch
    buffers at anything — it runs to the continuation holding the inputs as they were, the output buffer as it was,
    and each scratch buffer with the pieces its stores wrote (reset, then the first block's update). -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunB.lean ====
/- Region 1, the whole-body run in control case B: the body's triple over the skeleton, the pieces each buffer ends with found by symbolic execution. -/
import proofs.«414092_j9835475108302_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where neither branch is taken (the key/value axis strictly between its first and last block): the three
    scratch buffers at what the point before left; the output buffer is handed back untouched; each scratch buffer
    ends with the pieces of this block's update. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunC.lean ====
/- Region 1, the whole-body run in control case C: the body's triple over the skeleton, the pieces each buffer ends with found by symbolic execution. -/
import proofs.«414092_j9835475108302_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the second branch is taken and the first is not (the key/value axis at its last block): the three
    scratch buffers at what the point before left, the output buffer at anything; after the update the quotient of the
    running numerator by the running denominator is stored into the output buffer. -/
noncomputable def kernelRun1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.R1.lean ====
/- Region 1 (the attention kernel, grid 4 x 2 x 8, the last axis the key/value blocks): what the three scratch
   buffers (running maximum, running denominator, running numerator) and the output window's staging buffer hold
   after the body at each point, by recursion on the point; the invariant that carries the scratch between points;
   the proof data; the body obligation. Stated at a parameter V, the buffer contents when the region is entered. -/
import proofs.«414092_j9835475108302_3_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where the first branch is taken and the second is not nothing is stored into the output window (it is idle there and not written back): no
    pieces; a placeholder nothing consults. -/
def out1_A_5 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) : Vec F S1x1024x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- Where the first branch is taken and the second is not the pieces stored into scratch 0 (the running maximum) tile it, so they cover it. -/
theorem scover1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) (y : S1x1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S1x1024x1.size (by sl_kernel_rfl) y

/-- What scratch 0 (the running maximum) then holds: its pieces read back. -/
def sout1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) : Vec F S1x1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)

/-- Where the first branch is taken and the second is not the pieces stored into scratch 1 (the running denominator) tile it, so they cover it. -/
theorem scover1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) (y : S1x1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S1x1024x1.size (by sl_kernel_rfl) y

/-- What scratch 1 (the running denominator) then holds: its pieces read back. -/
def sout1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) : Vec F S1x1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)

/-- Where the first branch is taken and the second is not the pieces stored into scratch 2 (the running numerator) tile it, so they cover it. -/
theorem scover1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) (y : S1x1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S1x1024x1024.size (by sl_kernel_rfl) y

/-- What scratch 2 (the running numerator) then holds: its pieces read back. -/
def sout1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) : Vec F S1x1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)

/-- Where neither branch is taken nothing is stored into the output window (it is idle there and not written back): no
    pieces; a placeholder nothing consults. -/
def out1_B_5 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)

/-- Where neither branch is taken the pieces stored into scratch 0 (the running maximum) tile it, so they cover it. -/
theorem scover1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) (y : S1x1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S1x1024x1.size (by sl_kernel_rfl) y

/-- What scratch 0 (the running maximum) then holds: its pieces read back. -/
def sout1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)

/-- Where neither branch is taken the pieces stored into scratch 1 (the running denominator) tile it, so they cover it. -/
theorem scover1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) (y : S1x1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S1x1024x1.size (by sl_kernel_rfl) y

/-- What scratch 1 (the running denominator) then holds: its pieces read back. -/
def sout1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)

/-- Where neither branch is taken the pieces stored into scratch 2 (the running numerator) tile it, so they cover it. -/
theorem scover1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) (y : S1x1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S1x1024x1024.size (by sl_kernel_rfl) y

/-- What scratch 2 (the running numerator) then holds: its pieces read back. -/
def sout1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)

/-- Where the second branch is taken and the first is not the pieces stored into the output window tile its block, so they cover it. -/
theorem cover1_C_5 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What the output window's buffer then holds: its pieces read back (the quotient of the running numerator by the
    running denominator). -/
def out1_C_5 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

/-- Where the second branch is taken and the first is not the pieces stored into scratch 0 (the running maximum) tile it, so they cover it. -/
theorem scover1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) (y : S1x1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S1x1024x1.size (by sl_kernel_rfl) y

/-- What scratch 0 (the running maximum) then holds: its pieces read back. -/
def sout1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)

/-- Where the second branch is taken and the first is not the pieces stored into scratch 1 (the running denominator) tile it, so they cover it. -/
theorem scover1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) (y : S1x1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S1x1024x1.size (by sl_kernel_rfl) y

/-- What scratch 1 (the running denominator) then holds: its pieces read back. -/
def sout1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)

/-- Where the second branch is taken and the first is not the pieces stored into scratch 2 (the running numerator) tile it, so they cover it. -/
theorem scover1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S1x1024x1024.size (by sl_kernel_rfl) y

/-- What scratch 2 (the running numerator) then holds: its pieces read back. -/
def sout1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) : Vec F S1x1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)

/-! ## What the output window and the scratch hold after each point -/

/-- After the body at position n: (the output window's buffer, running maximum, running denominator, running numerator).
    The case the closed forms select at n, run at the point's memrefs and input blocks, the scratch at what this
    leaves at n - 1. The assignment of the conditions no point meets is no case. -/
def outsAt1 (c : Dev nD) : (n : ℕ) → n < cfg1.N → Vec F S1x1024x1024 .f32 × Vec F S1x1024x1 .f32 × Vec F S1x1024x1 .f32 × Vec F S1x1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- At a point where the key/value axis is at its first block: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point strictly between the first and the last block: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point where the key/value axis is at its last block: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch between points -/

/-- The region invariant before position n: before the first point every scoped buffer no window stages at anything;
    afterwards the three scratch buffers at what the point before left, the other region's staging buffers at anything,
    the generator register at some state. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the scratch at that point's contents. -/
theorem PhiS1_succ (c : Dev nD) (n : ℕ) (hn : n < cfg1.N) :
    PhiS1 V c (n + 1) hn = iprop(others1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

/-- Before a point that is not the first: the scratch at what the point before left. -/
theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The proof data -/

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; that
    case's run applies; the invariant hands the body the scratch at what the point before left (at anything at the first
    point) and takes it back at this point's contents, the pieces covering each buffer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS1_castSucc V c t, PhiS1_zero V c _ _ hz, PhiA1_eq]
        iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Hoth HS0 HS1 HS2 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [Hoth HS0 HS1 HS2 Hg]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 8 = 7
    ·
      rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      rw [outsAt1_C V c t h0 h1]
      unfold out1_C_5 sout1_C_0 sout1_C_1 sout1_C_2; (try dsimp only)
      by_cases hz : t.val = 0
      · exfalso; omega
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [Hoth HS0 HS1 HS2 Hg]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _ _ _ _ _)

    ·
      rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Hoth HS0 HS1 HS2 Hg]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

/-- After the last point the invariant gives the class's back: the scratch buffers' named contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/- The run of the whole program: the buffer contents at each boundary between its four parts (host operations, the
   projection region, host operations, the attention region), folded from the launch memory; each argument array
   read back through the fold to its launch contents; the two regions and the two host stretches as segments over
   the thread state "every unscoped buffer at the boundary's contents, the pseudo-random register at some state, nothing
   owed"; and from the launch over those segments, the final memory at the last boundary's contents, hence the
   argument arrays as launched. -/
import proofs.«414092_j9835475108302_3_alg».proof.Proof.KI.R0
import proofs.«414092_j9835475108302_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through the program -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev VR1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (VR1 m ρ) c).arrAt w cfg0.N
theorem W2_arr (c : Dev nD) (w : Fin cfg0.W) :
    W2 m ρ c (Proc.devRef .tc (Pipeline.arrRef spec0 w)) = (dat0 (VR1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev VR2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (VR1 m ρ) c).arrAt w cfg0.N = VR2 m ρ c (Pipeline.arrRef spec0 w) :=
  (W2_arr m ρ c w).symm
theorem hrest0 (c : Dev nD) : ∀ b, b ∉ Finset.univ.image (Pipeline.arrRef spec0) → VR2 m ρ c b = VR1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev VR3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (VR3 m ρ) c).arrAt w cfg1.N
theorem W4_arr (c : Dev nD) (w : Fin cfg1.W) :
    W4 m ρ c (Proc.devRef .tc (Pipeline.arrRef spec1 w)) = (dat1 (VR3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev VR4 : (c : Dev nD) → (b : Ref sig .tc) → Buf (Elt F) ((c : Thread nD τ).loc b) := fun c b => W4 m ρ c b
/-- At region 1's exit each of its arrays holds what the pipeline leaves, and every other buffer what it held at
    entry. -/
theorem hF1 (c : Dev nD) (w : Fin cfg1.W) : (dat1 (VR3 m ρ) c).arrAt w cfg1.N = VR4 m ρ c (Pipeline.arrRef spec1 w) :=
  (W4_arr m ρ c w).symm
theorem hrest1 (c : Dev nD) : ∀ b, b ∉ Finset.univ.image (Pipeline.arrRef spec1) → VR4 m ρ c b = VR3 m ρ c b :=
  fun b hb => W4_of_ne m ρ c b fun w e => hb (Finset.mem_image.mpr ⟨w, Finset.mem_univ _, e⟩)

/-- The result array is region 1's output window's array: at the end it holds that window's write-backs folded. -/
theorem W4_main_v21 (c : Dev nD) : W4 m ρ c (Proc.devRef .tc main_v21) = (dat1 (VR3 m ρ) c).arrAt 5 cfg1.N :=
  W4_arr m ρ c 5

/-! ## The arguments end as launched: no host operation writes one and no region has one among its windows'
    arrays, so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (VR1 m ρ) c
  | ⟨1, _⟩ => fun c => dat1 (VR3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's pseudo-random register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with
    those references at the contents after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the pseudo-random
    register at some state. -/
abbrev Tₙ (c : Dev nD) : sProp 𝕄 := iprop(StableHlo.held (c : Thread nD τ) (Pipeline.ucRefs τ sig) (W4 m ρ c) ∗ ∃ r, prngReg c r)

/-! # The regions as segments -/

set_option backward.isDefEq.respectTransparency.types false in
/-- Region 0 over the thread state: entered from every unscoped buffer at W1, left at W2. Its arrays are split out
    of the unscoped buffers and put back at the exit contents; the pseudo-random register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VR1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VR1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VR1 m ρ c) (VR2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. As region 0, but its
    invariant carries the three scratch buffers between points: at the first point it is made from the scoped
    buffers no window stages and the pseudo-random register, and after the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VR3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (VR3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (VR3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VR3 m ρ c) (VR4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's four segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer of every core at the last boundary's
    contents W4: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

set_option backward.isDefEq.respectTransparency.types false in
/-- The frame: at every final state each of the six argument arrays holds its launch contents: the final memory at
    W4, and W4 at an argument's buffer walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.Math.Attn.lean ====
/- The mathematics both programs share, over the reals and read on the extended reals: a softmax-weighted
   average does not depend on the shift of its logits; the block-by-block ("online") evaluation with a running
   shift, denominator and numerator reaches it; the plain evaluation reaches it; sums of products of reals stay real. -/
import Idealize.ShloMosaic.PureOps.Ideal
import Mathlib.Algebra.BigOperators.Fin
import Mathlib.Algebra.BigOperators.Ring.Finset

noncomputable section

namespace Cert.Math

open Idealize.ShloMosaic
open scoped BigOperators

/-- The softmax-weighted average of `u` with logits `s` (any shift of the logits cancels). -/
def attn {ι : Type} [Fintype ι] (s u : ι → ℝ) : ℝ := (∑ j, Real.exp (s j) * u j) / (∑ j, Real.exp (s j))

/-- Reindexing the logits and the values together changes nothing. -/
theorem attn_equiv {ι κ : Type} [Fintype ι] [Fintype κ] (e : ι ≃ κ) (s u : κ → ℝ) :
    attn (fun i => s (e i)) (fun i => u (e i)) = attn s u := by
  unfold attn
  rw [Equiv.sum_comp e (fun j => Real.exp (s j) * u j), Equiv.sum_comp e (fun j => Real.exp (s j))]

/-- A finite sum of reals, read on the extended reals, is the sum of the readings. -/
theorem coe_sum {ι : Type} (t : Finset ι) (f : ι → ℝ) : ((∑ i ∈ t, f i : ℝ) : EReal) = ∑ i ∈ t, (f i : EReal) := by
  classical
  refine Finset.induction_on t ?_ ?_
  · rw [Finset.sum_empty, Finset.sum_empty, EReal.coe_zero]
  · intro a t ha ih
    rw [Finset.sum_insert ha, Finset.sum_insert ha, EReal.coe_add, ih]

/-- A sum of products of reals read on the extended reals. -/
theorem coe_dot {ι : Type} [Fintype ι] (a b : ι → ℝ) : (∑ k, (a k : EReal) * (b k : EReal)) = ((∑ k, a k * b k : ℝ) : EReal) := by
  rw [coe_sum]
  exact Finset.sum_congr rfl (fun k _ => (EReal.coe_mul _ _).symm)

theorem dot_zero_left {ι : Type} [Fintype ι] (b : ι → EReal) : (∑ k, (0 : EReal) * b k) = 0 :=
  Finset.sum_eq_zero (fun k _ => zero_mul (b k))

theorem dot_zero_right {ι : Type} [Fintype ι] (a : ι → EReal) : (∑ k, a k * (0 : EReal)) = 0 :=
  Finset.sum_eq_zero (fun k _ => mul_zero (a k))

/-- A real minus itself is zero on the extended reals (at an infinity it is not). -/
theorem coe_sub_self (r : ℝ) : (r : EReal) - (r : EReal) = 0 := by
  rw [← EReal.coe_sub, sub_self, EReal.coe_zero]

/-- Two projections composed: contracting first over the inner weight is the same as projecting twice. -/
theorem proj_assoc {n p : Type} [Fintype n] [Fintype p] (x : n → ℝ) (A : p → n → ℝ) (w : p → ℝ) :
    (∑ k, (∑ e, x e * A k e) * w k) = ∑ e, x e * (∑ k, w k * A k e) := by
  simp_rw [Finset.sum_mul, Finset.mul_sum]
  rw [Finset.sum_comm]
  refine Finset.sum_congr rfl (fun e _ => Finset.sum_congr rfl (fun k _ => ?_))
  ring

/-- A common shift `m` of the logits multiplies numerator and denominator by `exp (-m)`, which cancels. -/
theorem shift_cancel {ι : Type} (t : Finset ι) (s u : ι → ℝ) (m : ℝ) :
    (∑ j ∈ t, Real.exp (s j - m) * u j) / (∑ j ∈ t, Real.exp (s j - m))
      = (∑ j ∈ t, Real.exp (s j) * u j) / (∑ j ∈ t, Real.exp (s j)) := by
  have h1 : ∀ j, Real.exp (s j - m) = Real.exp (s j) * Real.exp (-m) := fun j => by
    rw [← Real.exp_add, sub_eq_add_neg]
  have h2 : (∑ j ∈ t, Real.exp (s j) * Real.exp (-m) * u j) = (∑ j ∈ t, Real.exp (s j) * u j) * Real.exp (-m) := by
    rw [Finset.sum_mul]
    exact Finset.sum_congr rfl (fun j _ => by ring)
  simp_rw [h1]
  rw [h2, ← Finset.sum_mul, mul_div_mul_right _ _ (Real.exp_pos (-m)).ne']

/-- THE PLAIN EVALUATION: logits shifted by any real `m`, exponentiated, divided by their sum, weighted. -/
theorem ref_row {ι : Type} [Fintype ι] [Nonempty ι] (s u : ι → ℝ) (m : ℝ) :
    (∑ j, Ideal.div (Ideal.exp ((s j : EReal) - (m : EReal))) (∑ j', Ideal.exp ((s j' : EReal) - (m : EReal))) * (u j : EReal))
      = ((attn s u : ℝ) : EReal) := by
  -- each exponential is that of a real
  have hexp : ∀ j, Ideal.exp ((s j : EReal) - (m : EReal)) = ((Real.exp (s j - m) : ℝ) : EReal) := fun j => by
    rw [← EReal.coe_sub, Ideal.exp_coe]
  -- the denominator is a positive real
  have hD : 0 < ∑ j, Real.exp (s j - m) := Finset.sum_pos (fun j _ => Real.exp_pos _) Finset.univ_nonempty
  have hterm : ∀ j, Ideal.div (Ideal.exp ((s j : EReal) - (m : EReal))) (∑ j', Ideal.exp ((s j' : EReal) - (m : EReal))) * (u j : EReal)
      = ((Real.exp (s j - m) * u j / (∑ j', Real.exp (s j' - m)) : ℝ) : EReal) := by
    intro j
    rw [Finset.sum_congr rfl (fun j' _ => hexp j'), ← coe_sum, hexp, Ideal.div_coe hD.ne', ← EReal.coe_mul, ← EReal.coe_mul]
    congr 1
    ring
  rw [Finset.sum_congr rfl (fun j _ => hterm j), ← coe_sum, ← Finset.sum_div, shift_cancel, attn]

/-- The key/value blocks before block `k`. -/
def pre (K : ℕ) (k : ℕ) : Finset (Fin K) := Finset.univ.filter fun k' => k'.val < k

/-- The running state after the blocks before `k`: the shift is SOME real `m`; the denominator and the numerator
    are the partial sums at that shift. -/
def RowInv {K B : ℕ} (s u : Fin K → Fin B → ℝ) (k : ℕ) (M L A : EReal) : Prop :=
  ∃ m : ℝ, M = (m : EReal)
    ∧ L = ((∑ k' ∈ pre K k, ∑ j, Real.exp (s k' j - m) : ℝ) : EReal)
    ∧ A = ((∑ k' ∈ pre K k, ∑ j, Real.exp (s k' j - m) * u k' j : ℝ) : EReal)

/-- THE FIRST BLOCK, from the reset state (shift `⊥`, denominator and numerator `0`): the new shift is the larger of
    `⊥` and any real `b`. -/
theorem online_first {K B : ℕ} (s u : Fin K → Fin B → ℝ) (k0 : Fin K) (h0 : k0.val = 0) (b : ℝ) :
    RowInv s u 1 (max ⊥ (b : EReal))
      (Ideal.exp (⊥ - max ⊥ (b : EReal)) * 0 + ∑ j, Ideal.exp ((s k0 j : EReal) - max ⊥ (b : EReal)))
      (Ideal.exp (⊥ - max ⊥ (b : EReal)) * 0 + ∑ j, Ideal.exp ((s k0 j : EReal) - max ⊥ (b : EReal)) * (u k0 j : EReal)) := by
  have hmax : max (⊥ : EReal) (b : EReal) = (b : EReal) := max_eq_right bot_le
  -- the only block before block 1 is block 0
  have hpre : pre K 1 = {k0} := by
    ext k'
    rw [pre, Finset.mem_filter, Finset.mem_singleton, Fin.ext_iff, h0]
    simp
  have hbe : ∀ j, Ideal.exp ((s k0 j : EReal) - (b : EReal)) = ((Real.exp (s k0 j - b) : ℝ) : EReal) := fun j => by
    rw [← EReal.coe_sub, Ideal.exp_coe]
  rw [hmax]
  refine ⟨b, rfl, ?_, ?_⟩
  · rw [mul_zero, zero_add, hpre, Finset.sum_singleton, coe_sum]
    exact Finset.sum_congr rfl (fun j _ => hbe j)
  · rw [mul_zero, zero_add, hpre, Finset.sum_singleton, coe_sum]
    exact Finset.sum_congr rfl (fun j _ => by rw [hbe, EReal.coe_mul])

/-- A LATER BLOCK `kk`: the new shift is the larger of the old one and any real `b`; the old denominator and numerator
    are rescaled by `exp (old - new)` and the block's terms at the new shift are added. -/
theorem online_step {K B : ℕ} (s u : Fin K → Fin B → ℝ) (kk : Fin K) (M L A : EReal) (h : RowInv s u kk.val M L A) (b : ℝ) :
    RowInv s u (kk.val + 1) (max M (b : EReal))
      (Ideal.exp (M - max M (b : EReal)) * L + ∑ j, Ideal.exp ((s kk j : EReal) - max M (b : EReal)))
      (Ideal.exp (M - max M (b : EReal)) * A + ∑ j, Ideal.exp ((s kk j : EReal) - max M (b : EReal)) * (u kk j : EReal)) := by
  obtain ⟨m, rfl, rfl, rfl⟩ := h
  -- the new shift is the real `max m b`
  have hmax : max (m : EReal) (b : EReal) = ((max m b : ℝ) : EReal) := (EReal.coe_strictMono.monotone.map_max (a := m) (b := b)).symm
  -- the blocks before `kk + 1` are block `kk` and the blocks before `kk`
  have hpre : pre K (kk.val + 1) = insert kk (pre K kk.val) := by
    ext k'
    rw [pre, pre, Finset.mem_insert, Finset.mem_filter, Finset.mem_filter, Fin.ext_iff]
    simp only [Finset.mem_univ, true_and]
    omega
  have hnot : kk ∉ pre K kk.val := fun hm => lt_irrefl _ (Finset.mem_filter.mp hm).2
  -- rescaling a term at the old shift gives the term at the new shift
  have hscale : ∀ x : ℝ, Real.exp (m - max m b) * Real.exp (x - m) = Real.exp (x - max m b) := fun x => by
    rw [← Real.exp_add]
    congr 1
    ring
  have hL : Real.exp (m - max m b) * (∑ k' ∈ pre K kk.val, ∑ j, Real.exp (s k' j - m))
      = ∑ k' ∈ pre K kk.val, ∑ j, Real.exp (s k' j - max m b) := by
    rw [Finset.mul_sum]
    refine Finset.sum_congr rfl (fun k' _ => ?_)
    rw [Finset.mul_sum]
    exact Finset.sum_congr rfl (fun j _ => hscale _)
  have hA : Real.exp (m - max m b) * (∑ k' ∈ pre K kk.val, ∑ j, Real.exp (s k' j - m) * u k' j)
      = ∑ k' ∈ pre K kk.val, ∑ j, Real.exp (s k' j - max m b) * u k' j := by
    rw [Finset.mul_sum]
    refine Finset.sum_congr rfl (fun k' _ => ?_)
    rw [Finset.mul_sum]
    exact Finset.sum_congr rfl (fun j _ => by rw [← mul_assoc, hscale])
  -- the rescaling factor and the block's terms are reals
  have hsc : Ideal.exp ((m : EReal) - ((max m b : ℝ) : EReal)) = ((Real.exp (m - max m b) : ℝ) : EReal) := by
    rw [← EReal.coe_sub, Ideal.exp_coe]
  have hbe : ∀ j, Ideal.exp ((s kk j : EReal) - ((max m b : ℝ) : EReal)) = ((Real.exp (s kk j - max m b) : ℝ) : EReal) :=
    fun j => by rw [← EReal.coe_sub, Ideal.exp_coe]
  have hbL : (∑ j, Ideal.exp ((s kk j : EReal) - ((max m b : ℝ) : EReal)))
      = ((∑ j, Real.exp (s kk j - max m b) : ℝ) : EReal) := by
    rw [coe_sum]
    exact Finset.sum_congr rfl (fun j _ => hbe j)
  have hbA : (∑ j, Ideal.exp ((s kk j : EReal) - ((max m b : ℝ) : EReal)) * (u kk j : EReal))
      = ((∑ j, Real.exp (s kk j - max m b) * u kk j : ℝ) : EReal) := by
    rw [coe_sum]
    exact Finset.sum_congr rfl (fun j _ => by rw [hbe, EReal.coe_mul])
  rw [hmax]
  refine ⟨max m b, rfl, ?_, ?_⟩
  · rw [hsc, hbL, ← EReal.coe_mul, ← EReal.coe_add, hL, hpre, Finset.sum_insert hnot, add_comm]
  · rw [hsc, hbA, ← EReal.coe_mul, ← EReal.coe_add, hA, hpre, Finset.sum_insert hnot, add_comm]

/-- AFTER THE LAST BLOCK the quotient of numerator by denominator is the softmax-weighted average over all the
    (block, position) pairs. -/
theorem online_final {K B : ℕ} (hK : 0 < K) (hB : 0 < B) (s u : Fin K → Fin B → ℝ) (M L A : EReal) (h : RowInv s u K M L A) :
    Ideal.div A L = ((attn (fun p : Fin K × Fin B => s p.1 p.2) (fun p => u p.1 p.2) : ℝ) : EReal) := by
  obtain ⟨m, rfl, rfl, rfl⟩ := h
  -- every block is before block `K`
  have hpre : pre K K = Finset.univ := by
    ext k'
    rw [pre, Finset.mem_filter]
    exact ⟨fun _ => Finset.mem_univ _, fun hu => ⟨hu, k'.isLt⟩⟩
  haveI : Nonempty (Fin K) := ⟨⟨0, hK⟩⟩
  haveI : Nonempty (Fin B) := ⟨⟨0, hB⟩⟩
  -- the denominator is a positive real
  have hD : 0 < ∑ k' ∈ pre K K, ∑ j, Real.exp (s k' j - m) := by
    rw [hpre]
    exact Finset.sum_pos (fun k' _ => Finset.sum_pos (fun j _ => Real.exp_pos _) Finset.univ_nonempty)
      Finset.univ_nonempty
  -- the double sums are sums over the pairs
  have e1 : (∑ k', ∑ j, Real.exp (s k' j - m) * u k' j) = ∑ p : Fin K × Fin B, Real.exp (s p.1 p.2 - m) * u p.1 p.2 :=
    (Fintype.sum_prod_type' (fun k' j => Real.exp (s k' j - m) * u k' j)).symm
  have e2 : (∑ k', ∑ j, Real.exp (s k' j - m)) = ∑ p : Fin K × Fin B, Real.exp (s p.1 p.2 - m) :=
    (Fintype.sum_prod_type' (fun k' j => Real.exp (s k' j - m))).symm
  rw [Ideal.div_coe hD.ne', ← EReal.coe_mul]
  congr 1
  rw [hpre, e1, e2, mul_one_div, attn]
  exact shift_cancel Finset.univ (fun p : Fin K × Fin B => s p.1 p.2) (fun p => u p.1 p.2) m

end Cert.Math

end
-- ==== Proof.Val.Spec.lean ====
/- The function both programs compute, over the reals: projections of the input by the weight matrices,
   logits of each query row against every key row, and the softmax-weighted average of the value rows.
   The argument arrays are real (the precondition says every entry is finite); the result is read on the
   extended reals. -/
import proofs.«414092_j9835475108302_3_alg».proof.Proof.Math.Attn
import Idealize.ShloMosaic.Lib.ValueIdx

noncomputable section

namespace Cert.Spec

open Idealize.ShloMosaic Idealize.ShloMosaic.ValueIdx
open scoped BigOperators

/-- The six argument arrays as real arrays: the input `x` [4, 2048, 1024] and the weights
    `wk`, `wq`, `wv`, `wa`, `wb` [1024, 1024] (each weight [out, in]). -/
structure Args where
  x : Fin 4 → Fin 2048 → Fin 1024 → ℝ
  wk : Fin 1024 → Fin 1024 → ℝ
  wq : Fin 1024 → Fin 1024 → ℝ
  wv : Fin 1024 → Fin 1024 → ℝ
  wa : Fin 1024 → Fin 1024 → ℝ
  wb : Fin 1024 → Fin 1024 → ℝ

variable (a : Args)

/-- The query projection `x · wqᵀ`. -/
def q (b : Fin 4) (i : Fin 2048) (d : Fin 1024) : ℝ := ∑ e, a.x b i e * a.wq d e
/-- The fused key weight `wa · wk`. -/
def wak (d e : Fin 1024) : ℝ := ∑ k, a.wa d k * a.wk k e
/-- The fused value weight `wb · wv`. -/
def wbv (w e : Fin 1024) : ℝ := ∑ k, a.wb w k * a.wv k e
/-- The projected keys `x · (wa · wk)ᵀ`. -/
def ak (b : Fin 4) (i : Fin 2048) (d : Fin 1024) : ℝ := ∑ e, a.x b i e * wak a d e
/-- The projected values `x · (wb · wv)ᵀ`. -/
def uu (b : Fin 4) (i : Fin 2048) (w : Fin 1024) : ℝ := ∑ e, a.x b i e * wbv a w e
/-- The logit of query row `i` against key row `j`. -/
def sc (b : Fin 4) (i j : Fin 2048) : ℝ := ∑ d, q a b i d * ak a b j d
/-- The attention output: the softmax over `j` of the logits, weighting the value rows. -/
def out (b : Fin 4) (i : Fin 2048) (v : Fin 1024) : ℝ :=
  Cert.Math.attn (fun j : Fin 2048 => sc a b i j) (fun j : Fin 2048 => uu a b j v)

/-- The result array. -/
def G : (⟨3, ![4, 2048, 1024]⟩ : Shape).Idx → EReal := fun idx => ((out a (idx 0) (idx 1) (idx 2) : ℝ) : EReal)

theorem G_ix3 (b : Fin 4) (i : Fin 2048) (v : Fin 1024) : G a (ix3 b i v) = ((out a b i v : ℝ) : EReal) := rfl

/-- The keys projected twice (`x · wkᵀ`, then `· waᵀ`) are the keys projected once by the fused weight. -/
theorem ak_twice (b : Fin 4) (i : Fin 2048) (d : Fin 1024) :
    (∑ k, (∑ e, a.x b i e * a.wk k e) * a.wa d k) = ak a b i d :=
  Cert.Math.proj_assoc (fun e => a.x b i e) (fun k e => a.wk k e) (fun k => a.wa d k)

/-- The same for the values. -/
theorem uu_twice (b : Fin 4) (i : Fin 2048) (w : Fin 1024) :
    (∑ k, (∑ e, a.x b i e * a.wv k e) * a.wb w k) = uu a b i w :=
  Cert.Math.proj_assoc (fun e => a.x b i e) (fun k e => a.wv k e) (fun k => a.wb w k)

/-- Row `r` of the flattened [8192, 1024] input is row `rowI r` of batch `rowB r`. -/
def rowB (r : Fin 8192) : Fin 4 := ⟨r.val / 2048, by have := r.isLt; omega⟩
def rowI (r : Fin 8192) : Fin 2048 := ⟨r.val % 2048, Nat.mod_lt _ (by decide)⟩
/-- The flattened row of batch `b`, row `i`. -/
def flat (b : Fin 4) (i : Fin 2048) : Fin 8192 := ⟨2048 * b.val + i.val, by have := b.isLt; have := i.isLt; omega⟩

theorem rowB_flat (b : Fin 4) (i : Fin 2048) : rowB (flat b i) = b := by
  apply Fin.ext; have := i.isLt; simp only [rowB, flat]; omega
theorem rowI_flat (b : Fin 4) (i : Fin 2048) : rowI (flat b i) = i := by
  apply Fin.ext; have := i.isLt; simp only [rowI, flat]; omega
theorem flat_row (r : Fin 8192) : flat (rowB r) (rowI r) = r := by
  apply Fin.ext; simp only [rowB, rowI, flat]; omega

end Cert.Spec

end
-- ==== Proof.Val.Args.lean ====
/- The link between a launch memory of the idealized kernel program and the real argument arrays: each of the
   six argument buffers holds a real array read on the extended reals. -/
import proofs.«414092_j9835475108302_3_alg».proof.Proof.Gen.KernelIdeal
import proofs.«414092_j9835475108302_3_alg».proof.Proof.Val.Spec

noncomputable section

namespace Cert.KernelIdeal.Val

open Cert.KernelIdeal Idealize.ShloMosaic Idealize.ShloMosaic.TcCoe Idealize.SL.Sem

/-- Core `c`'s six argument buffers in the memory `m` are the real arrays `a`, read on the extended reals
    (the kernel's argument order: x, Wk, Wq, Wv, Wa, Wb). -/
def IsArgs (m : (ℓ : Loc nD τ sig) → Buf (Elt Ideal) ℓ) (c : Dev nD) (a : Cert.Spec.Args) : Prop :=
  (m ((c.tc : Thread nD τ).loc main_arg0) : S4x2048x1024.Idx → EReal) = (fun i => ((a.x (i 0) (i 1) (i 2) : ℝ) : EReal))
  ∧ (m ((c.tc : Thread nD τ).loc main_arg1) : S1024x1024.Idx → EReal) = (fun i => ((a.wk (i 0) (i 1) : ℝ) : EReal))
  ∧ (m ((c.tc : Thread nD τ).loc main_arg2) : S1024x1024.Idx → EReal) = (fun i => ((a.wq (i 0) (i 1) : ℝ) : EReal))
  ∧ (m ((c.tc : Thread nD τ).loc main_arg3) : S1024x1024.Idx → EReal) = (fun i => ((a.wv (i 0) (i 1) : ℝ) : EReal))
  ∧ (m ((c.tc : Thread nD τ).loc main_arg4) : S1024x1024.Idx → EReal) = (fun i => ((a.wa (i 0) (i 1) : ℝ) : EReal))
  ∧ (m ((c.tc : Thread nD τ).loc main_arg5) : S1024x1024.Idx → EReal) = (fun i => ((a.wb (i 0) (i 1) : ℝ) : EReal))

end Cert.KernelIdeal.Val

end
-- ==== Proof.Val.Fin.lean ====
/- From the precondition to real arrays: the precondition says that every entry of every argument array has
   magnitude below +∞; an extended real of magnitude below +∞ is a real; so each of the six argument buffers
   holds a real array read on the extended reals. -/
import proofs.«414092_j9835475108302_3_alg».proof.Defs
import proofs.«414092_j9835475108302_3_alg».proof.Proof.Gen.Pre_finite_inputs
import proofs.«414092_j9835475108302_3_alg».proof.Proof.Val.Args
import Idealize.ShloMosaic.Lib.ReduceAll

noncomputable section

namespace Cert.KernelIdeal.Val

open Cert.KernelIdeal Idealize.ShloMosaic Idealize.ShloMosaic.TcCoe Idealize.SL.Sem

/-- The scalar shape has one index. -/
instance : Subsingleton Cert.Pre_finite_inputs.S_.Idx := ⟨fun a b => funext fun d => d.elim0⟩

/-- An extended real whose magnitude `max x (-x)` is below `+∞` is a real: at `⊥` and at `⊤` the magnitude is `⊤`. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  induction x using EReal.rec with
  | bot => simp at h
  | coe r => exact ⟨r, rfl⟩
  | top => simp at h

/-- "All entries have magnitude below `+∞`" over an array (a reduction by `and`, from 1, of the entrywise
    comparison against the broadcast `+∞`) says that every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hn : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hn ValueIdx.ix0 = 1#1) (i : s.Idx) :
    ∃ r : ℝ, x i = (r : EReal) :=
  real_of_abs_lt_inf (x i) (Host.reduce_andi_all _ _ hr hn ValueIdx.ix0 e i)

/-- Under the precondition the six argument buffers of every core are real arrays. -/
theorem args_of_pre (m : (ℓ : Loc Cert.KernelIdeal.nD Cert.KernelIdeal.τ Cert.KernelIdeal.sig) → Buf (Elt Ideal) ℓ)
    (h : Cert.Pre_KernelIdeal m) (c : Dev Cert.KernelIdeal.nD) : ∃ a : Cert.Spec.Args, Cert.KernelIdeal.Val.IsArgs m c a := by
  -- the predicate's one result is 1: it is the conjunction of the six "all entries finite"
  have h0 := congrFun (h c) ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- choose the real entries of each array
  choose x hx using all_real _ _ _ _ e0
  choose wk hwk using all_real _ _ _ _ e1
  choose wq hwq using all_real _ _ _ _ e2
  choose wv hwv using all_real _ _ _ _ e3
  choose wa hwa using all_real _ _ _ _ e4
  choose wb hwb using all_real _ _ _ _ e5
  refine ⟨⟨fun b i e => x (ValueIdx.ix3 b i e), fun p q => wk (ValueIdx.ix2 p q), fun p q => wq (ValueIdx.ix2 p q),
    fun p q => wv (ValueIdx.ix2 p q), fun p q => wa (ValueIdx.ix2 p q), fun p q => wb (ValueIdx.ix2 p q)⟩,
    ?_, ?_, ?_, ?_, ?_, ?_⟩
  · funext i; exact (hx i).trans (congrArg (fun j => ((x j : ℝ) : EReal)) (ValueIdx.eq_ix3 i))
  · funext i; exact (hwk i).trans (congrArg (fun j => ((wk j : ℝ) : EReal)) (ValueIdx.eq_ix2 i))
  · funext i; exact (hwq i).trans (congrArg (fun j => ((wq j : ℝ) : EReal)) (ValueIdx.eq_ix2 i))
  · funext i; exact (hwv i).trans (congrArg (fun j => ((wv j : ℝ) : EReal)) (ValueIdx.eq_ix2 i))
  · funext i; exact (hwa i).trans (congrArg (fun j => ((wa j : ℝ) : EReal)) (ValueIdx.eq_ix2 i))
  · funext i; exact (hwb i).trans (congrArg (fun j => ((wb j : ℝ) : EReal)) (ValueIdx.eq_ix2 i))

end Cert.KernelIdeal.Val

end
-- ==== Proof.Val.Ref.lean ====
/- The reference program's result is the specification. Read index by index on the extended reals with real
   argument arrays: every projection is a sum of products of reals, hence a real; the keys and the values, projected
   twice, are the keys and values projected once by the fused weights; each row's maximum logit is a real (the row is
   not empty); the exponentials of the shifted logits, their sum, the quotient and the weighted sum are then the plain
   evaluation of the softmax-weighted average, whose value does not depend on the shift. -/
import proofs.«414092_j9835475108302_3_alg».proof.Proof.Gen.ReferenceIdeal.Read
import proofs.«414092_j9835475108302_3_alg».proof.Proof.Val.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open Cert.Spec (q ak uu sc out G)
open scoped BigOperators

variable (a : Cert.Spec.Args)

/-! ## The argument arrays read on the extended reals -/

/-- The input. -/
def argX : (⟨S4x2048x1024, .f32⟩ : BufTy).Contents (Elt Ideal) := fun i => ((a.x (i 0) (i 1) (i 2) : ℝ) : EReal)
/-- The key weight. -/
def argK : (⟨S1024x1024, .f32⟩ : BufTy).Contents (Elt Ideal) := fun i => ((a.wk (i 0) (i 1) : ℝ) : EReal)
/-- The query weight. -/
def argQ : (⟨S1024x1024, .f32⟩ : BufTy).Contents (Elt Ideal) := fun i => ((a.wq (i 0) (i 1) : ℝ) : EReal)
/-- The value weight. -/
def argV : (⟨S1024x1024, .f32⟩ : BufTy).Contents (Elt Ideal) := fun i => ((a.wv (i 0) (i 1) : ℝ) : EReal)
/-- The second key weight. -/
def argA : (⟨S1024x1024, .f32⟩ : BufTy).Contents (Elt Ideal) := fun i => ((a.wa (i 0) (i 1) : ℝ) : EReal)
/-- The second value weight. -/
def argB : (⟨S1024x1024, .f32⟩ : BufTy).Contents (Elt Ideal) := fun i => ((a.wb (i 0) (i 1) : ℝ) : EReal)

theorem argX_ix3 (b : Fin 4) (i : Fin 2048) (e : Fin 1024) : argX a (ix3 b i e) = ((a.x b i e : ℝ) : EReal) := rfl
theorem argK_ix2 (d e : Fin 1024) : argK a (ix2 d e) = ((a.wk d e : ℝ) : EReal) := rfl
theorem argQ_ix2 (d e : Fin 1024) : argQ a (ix2 d e) = ((a.wq d e : ℝ) : EReal) := rfl
theorem argV_ix2 (d e : Fin 1024) : argV a (ix2 d e) = ((a.wv d e : ℝ) : EReal) := rfl
theorem argA_ix2 (d e : Fin 1024) : argA a (ix2 d e) = ((a.wa d e : ℝ) : EReal) := rfl
theorem argB_ix2 (d e : Fin 1024) : argB a (ix2 d e) = ((a.wb d e : ℝ) : EReal) := rfl

/-! ## The operand indices at coordinates -/

section Indices
variable (b : Fin 4) (i j : Fin 2048) (d k : Fin 1024) (l : Fin 2048)

theorem lidx_v0 : lidx_main_v0 (ix3 b i d) k = ix3 b i k :=
  funext fun c => Fin.ext (by match c with | ⟨0, _⟩ => rfl | ⟨1, _⟩ => rfl | ⟨2, _⟩ => rfl)
theorem ridx_v0 : ridx_main_v0 (ix3 b i d) k = ix2 d k :=
  funext fun c => Fin.ext (by match c with | ⟨0, _⟩ => rfl | ⟨1, _⟩ => rfl)
theorem lidx_v1 : lidx_main_v1 (ix3 b i d) k = ix3 b i k :=
  funext fun c => Fin.ext (by match c with | ⟨0, _⟩ => rfl | ⟨1, _⟩ => rfl | ⟨2, _⟩ => rfl)
theorem ridx_v1 : ridx_main_v1 (ix3 b i d) k = ix2 d k :=
  funext fun c => Fin.ext (by match c with | ⟨0, _⟩ => rfl | ⟨1, _⟩ => rfl)
theorem lidx_v2 : lidx_main_v2 (ix3 b i d) k = ix3 b i k :=
  funext fun c => Fin.ext (by match c with | ⟨0, _⟩ => rfl | ⟨1, _⟩ => rfl | ⟨2, _⟩ => rfl)
theorem ridx_v2 : ridx_main_v2 (ix3 b i d) k = ix2 d k :=
  funext fun c => Fin.ext (by match c with | ⟨0, _⟩ => rfl | ⟨1, _⟩ => rfl)
theorem lidx_v3 : lidx_main_v3 (ix3 b i d) k = ix3 b i k :=
  funext fun c => Fin.ext (by match c with | ⟨0, _⟩ => rfl | ⟨1, _⟩ => rfl | ⟨2, _⟩ => rfl)
theorem ridx_v3 : ridx_main_v3 (ix3 b i d) k = ix2 d k :=
  funext fun c => Fin.ext (by match c with | ⟨0, _⟩ => rfl | ⟨1, _⟩ => rfl)
theorem lidx_v16 : lidx_main_v16 (ix3 b i d) k = ix3 b i k :=
  funext fun c => Fin.ext (by match c with | ⟨0, _⟩ => rfl | ⟨1, _⟩ => rfl | ⟨2, _⟩ => rfl)
theorem ridx_v16 : ridx_main_v16 (ix3 b i d) k = ix2 d k :=
  funext fun c => Fin.ext (by match c with | ⟨0, _⟩ => rfl | ⟨1, _⟩ => rfl)
/-- The logits contract a query row with a key row. -/
theorem lidx_v4 : lidx_main_v4 (ix3 b i j) k = ix3 b i k :=
  funext fun c => Fin.ext (by match c with | ⟨0, _⟩ => rfl | ⟨1, _⟩ => rfl | ⟨2, _⟩ => rfl)
theorem ridx_v4 : ridx_main_v4 (ix3 b i j) k = ix3 b j k :=
  funext fun c => Fin.ext (by match c with | ⟨0, _⟩ => rfl | ⟨1, _⟩ => rfl | ⟨2, _⟩ => rfl)
/-- The result contracts a row's weights with the value rows. -/
theorem lidx_v17 : lidx_main_v17 (ix3 b i d) l = ix3 b i l :=
  funext fun c => Fin.ext (by match c with | ⟨0, _⟩ => rfl | ⟨1, _⟩ => rfl | ⟨2, _⟩ => rfl)
theorem ridx_v17 : ridx_main_v17 (ix3 b i d) l = ix3 b l d :=
  funext fun c => Fin.ext (by match c with | ⟨0, _⟩ => rfl | ⟨1, _⟩ => rfl | ⟨2, _⟩ => rfl)
/-- A row's scalar, broadcast along the row, is read at the row. -/
theorem idx_v8_v9 : idx_main_v8 (idx_main_v9 (ix3 b i j)) = ix2 b i :=
  funext fun c => Fin.ext (by match c with | ⟨0, _⟩ => rfl | ⟨1, _⟩ => rfl)
theorem idx_v13_v14 : idx_main_v13 (idx_main_v14 (ix3 b i j)) = ix2 b i :=
  funext fun c => Fin.ext (by match c with | ⟨0, _⟩ => rfl | ⟨1, _⟩ => rfl)
theorem idx_v12 : idx_main_v12 (ix2 b i) l = ix3 b i l :=
  funext fun c => Fin.ext (by match c with | ⟨0, _⟩ => rfl | ⟨1, _⟩ => rfl | ⟨2, _⟩ => rfl)

end Indices

/-! ## The projections -/

/-- The keys' first projection, x · wkᵀ. -/
theorem v0_at (b : Fin 4) (i : Fin 2048) (d : Fin 1024) :
    val_main_v0 (F := Ideal) (argX a) (argK a) (ix3 b i d) = ((∑ e, a.x b i e * a.wk d e : ℝ) : EReal) := by
  rw [val_main_v0_apply]
  refine Eq.trans (Finset.sum_congr rfl fun k _ => ?_) (Cert.Math.coe_dot (fun e => a.x b i e) (fun e => a.wk d e))
  rw [lidx_v0, ridx_v0, argX_ix3, argK_ix2]

/-- The queries, x · wqᵀ. -/
theorem v1_at (b : Fin 4) (i : Fin 2048) (d : Fin 1024) :
    val_main_v1 (F := Ideal) (argX a) (argQ a) (ix3 b i d) = ((q a b i d : ℝ) : EReal) := by
  rw [val_main_v1_apply]
  refine Eq.trans (Finset.sum_congr rfl fun k _ => ?_) (Cert.Math.coe_dot (fun e => a.x b i e) (fun e => a.wq d e))
  rw [lidx_v1, ridx_v1, argX_ix3, argQ_ix2]

/-- The values' first projection, x · wvᵀ. -/
theorem v2_at (b : Fin 4) (i : Fin 2048) (d : Fin 1024) :
    val_main_v2 (F := Ideal) (argX a) (argV a) (ix3 b i d) = ((∑ e, a.x b i e * a.wv d e : ℝ) : EReal) := by
  rw [val_main_v2_apply]
  refine Eq.trans (Finset.sum_congr rfl fun k _ => ?_) (Cert.Math.coe_dot (fun e => a.x b i e) (fun e => a.wv d e))
  rw [lidx_v2, ridx_v2, argX_ix3, argV_ix2]

/-- The keys projected a second time are the keys projected once by the fused weight. -/
theorem v3_at (b : Fin 4) (i : Fin 2048) (d : Fin 1024) :
    val_main_v3 (F := Ideal) (argX a) (argK a) (argA a) (ix3 b i d) = ((ak a b i d : ℝ) : EReal) := by
  rw [val_main_v3_apply, ← Cert.Spec.ak_twice]
  refine Eq.trans (Finset.sum_congr rfl fun k _ => ?_)
    (Cert.Math.coe_dot (fun k => ∑ e, a.x b i e * a.wk k e) (fun k => a.wa d k))
  rw [lidx_v3, ridx_v3, v0_at, argA_ix2]

/-- The values projected a second time are the values projected once by the fused weight. -/
theorem v16_at (b : Fin 4) (i : Fin 2048) (w : Fin 1024) :
    val_main_v16 (F := Ideal) (argX a) (argV a) (argB a) (ix3 b i w) = ((uu a b i w : ℝ) : EReal) := by
  rw [val_main_v16_apply, ← Cert.Spec.uu_twice]
  refine Eq.trans (Finset.sum_congr rfl fun k _ => ?_)
    (Cert.Math.coe_dot (fun k => ∑ e, a.x b i e * a.wv k e) (fun k => a.wb w k))
  rw [lidx_v16, ridx_v16, v2_at, argB_ix2]

/-! ## The logits -/

/-- The logit of a query row against a key row. -/
theorem v4_at (b : Fin 4) (i j : Fin 2048) :
    val_main_v4 (F := Ideal) (argX a) (argK a) (argQ a) (argA a) (ix3 b i j) = ((sc a b i j : ℝ) : EReal) := by
  rw [val_main_v4_apply]
  refine Eq.trans (Finset.sum_congr rfl fun k _ => ?_) (Cert.Math.coe_dot (fun d => q a b i d) (fun d => ak a b j d))
  rw [lidx_v4, ridx_v4, v1_at, v3_at]

/-- Every logit is a real. -/
theorem v4_real (idx : S4x2048x2048.Idx) :
    val_main_v4 (F := Ideal) (argX a) (argK a) (argQ a) (argA a) idx = ((sc a (idx 0) (idx 1) (idx 2) : ℝ) : EReal) :=
  (congrArg (val_main_v4 (F := Ideal) (argX a) (argK a) (argQ a) (argA a)) (eq_ix3 idx)).trans (v4_at a (idx 0) (idx 1) (idx 2))

/-! ## The row maximum -/

/-- The larger of two reals is a real. -/
theorem max_coe (x y : ℝ) : max (x : EReal) (y : EReal) = ((max x y : ℝ) : EReal) :=
  (EReal.coe_strictMono.monotone.map_max (a := x) (b := y)).symm

/-- The maximum, from −∞, of finitely many reals, at least one of them, is a real. -/
theorem fold_max_real {ι : Type} (op : EReal → EReal → EReal) [Std.Commutative op] [Std.Associative op]
    (hop : ∀ x y, op x y = max x y) (g : ι → ℝ) (s : Finset ι) (hs : s.Nonempty) :
    ∃ m : ℝ, s.fold op (⊥ : EReal) (fun k => (g k : EReal)) = (m : EReal) := by
  induction hs using Finset.Nonempty.cons_induction with
  | singleton k => exact ⟨g k, by rw [Finset.fold_singleton, hop]; exact max_eq_left bot_le⟩
  | cons k s hk hs ih =>
    obtain ⟨m, hm⟩ := ih
    exact ⟨max (g k) m, by rw [Finset.fold_cons, hm, hop, max_coe]⟩

/-- The word 0xFF800000 is −∞. -/
theorem ofBits_neg_inf : Ideal.ofBits .f32 0xFF800000#32 = (⊥ : EReal) := by simp [Ideal.ofBits, Ideal.ieee]

/-- The logits' last axis is the one the maximum runs over. -/
theorem reduces_row : S4x2048x2048.Reduces [2] S4x2048 := by decide

/-- A row's maximum is the maximum, from the initial value, over the row's 2048 positions. -/
theorem v5_fold (r : S4x2048.Idx) :
    val_main_v5 (F := Ideal) (argX a) (argK a) (argQ a) (argA a) r
      = (Finset.univ : Finset (Fin (S4x2048x2048.size 2))).fold (FloatOps.maximumf (F := Ideal) (φ := .f32))
          (val_main_cst (F := Ideal) (Shape.Idx.first h_S_))
          (val_main_v4 (F := Ideal) (argX a) (argK a) (argQ a) (argA a) ∘ reduces_row.lift r) := by
  unfold val_main_v5
  exact Host.reduce_eq_fold_single FloatOps.maximumf _ _ reducesTo_S4x2048x2048_S4x2048_d2 reduces_row h_S_ r

/-- The row's logits are reals. -/
theorem v5_row (r : S4x2048.Idx) :
    (val_main_v4 (F := Ideal) (argX a) (argK a) (argQ a) (argA a) ∘ reduces_row.lift r)
      = fun k => ((sc a (reduces_row.lift r k 0) (reduces_row.lift r k 1) (reduces_row.lift r k 2) : ℝ) : EReal) := by
  funext k
  rw [Function.comp_apply]
  exact v4_real a (reduces_row.lift r k)

/-- The initial value is −∞. -/
theorem v5_init : val_main_cst (F := Ideal) (Shape.Idx.first h_S_) = (⊥ : EReal) := by
  rw [val_main_cst_apply, Ideal.ofBits_def, ofBits_neg_inf]

/-- A row's maximum logit is a real: the row has 2048 logits, all real. -/
theorem v5_real (r : S4x2048.Idx) :
    ∃ m : ℝ, val_main_v5 (F := Ideal) (argX a) (argK a) (argQ a) (argA a) r = (m : EReal) := by
  rw [v5_fold, v5_row, v5_init]
  exact fold_max_real (FloatOps.maximumf (F := Ideal) (φ := .f32)) (fun _ _ => rfl)
    (fun k => sc a (reduces_row.lift r k 0) (reduces_row.lift r k 1) (reduces_row.lift r k 2)) Finset.univ
    ⟨⟨0, by decide⟩, Finset.mem_univ _⟩

/-- So is the larger of −∞ and it. -/
theorem v7_real (r : S4x2048.Idx) :
    ∃ m : ℝ, val_main_v7 (F := Ideal) (argX a) (argK a) (argQ a) (argA a) r = (m : EReal) := by
  obtain ⟨m, hm⟩ := v5_real a r
  refine ⟨m, ?_⟩
  rw [val_main_v7_apply, hm, val_main_v6_apply, val_main_cst_0_apply, Ideal.ofBits_def, ofBits_neg_inf, Ideal.maximumf_def]
  exact max_eq_right bot_le

/-- The shift broadcast along the row. -/
theorem v9_at (b : Fin 4) (i j : Fin 2048) :
    val_main_v9 (F := Ideal) (argX a) (argK a) (argQ a) (argA a) (ix3 b i j)
      = val_main_v7 (F := Ideal) (argX a) (argK a) (argQ a) (argA a) (ix2 b i) := by
  rw [val_main_v9_apply, val_main_v8_apply, idx_v8_v9]

/-! ## The exponentials, their sum, the weights -/

section Row
variable (b : Fin 4) (i : Fin 2048) (m : ℝ)
  (hm : val_main_v7 (F := Ideal) (argX a) (argK a) (argQ a) (argA a) (ix2 b i) = (m : EReal))
include hm

/-- The exponential of a logit shifted by the row's maximum. -/
theorem v11_at (j : Fin 2048) :
    val_main_v11 (F := Ideal) (argX a) (argK a) (argQ a) (argA a) (ix3 b i j)
      = Ideal.exp (((sc a b i j : ℝ) : EReal) - (m : EReal)) := by
  rw [val_main_v11_apply, val_main_v10_apply, v4_at, v9_at, hm, Ideal.hostUnary_exp_def, Ideal.subf_def]

/-- The row's sum of exponentials (the initial value is zero). -/
theorem v12_at :
    val_main_v12 (F := Ideal) (argX a) (argK a) (argQ a) (argA a) (ix2 b i)
      = ∑ j : Fin 2048, Ideal.exp (((sc a b i j : ℝ) : EReal) - (m : EReal)) := by
  rw [val_main_v12_apply, val_main_cst_1_apply, Ideal.ofBits_def, Ideal.ofBits_zero_f32, zero_add]
  refine Finset.sum_congr rfl fun k _ => ?_
  rw [idx_v12, v11_at a b i m hm]

/-- A weight: the exponential over the row's sum. -/
theorem v15_at (j : Fin 2048) :
    val_main_v15 (F := Ideal) (argX a) (argK a) (argQ a) (argA a) (ix3 b i j)
      = Ideal.div (Ideal.exp (((sc a b i j : ℝ) : EReal) - (m : EReal)))
          (∑ j' : Fin 2048, Ideal.exp (((sc a b i j' : ℝ) : EReal) - (m : EReal))) := by
  rw [val_main_v15_apply, v11_at a b i m hm, val_main_v14_apply, val_main_v13_apply, idx_v13_v14, v12_at a b i m hm,
    Ideal.hostDivf_def]

end Row

/-! ## The result -/

/-- The weighted sum of the value rows is the softmax-weighted average. -/
theorem v17_at (b : Fin 4) (i : Fin 2048) (v : Fin 1024) :
    val_main_v17 (F := Ideal) (argX a) (argK a) (argQ a) (argV a) (argA a) (argB a) (ix3 b i v) = G a (ix3 b i v) := by
  obtain ⟨m, hm⟩ := v7_real a (ix2 b i)
  rw [val_main_v17_apply, Cert.Spec.G_ix3]
  unfold Cert.Spec.out
  rw [← Cert.Math.ref_row (fun j : Fin 2048 => sc a b i j) (fun j : Fin 2048 => uu a b j v) m]
  refine Finset.sum_congr rfl fun k _ => ?_
  rw [lidx_v17, ridx_v17, v15_at a b i m hm, v16_at]

/-- THE REFERENCE'S VALUE: with the real argument arrays read on the extended reals, the reference program's result
    is the specification. -/
theorem ref_value (a : Cert.Spec.Args)
    (x0 : (⟨S4x2048x1024, .f32⟩ : BufTy).Contents (Elt Ideal)) (x1 x2 x3 x4 x5 : (⟨S1024x1024, .f32⟩ : BufTy).Contents (Elt Ideal))
    (h0 : x0 = fun i => ((a.x (i 0) (i 1) (i 2) : ℝ) : EReal)) (h1 : x1 = fun i => ((a.wk (i 0) (i 1) : ℝ) : EReal))
    (h2 : x2 = fun i => ((a.wq (i 0) (i 1) : ℝ) : EReal)) (h3 : x3 = fun i => ((a.wv (i 0) (i 1) : ℝ) : EReal))
    (h4 : x4 = fun i => ((a.wa (i 0) (i 1) : ℝ) : EReal)) (h5 : x5 = fun i => ((a.wb (i 0) (i 1) : ℝ) : EReal)) :
    Cert.ReferenceIdeal.Read.val_main_v17 (F := Ideal) x0 x1 x2 x3 x4 x5 = Cert.Spec.G a := by
  subst h0 h1 h2 h3 h4 h5
  funext idx
  obtain ⟨b, i, v, rfl⟩ : ∃ (b : Fin 4) (i : Fin 2048) (v : Fin 1024), idx = ix3 b i v :=
    ⟨idx 0, idx 1, idx 2, eq_ix3 idx⟩
  exact v17_at a b i v

end Cert.ReferenceIdeal.RefValue

end
-- ==== Proof.Val.Host0.lean ====
/- What the host operations before the first region leave in the six arrays that region's windows stage, from real
   arguments: the input flattened to [8192, 1024] rows; the query weight transposed; the two fused weights
   `wa · wk` and `wb · wv` transposed; and three correction arrays, each an array of reals minus itself, zero. -/
import proofs.«414092_j9835475108302_3_alg».proof.Proof.Gen.KernelIdeal.Launch
import proofs.«414092_j9835475108302_3_alg».proof.Proof.Val.Args
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Val

open Cert.KernelIdeal Idealize.ShloMosaic Idealize.ShloMosaic.TcCoe Idealize.SL.Sem Idealize.ShloMosaic.StableHlo
open scoped BigOperators

/-- Core `c`'s buffers after the host operations before the first region, from the launch memory `m`. -/
abbrev E1 (m : (ℓ : Loc nD τ sig) → Buf (Elt Ideal) ℓ) (c : Dev nD) : Valuation τ sig (Elt Ideal) :=
  StableHlo.after (Gen.hostOps0 (F := Ideal)) (fun b => m (c, b))

/-- A [1024, 1024] array transposed, read at (p, q), is the array at (q, p). -/
theorem transpose_ix {α : Type} (x : S1024x1024.Idx → α) (h : S1024x1024.Transposes [1, 0] S1024x1024) (i : S1024x1024.Idx) :
    transpose S1024x1024 [1, 0] x h i = x (ValueIdx.ix2 (i 1) (i 0)) :=
  transpose_apply [1, 0] x h i _ (fun b => match b with | ⟨0, _⟩ => rfl | ⟨1, _⟩ => rfl)

/-- A [4, 2048, 1024] array flattened to [8192, 1024], read at (r, e): row `r` is row `r % 2048` of batch `r / 2048`. -/
theorem flatten_apply {α : Type} (x : S4x2048x1024.Idx → α) (h : S4x2048x1024.ShapeCasts S8192x1024) (i : S8192x1024.Idx) :
    shapeCast S8192x1024 x h i = x (ValueIdx.ix3 (Cert.Spec.rowB (i 0)) (Cert.Spec.rowI (i 0)) (i 1)) := by
  refine shapeCast_apply x h i _ ?_
  rw [Shape.rowMajor_val_three, Shape.rowMajor_val_two]
  show (((i 0).val / 2048) * 2048 + (i 0).val % 2048) * 1024 + (i 1).val = (i 0).val * 1024 + (i 1).val
  omega

/-! The operand indices of the [1024, 1024] × [1024, 1024] product (left axis 1 contracted with right axis 0). -/

theorem lhs_dot_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two [1024, 1024] arrays of reals, read at (p, q), is the real `∑ k, A p k * B k q`. -/
theorem dot_ix (A B : Fin 1024 → Fin 1024 → ℝ) (l r : S1024x1024.Idx → EReal)
    (hl : l = fun i => ((A (i 0) (i 1) : ℝ) : EReal)) (hr : r = fun i => ((B (i 0) (i 1) : ℝ) : EReal)) (i : S1024x1024.Idx) :
    Host.dotGeneral (F := Ideal) (φ₁ := .f32) (φ₂ := .f32) dot_S1024x1024_S1024x1024_S1024x1024_1_0_0_1_n_n (some .fp32) l r i = ((∑ k, A (i 0) k * B k (i 1) : ℝ) : EReal) := by
  subst hl hr
  simp only [Host.dotGeneral]
  rw [Ideal.dotGeneral_apply, ← Equiv.sum_comp (ValueIdx.contrEquiv1 dot_S1024x1024_S1024x1024_S1024x1024_1_0_0_1_n_n 1024 rfl rfl).symm, ← Cert.Math.coe_dot]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx i ((ValueIdx.contrEquiv1 dot_S1024x1024_S1024x1024_S1024x1024_1_0_0_1_n_n 1024 rfl rfl).symm k) = ValueIdx.ix2 (i 0) k := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx i ((ValueIdx.contrEquiv1 dot_S1024x1024_S1024x1024_S1024x1024_1_0_0_1_n_n 1024 rfl rfl).symm k) = ValueIdx.ix2 k (i 1) := funext fun a => Fin.ext (by
    match a with
    | ⟨0, _⟩ => exact (rhs_dot_0 _ _).trans hk
    | ⟨1, _⟩ => exact rhs_dot_1 _ _)
  rw [el, er]

/-- What the host operations before the first region leave in the arrays its windows stage. -/
theorem host0_values (m : (ℓ : Loc nD τ sig) → Buf (Elt Ideal) ℓ) (c : Dev nD) (a : Cert.Spec.Args) (h : IsArgs m c a) :
      (E1 m c (Proc.devRef .tc main_v14) : S8192x1024.Idx → EReal) = (fun i => ((a.x (Cert.Spec.rowB (i 0)) (Cert.Spec.rowI (i 0)) (i 1) : ℝ) : EReal))
      ∧ (E1 m c (Proc.devRef .tc main_v3) : S1024x1024.Idx → EReal) = (fun i => ((a.wq (i 1) (i 0) : ℝ) : EReal))
      ∧ (E1 m c (Proc.devRef .tc main_v6) : S1024x1024.Idx → EReal) = (fun _ => (0 : EReal))
      ∧ (E1 m c (Proc.devRef .tc main_v8) : S1024x1024.Idx → EReal) = (fun i => ((Cert.Spec.wak a (i 1) (i 0) : ℝ) : EReal))
      ∧ (E1 m c (Proc.devRef .tc main_v11) : S1024x1024.Idx → EReal) = (fun _ => (0 : EReal))
      ∧ (E1 m c (Proc.devRef .tc main_v13) : S1024x1024.Idx → EReal) = (fun i => ((Cert.Spec.wbv a (i 1) (i 0) : ℝ) : EReal)) := by
  obtain ⟨hx, hwk, hwq, hwv, hwa, hwb⟩ := h
  refine ⟨?_, ?_, ?_, ?_, ?_, ?_⟩
  · -- the input, flattened
    show StableHlo.after (Gen.hostOps0 (F := Ideal)) _ (Proc.devRef .tc main_v14) = _
    after_results
    funext i
    show shapeCast S8192x1024 (m ((c.tc : Thread nD τ).loc main_arg0) : S4x2048x1024.Idx → EReal) Gen.shapeCasts_S4x2048x1024_S8192x1024 i = _
    rw [flatten_apply, hx]
    rfl
  · -- the query weight, transposed (a change of format is the identity)
    show StableHlo.after (Gen.hostOps0 (F := Ideal)) _ (Proc.devRef .tc main_v3) = _
    after_results
    funext i
    show transpose S1024x1024 [1, 0] (m ((c.tc : Thread nD τ).loc main_arg2) : S1024x1024.Idx → EReal) Gen.transposes_S1024x1024_S1024x1024_1_0 i = _
    rw [transpose_ix, hwq]
    rfl
  · -- its correction: the transposed weight minus itself
    show StableHlo.after (Gen.hostOps0 (F := Ideal)) _ (Proc.devRef .tc main_v6) = _
    after_results
    funext i
    show (transpose S1024x1024 [1, 0] (m ((c.tc : Thread nD τ).loc main_arg2) : S1024x1024.Idx → EReal) Gen.transposes_S1024x1024_S1024x1024_1_0 i : EReal) - (transpose S1024x1024 [1, 0] (m ((c.tc : Thread nD τ).loc main_arg2) : S1024x1024.Idx → EReal) Gen.transposes_S1024x1024_S1024x1024_1_0 i : EReal) = (0 : EReal)
    rw [transpose_ix, hwq]
    exact Cert.Math.coe_sub_self _
  · -- the fused key weight `wa · wk`, transposed
    show StableHlo.after (Gen.hostOps0 (F := Ideal)) _ (Proc.devRef .tc main_v8) = _
    after_results
    funext i
    show transpose S1024x1024 [1, 0] (Host.dotGeneral (F := Ideal) (φ₁ := .f32) (φ₂ := .f32) dot_S1024x1024_S1024x1024_S1024x1024_1_0_0_1_n_n (some .fp32) (m ((c.tc : Thread nD τ).loc main_arg4) : S1024x1024.Idx → EReal) (m ((c.tc : Thread nD τ).loc main_arg1) : S1024x1024.Idx → EReal)) Gen.transposes_S1024x1024_S1024x1024_1_0 i = _
    rw [transpose_ix, dot_ix a.wa a.wk _ _ hwa hwk]
    rfl
  · -- its correction
    show StableHlo.after (Gen.hostOps0 (F := Ideal)) _ (Proc.devRef .tc main_v11) = _
    after_results
    funext i
    show transpose S1024x1024 [1, 0] (Host.dotGeneral (F := Ideal) (φ₁ := .f32) (φ₂ := .f32) dot_S1024x1024_S1024x1024_S1024x1024_1_0_0_1_n_n (some .fp32) (m ((c.tc : Thread nD τ).loc main_arg4) : S1024x1024.Idx → EReal) (m ((c.tc : Thread nD τ).loc main_arg1) : S1024x1024.Idx → EReal)) Gen.transposes_S1024x1024_S1024x1024_1_0 i - transpose S1024x1024 [1, 0] (Host.dotGeneral (F := Ideal) (φ₁ := .f32) (φ₂ := .f32) dot_S1024x1024_S1024x1024_S1024x1024_1_0_0_1_n_n (some .fp32) (m ((c.tc : Thread nD τ).loc main_arg4) : S1024x1024.Idx → EReal) (m ((c.tc : Thread nD τ).loc main_arg1) : S1024x1024.Idx → EReal)) Gen.transposes_S1024x1024_S1024x1024_1_0 i = (0 : EReal)
    rw [transpose_ix, dot_ix a.wa a.wk _ _ hwa hwk]
    exact Cert.Math.coe_sub_self _
  · -- the fused value weight `wb · wv`, transposed
    show StableHlo.after (Gen.hostOps0 (F := Ideal)) _ (Proc.devRef .tc main_v13) = _
    after_results
    funext i
    show transpose S1024x1024 [1, 0] (Host.dotGeneral (F := Ideal) (φ₁ := .f32) (φ₂ := .f32) dot_S1024x1024_S1024x1024_S1024x1024_1_0_0_1_n_n (some .fp32) (m ((c.tc : Thread nD τ).loc main_arg5) : S1024x1024.Idx → EReal) (m ((c.tc : Thread nD τ).loc main_arg3) : S1024x1024.Idx → EReal)) Gen.transposes_S1024x1024_S1024x1024_1_0 i = _
    rw [transpose_ix, dot_ix a.wb a.wv _ _ hwb hwv]
    rfl

end Cert.KernelIdeal.Val

end
-- ==== Proof.Val.Pay0.lean ====
/- Region 0's five stored payloads at the extended reals, when the x block and the first weight piece are real arrays
   and the second weight piece is identically zero: the format changes and the same-shape cast are the identity, a real
   minus itself is zero, and a product into the zero accumulator is the sum over the contracted axis of the products. -/
import proofs.«414092_j9835475108302_3_alg».proof.Proof.Gen.KernelIdeal.Skeleton
import proofs.«414092_j9835475108302_3_alg».proof.Proof.Math.Attn
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- A real array read on the extended reals, as a block's or an array's contents. -/
def rd {n0 n1 : Nat} (a : Fin n0 → Fin n1 → ℝ) : (⟨2, ![n0, n1]⟩ : Shape).Idx → EReal := fun i => ((a (i 0) (i 1) : ℝ) : EReal)
/-- Its element at row p, column q. -/
theorem rd_ix2 {n0 n1 : Nat} (a : Fin n0 → Fin n1 → ℝ) (p : Fin n0) (q : Fin n1) : rd a (ix2 p q) = ((a p q : ℝ) : EReal) := rfl

/-! ## The product's operand indices, axis by axis -/

/-- The left operand's row is the output's row. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column is the contracted coordinate. -/
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contracted coordinate. -/
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column is the output's column. -/
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512x1024 by 1024x1024 product into the zero accumulator, at row r and column d: the sum over e of a r e * b e d. -/
theorem mm_apply (a : FVec Ideal S512x1024 .bf16) (b : FVec Ideal S1024x1024 .bf16) (r : Fin 512) (d : Fin 1024) :
    matmul dot_S512x1024_S1024x1024_S512x1024_1_0_0_1_n_n none a b (constant S512x1024 .f32 0x00000000#32) (ix2 r d)
      = ∑ e : Fin 1024, a (ix2 r e) * b (ix2 e d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r d) ((contrEquiv1 dot_S512x1024_S1024x1024_S512x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 r d) ((contrEquiv1 dot_S512x1024_S1024x1024_S512x1024_1_0_0_1_n_n 1024 rfl rfl).symm k) = ix2 k d := funext fun a => Fin.ext (by
    match a with
    | ⟨0, _⟩ => exact (rhs_mm_0 _ _).trans hk
    | ⟨1, _⟩ => exact rhs_mm_1 _ _)
  rw [el, er]

/-! ## The x block's two pieces -/

/-- The cast to the same shape changes nothing. -/
theorem proj_pay5_eq (x : Vec Ideal S512x1024 .f32) : k0_pay5 (F := Ideal) x = x := by
  unfold k0_pay5
  exact shapeCast_self _ _

/-- The first piece of the x block is the block itself (the format change is the identity). -/
theorem pay6_eq (x : Vec Ideal S512x1024 .f32) : k0_pay6 (F := Ideal) x = x := by
  unfold k0_pay6
  funext i
  rw [truncf_apply, proj_pay5_eq]

/-- The second piece, the block minus its first piece, is zero when the block is real. -/
theorem pay7_zero (x' : Fin 512 → Fin 1024 → ℝ) :
    k0_pay7 (F := Ideal) (rd x') = fun _ => (0 : EReal) := by
  unfold k0_pay7
  funext i
  rw [truncf_apply, subf_apply, proj_pay5_eq]
  exact Cert.Math.coe_sub_self _

/-! ## The products, at row r and column d -/

/-- x times a real weight whose second piece is zero, in three passes: the sum of the real products. -/
theorem pay8_at (x' : Fin 512 → Fin 1024 → ℝ) (w' : Fin 1024 → Fin 1024 → ℝ) (r : Fin 512) (d : Fin 1024) :
    k0_pay8 (F := Ideal) (rd x') (rd w') (rd w') (fun _ => (0 : EReal)) (ix2 r d)
      = ((∑ e, x' r e * w' e d : ℝ) : EReal) := by
  unfold k0_pay8
  simp only [shapeCast_self, pay6_eq, pay7_zero]
  rw [addf_apply, addf_apply, mm_apply, mm_apply, mm_apply]
  simp only [rd_ix2]
  rw [Cert.Math.dot_zero_left, Cert.Math.dot_zero_right, add_zero, add_zero, Cert.Math.coe_dot]

/-- x times a real weight, in two passes. -/
theorem pay11_at (x' : Fin 512 → Fin 1024 → ℝ) (w' : Fin 1024 → Fin 1024 → ℝ) (r : Fin 512) (d : Fin 1024) :
    k0_pay11 (F := Ideal) (rd x') (rd w') (rd w') (ix2 r d)
      = ((∑ e, x' r e * w' e d : ℝ) : EReal) := by
  unfold k0_pay11
  simp only [shapeCast_self, pay6_eq, pay7_zero]
  rw [addf_apply, mm_apply, mm_apply]
  simp only [rd_ix2]
  rw [Cert.Math.dot_zero_left, add_zero, Cert.Math.coe_dot]

/-- x times the zero weight piece is zero. -/
theorem pay12_at (x' : Fin 512 → Fin 1024 → ℝ) (r : Fin 512) (d : Fin 1024) :
    k0_pay12 (F := Ideal) (rd x') (fun _ => (0 : EReal)) (ix2 r d) = 0 := by
  unfold k0_pay12
  simp only [shapeCast_self, pay6_eq]
  rw [mm_apply]
  simp only [rd_ix2]
  rw [Cert.Math.dot_zero_right]

/-- The first stored piece of x times Wq: the product itself. -/
theorem pay9_at (x' : Fin 512 → Fin 1024 → ℝ) (w' : Fin 1024 → Fin 1024 → ℝ) (r : Fin 512) (d : Fin 1024) :
    k0_pay9 (F := Ideal) (rd x') (rd w') (rd w') (fun _ => (0 : EReal)) (ix2 r d)
      = ((∑ e, x' r e * w' e d : ℝ) : EReal) := by
  unfold k0_pay9
  rw [truncf_apply, pay8_at]

/-- The second stored piece: the product minus itself, zero because the product is real. -/
theorem pay10_at (x' : Fin 512 → Fin 1024 → ℝ) (w' : Fin 1024 → Fin 1024 → ℝ) (r : Fin 512) (d : Fin 1024) :
    k0_pay10 (F := Ideal) (rd x') (rd w') (rd w') (fun _ => (0 : EReal)) (ix2 r d) = 0 := by
  unfold k0_pay10
  rw [truncf_apply, subf_apply, pay8_at]
  exact Cert.Math.coe_sub_self _

theorem pay2_at (x' : Fin 512 → Fin 1024 → ℝ) (w' : Fin 1024 → Fin 1024 → ℝ) (r : Fin 512) (d : Fin 1024) :
    k0_pay2 (F := Ideal) (k0_pay11 (rd x') (rd w') (rd w')) (k0_pay12 (rd x') (fun _ => (0 : EReal))) (ix2 r d)
      = ((∑ e, x' r e * w' e d : ℝ) : EReal) := by
  unfold k0_pay2 k0_pay1
  rw [truncf_apply, addf_apply, pay11_at, pay12_at, add_zero]

theorem pay3_at (x' : Fin 512 → Fin 1024 → ℝ) (w' : Fin 1024 → Fin 1024 → ℝ) (r : Fin 512) (d : Fin 1024) :
    k0_pay3 (F := Ideal) (k0_pay11 (rd x') (rd w') (rd w')) (k0_pay12 (rd x') (fun _ => (0 : EReal))) (ix2 r d) = 0 := by
  unfold k0_pay3 k0_pay1
  rw [truncf_apply, subf_apply, addf_apply, pay11_at, pay12_at, add_zero]
  exact Cert.Math.coe_sub_self _

theorem pay4_at (x' : Fin 512 → Fin 1024 → ℝ) (w' : Fin 1024 → Fin 1024 → ℝ) (r : Fin 512) (d : Fin 1024) :
    k0_pay4 (F := Ideal) (k0_pay6 (rd x')) (rd w') (ix2 r d) = ((∑ e, x' r e * w' e d : ℝ) : EReal) := by
  unfold k0_pay4
  simp only [shapeCast_self, pay6_eq]
  rw [truncf_apply, mm_apply]
  simp only [rd_ix2]
  rw [Cert.Math.coe_dot]

/-! ## The five stored payloads as arrays -/

theorem pay9_real (x' : Fin 512 → Fin 1024 → ℝ) (w' : Fin 1024 → Fin 1024 → ℝ) (x : Vec Ideal S512x1024 .f32) (w1 w2 : Vec Ideal S1024x1024 .bf16)
    (hx : x = fun i => ((x' (i 0) (i 1) : ℝ) : EReal)) (hw1 : w1 = fun i => ((w' (i 0) (i 1) : ℝ) : EReal)) (hw2 : w2 = fun _ => (0 : EReal)) :
    k0_pay9 (F := Ideal) x w1 w1 w2 = fun i => ((∑ e, x' (i 0) e * w' e (i 1) : ℝ) : EReal) := by
  subst hx hw1 hw2
  funext i
  obtain ⟨r, d, rfl⟩ : ∃ (r : Fin 512) (d : Fin 1024), i = ix2 r d := ⟨i 0, i 1, eq_ix2 i⟩
  exact pay9_at x' w' r d

theorem proj_pay10_real (x' : Fin 512 → Fin 1024 → ℝ) (w' : Fin 1024 → Fin 1024 → ℝ) (x : Vec Ideal S512x1024 .f32) (w1 w2 : Vec Ideal S1024x1024 .bf16)
    (hx : x = fun i => ((x' (i 0) (i 1) : ℝ) : EReal)) (hw1 : w1 = fun i => ((w' (i 0) (i 1) : ℝ) : EReal)) (hw2 : w2 = fun _ => (0 : EReal)) :
    k0_pay10 (F := Ideal) x w1 w1 w2 = fun _ => (0 : EReal) := by
  subst hx hw1 hw2
  funext i
  obtain ⟨r, d, rfl⟩ : ∃ (r : Fin 512) (d : Fin 1024), i = ix2 r d := ⟨i 0, i 1, eq_ix2 i⟩
  exact pay10_at x' w' r d

theorem pay2_real (x' : Fin 512 → Fin 1024 → ℝ) (w' : Fin 1024 → Fin 1024 → ℝ) (x : Vec Ideal S512x1024 .f32) (w3 w4 : Vec Ideal S1024x1024 .bf16)
    (hx : x = fun i => ((x' (i 0) (i 1) : ℝ) : EReal)) (hw3 : w3 = fun i => ((w' (i 0) (i 1) : ℝ) : EReal)) (hw4 : w4 = fun _ => (0 : EReal)) :
    k0_pay2 (F := Ideal) (k0_pay11 x w3 w3) (k0_pay12 x w4) = fun i => ((∑ e, x' (i 0) e * w' e (i 1) : ℝ) : EReal) := by
  subst hx hw3 hw4
  funext i
  obtain ⟨r, d, rfl⟩ : ∃ (r : Fin 512) (d : Fin 1024), i = ix2 r d := ⟨i 0, i 1, eq_ix2 i⟩
  exact pay2_at x' w' r d

theorem pay3_real (x' : Fin 512 → Fin 1024 → ℝ) (w' : Fin 1024 → Fin 1024 → ℝ) (x : Vec Ideal S512x1024 .f32) (w3 w4 : Vec Ideal S1024x1024 .bf16)
    (hx : x = fun i => ((x' (i 0) (i 1) : ℝ) : EReal)) (hw3 : w3 = fun i => ((w' (i 0) (i 1) : ℝ) : EReal)) (hw4 : w4 = fun _ => (0 : EReal)) :
    k0_pay3 (F := Ideal) (k0_pay11 x w3 w3) (k0_pay12 x w4) = fun _ => (0 : EReal) := by
  subst hx hw3 hw4
  funext i
  obtain ⟨r, d, rfl⟩ : ∃ (r : Fin 512) (d : Fin 1024), i = ix2 r d := ⟨i 0, i 1, eq_ix2 i⟩
  exact pay3_at x' w' r d

theorem pay4_real (x' : Fin 512 → Fin 1024 → ℝ) (w' : Fin 1024 → Fin 1024 → ℝ) (x : Vec Ideal S512x1024 .f32) (w5 : Vec Ideal S1024x1024 .bf16)
    (hx : x = fun i => ((x' (i 0) (i 1) : ℝ) : EReal)) (hw5 : w5 = fun i => ((w' (i 0) (i 1) : ℝ) : EReal)) :
    k0_pay4 (F := Ideal) (k0_pay6 x) w5 = fun i => ((∑ e, x' (i 0) e * w' e (i 1) : ℝ) : EReal) := by
  subst hx hw5
  funext i
  obtain ⟨r, d, rfl⟩ : ∃ (r : Fin 512) (d : Fin 1024), i = ix2 r d := ⟨i 0, i 1, eq_ix2 i⟩
  exact pay4_at x' w' r d

end Cert.KernelIdeal.Val

end
-- ==== Proof.Val.Arr0.lean ====
/- Region 0's five output arrays after the region at the extended reals, for any entry contents whose x array and
   first weight pieces are real arrays and whose second weight pieces are zero: every point writes back its block of one
   whole-array function, and the sixteen blocks of 512 rows cover the 8192 rows. -/
import proofs.«414092_j9835475108302_3_alg».proof.Proof.KI.R0
import proofs.«414092_j9835475108302_3_alg».proof.Proof.Val.Pay0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators

theorem hz : (![0, 0] : Fin 2 → Nat) = fun _ => 0 := funext fun a => by fin_cases a <;> rfl

/-- The printed index maps, decided over the sixteen points: the x window and the five output windows are on block row t,
    column block 0; every weight window is on its one block. -/
theorem idx0_0 : ∀ t : Fin cfg0.N, win0_0.index t (0 : Fin 2) = t.val ∧ win0_0.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

theorem point_lt (t : Fin cfg0.N) : t.val < 16 := by
  have h : t.val < grid0.N := t.isLt
  rw [N_0] at h
  exact h

/-! ## Reading a block off its array -/

/-- The x window's block at point t, read off an array A: rows 512 t … 512 t + 511. -/
theorem blk0_apply (A : S8192x1024.Idx → EReal) (t : Fin cfg0.N) (y : S512x1024.Idx) (k : S8192x1024.Idx)
    (hk0 : (k 0).val = 512 * t.val + (y 0).val) (hk1 : (k 1).val = (y 1).val) :
    ((cfg0.win 0).blk t).view.read (Elt Ideal) A y = A k := by
  have hi := idx0_0 t
  rw [View.read_apply]
  refine congrArg A ?_
  funext a
  apply Fin.ext
  match a with
  | ⟨0, _⟩ => show win0_0.index t 0 * 512 + 1 * (y 0).val = (k 0).val; rw [hi.1, hk0]; omega
  | ⟨1, _⟩ => show win0_0.index t 1 * 1024 + 1 * (y 1).val = (k 1).val; rw [hi.2, hk1]; omega

/-- Weight window 1's block at point t, read off an array A: the array itself. -/
theorem blk1_apply (A : S1024x1024.Idx → EReal) (t : Fin cfg0.N) (y : S1024x1024.Idx) (k : S1024x1024.Idx)
    (hk0 : (k 0).val =  (y 0).val) (hk1 : (k 1).val = (y 1).val) :
    ((cfg0.win 1).blk t).view.read (Elt Ideal) A y = A k := by
  have hi := idx0_1 t
  rw [View.read_apply]
  refine congrArg A ?_
  funext a
  apply Fin.ext
  match a with
  | ⟨0, _⟩ => show win0_1.index t 0 * 1024 + 1 * (y 0).val = (k 0).val; rw [hi.1, hk0]; omega
  | ⟨1, _⟩ => show win0_1.index t 1 * 1024 + 1 * (y 1).val = (k 1).val; rw [hi.2, hk1]; omega

/-- Weight window 2's block at point t, read off an array A: the array itself. -/
theorem blk2_apply (A : S1024x1024.Idx → EReal) (t : Fin cfg0.N) (y : S1024x1024.Idx) (k : S1024x1024.Idx)
    (hk0 : (k 0).val =  (y 0).val) (hk1 : (k 1).val = (y 1).val) :
    ((cfg0.win 2).blk t).view.read (Elt Ideal) A y = A k := by
  have hi := idx0_2 t
  rw [View.read_apply]
  refine congrArg A ?_
  funext a
  apply Fin.ext
  match a with
  | ⟨0, _⟩ => show win0_2.index t 0 * 1024 + 1 * (y 0).val = (k 0).val; rw [hi.1, hk0]; omega
  | ⟨1, _⟩ => show win0_2.index t 1 * 1024 + 1 * (y 1).val = (k 1).val; rw [hi.2, hk1]; omega

/-- Weight window 3's block at point t, read off an array A: the array itself. -/
theorem blk3_apply (A : S1024x1024.Idx → EReal) (t : Fin cfg0.N) (y : S1024x1024.Idx) (k : S1024x1024.Idx)
    (hk0 : (k 0).val =  (y 0).val) (hk1 : (k 1).val = (y 1).val) :
    ((cfg0.win 3).blk t).view.read (Elt Ideal) A y = A k := by
  have hi := idx0_3 t
  rw [View.read_apply]
  refine congrArg A ?_
  funext a
  apply Fin.ext
  match a with
  | ⟨0, _⟩ => show win0_3.index t 0 * 1024 + 1 * (y 0).val = (k 0).val; rw [hi.1, hk0]; omega
  | ⟨1, _⟩ => show win0_3.index t 1 * 1024 + 1 * (y 1).val = (k 1).val; rw [hi.2, hk1]; omega

/-- Weight window 4's block at point t, read off an array A: the array itself. -/
theorem blk4_apply (A : S1024x1024.Idx → EReal) (t : Fin cfg0.N) (y : S1024x1024.Idx) (k : S1024x1024.Idx)
    (hk0 : (k 0).val =  (y 0).val) (hk1 : (k 1).val = (y 1).val) :
    ((cfg0.win 4).blk t).view.read (Elt Ideal) A y = A k := by
  have hi := idx0_4 t
  rw [View.read_apply]
  refine congrArg A ?_
  funext a
  apply Fin.ext
  match a with
  | ⟨0, _⟩ => show win0_4.index t 0 * 1024 + 1 * (y 0).val = (k 0).val; rw [hi.1, hk0]; omega
  | ⟨1, _⟩ => show win0_4.index t 1 * 1024 + 1 * (y 1).val = (k 1).val; rw [hi.2, hk1]; omega

/-- Weight window 5's block at point t, read off an array A: the array itself. -/
theorem blk5_apply (A : S1024x1024.Idx → EReal) (t : Fin cfg0.N) (y : S1024x1024.Idx) (k : S1024x1024.Idx)
    (hk0 : (k 0).val =  (y 0).val) (hk1 : (k 1).val = (y 1).val) :
    ((cfg0.win 5).blk t).view.read (Elt Ideal) A y = A k := by
  have hi := idx0_5 t
  rw [View.read_apply]
  refine congrArg A ?_
  funext a
  apply Fin.ext
  match a with
  | ⟨0, _⟩ => show win0_5.index t 0 * 1024 + 1 * (y 0).val = (k 0).val; rw [hi.1, hk0]; omega
  | ⟨1, _⟩ => show win0_5.index t 1 * 1024 + 1 * (y 1).val = (k 1).val; rw [hi.2, hk1]; omega

/-- Output window 6's block at point t, read off an array A: rows 512 t … 512 t + 511. -/
theorem blk6_apply (A : S8192x1024.Idx → EReal) (t : Fin cfg0.N) (y : S512x1024.Idx) (k : S8192x1024.Idx)
    (hk0 : (k 0).val = 512 * t.val + (y 0).val) (hk1 : (k 1).val = (y 1).val) :
    ((cfg0.win 6).blk t).view.read (Elt Ideal) A y = A k := by
  have hi := idx0_6 t
  rw [View.read_apply]
  refine congrArg A ?_
  funext a
  apply Fin.ext
  match a with
  | ⟨0, _⟩ => show win0_6.index t 0 * 512 + 1 * (y 0).val = (k 0).val; rw [hi.1, hk0]; omega
  | ⟨1, _⟩ => show win0_6.index t 1 * 1024 + 1 * (y 1).val = (k 1).val; rw [hi.2, hk1]; omega

/-- Output window 7's block at point t, read off an array A: rows 512 t … 512 t + 511. -/
theorem blk7_apply (A : S8192x1024.Idx → EReal) (t : Fin cfg0.N) (y : S512x1024.Idx) (k : S8192x1024.Idx)
    (hk0 : (k 0).val = 512 * t.val + (y 0).val) (hk1 : (k 1).val = (y 1).val) :
    ((cfg0.win 7).blk t).view.read (Elt Ideal) A y = A k := by
  have hi := idx0_7 t
  rw [View.read_apply]
  refine congrArg A ?_
  funext a
  apply Fin.ext
  match a with
  | ⟨0, _⟩ => show win0_7.index t 0 * 512 + 1 * (y 0).val = (k 0).val; rw [hi.1, hk0]; omega
  | ⟨1, _⟩ => show win0_7.index t 1 * 1024 + 1 * (y 1).val = (k 1).val; rw [hi.2, hk1]; omega

/-- Output window 8's block at point t, read off an array A: rows 512 t … 512 t + 511. -/
theorem blk8_apply (A : S8192x1024.Idx → EReal) (t : Fin cfg0.N) (y : S512x1024.Idx) (k : S8192x1024.Idx)
    (hk0 : (k 0).val = 512 * t.val + (y 0).val) (hk1 : (k 1).val = (y 1).val) :
    ((cfg0.win 8).blk t).view.read (Elt Ideal) A y = A k := by
  have hi := idx0_8 t
  rw [View.read_apply]
  refine congrArg A ?_
  funext a
  apply Fin.ext
  match a with
  | ⟨0, _⟩ => show win0_8.index t 0 * 512 + 1 * (y 0).val = (k 0).val; rw [hi.1, hk0]; omega
  | ⟨1, _⟩ => show win0_8.index t 1 * 1024 + 1 * (y 1).val = (k 1).val; rw [hi.2, hk1]; omega

/-- Output window 9's block at point t, read off an array A: rows 512 t … 512 t + 511. -/
theorem blk9_apply (A : S8192x1024.Idx → EReal) (t : Fin cfg0.N) (y : S512x1024.Idx) (k : S8192x1024.Idx)
    (hk0 : (k 0).val = 512 * t.val + (y 0).val) (hk1 : (k 1).val = (y 1).val) :
    ((cfg0.win 9).blk t).view.read (Elt Ideal) A y = A k := by
  have hi := idx0_9 t
  rw [View.read_apply]
  refine congrArg A ?_
  funext a
  apply Fin.ext
  match a with
  | ⟨0, _⟩ => show win0_9.index t 0 * 512 + 1 * (y 0).val = (k 0).val; rw [hi.1, hk0]; omega
  | ⟨1, _⟩ => show win0_9.index t 1 * 1024 + 1 * (y 1).val = (k 1).val; rw [hi.2, hk1]; omega

/-- Output window 10's block at point t, read off an array A: rows 512 t … 512 t + 511. -/
theorem blk10_apply (A : S8192x1024.Idx → EReal) (t : Fin cfg0.N) (y : S512x1024.Idx) (k : S8192x1024.Idx)
    (hk0 : (k 0).val = 512 * t.val + (y 0).val) (hk1 : (k 1).val = (y 1).val) :
    ((cfg0.win 10).blk t).view.read (Elt Ideal) A y = A k := by
  have hi := idx0_10 t
  rw [View.read_apply]
  refine congrArg A ?_
  funext a
  apply Fin.ext
  match a with
  | ⟨0, _⟩ => show win0_10.index t 0 * 512 + 1 * (y 0).val = (k 0).val; rw [hi.1, hk0]; omega
  | ⟨1, _⟩ => show win0_10.index t 1 * 1024 + 1 * (y 1).val = (k 1).val; rw [hi.2, hk1]; omega

/-! ## The output blocks cover their arrays -/

/-- An index of output array 0 is in point t's block iff its coordinates are in the block's ranges. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v15_0).slice (win0_6.rect t)).set ↔ _
  rw [View.set_slice_whole, Rect.mem_set_unit]
  exact Iff.rfl

/-- Row r of the array is in the block of point r / 512, and every point writes back. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_6 _, ?_⟩
  have hq := idx0_6 ⟨(i 0).val / 512, hN⟩
  rw [mem_blk6]
  intro a
  match a with
  | ⟨0, _⟩ => show win0_6.index ⟨(i 0).val / 512, hN⟩ (0 : Fin 2) * 512 ≤ (i 0).val ∧ (i 0).val < win0_6.index ⟨(i 0).val / 512, hN⟩ (0 : Fin 2) * 512 + 512; rw [hq.1]; show (i 0).val / 512 * 512 ≤ (i 0).val ∧ (i 0).val < (i 0).val / 512 * 512 + 512; omega
  | ⟨1, _⟩ => show win0_6.index ⟨(i 0).val / 512, hN⟩ (1 : Fin 2) * 1024 ≤ (i 1).val ∧ (i 1).val < win0_6.index ⟨(i 0).val / 512, hN⟩ (1 : Fin 2) * 1024 + 1024; rw [hq.2]; omega

/-- An index of output array 1 is in point t's block iff its coordinates are in the block's ranges. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v15_1).slice (win0_7.rect t)).set ↔ _
  rw [View.set_slice_whole, Rect.mem_set_unit]
  exact Iff.rfl

/-- Row r of the array is in the block of point r / 512, and every point writes back. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_7 _, ?_⟩
  have hq := idx0_7 ⟨(i 0).val / 512, hN⟩
  rw [mem_blk7]
  intro a
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; rw [hq.1]; show (i 0).val / 512 * 512 ≤ (i 0).val ∧ (i 0).val < (i 0).val / 512 * 512 + 512; omega
  | ⟨1, _⟩ => show win0_7.index ⟨(i 0).val / 512, hN⟩ (1 : Fin 2) * 1024 ≤ (i 1).val ∧ (i 1).val < win0_7.index ⟨(i 0).val / 512, hN⟩ (1 : Fin 2) * 1024 + 1024; rw [hq.2]; omega

/-- An index of output array 2 is in point t's block iff its coordinates are in the block's ranges. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v15_2).slice (win0_8.rect t)).set ↔ _
  rw [View.set_slice_whole, Rect.mem_set_unit]
  exact Iff.rfl

/-- Row r of the array is in the block of point r / 512, and every point writes back. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_8 _, ?_⟩
  have hq := idx0_8 ⟨(i 0).val / 512, hN⟩
  rw [mem_blk8]
  intro a
  match a with
  | ⟨0, _⟩ => show win0_8.index ⟨(i 0).val / 512, hN⟩ (0 : Fin 2) * 512 ≤ (i 0).val ∧ (i 0).val < win0_8.index ⟨(i 0).val / 512, hN⟩ (0 : Fin 2) * 512 + 512; rw [hq.1]; show (i 0).val / 512 * 512 ≤ (i 0).val ∧ (i 0).val < (i 0).val / 512 * 512 + 512; omega
  | ⟨1, _⟩ => show win0_8.index ⟨(i 0).val / 512, hN⟩ (1 : Fin 2) * 1024 ≤ (i 1).val ∧ (i 1).val < win0_8.index ⟨(i 0).val / 512, hN⟩ (1 : Fin 2) * 1024 + 1024; rw [hq.2]; omega

/-- An index of output array 3 is in point t's block iff its coordinates are in the block's ranges. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v15_3).slice (win0_9.rect t)).set ↔ _
  rw [View.set_slice_whole, Rect.mem_set_unit]
  exact Iff.rfl

/-- Row r of the array is in the block of point r / 512, and every point writes back. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_9 _, ?_⟩
  have hq := idx0_9 ⟨(i 0).val / 512, hN⟩
  rw [mem_blk9]
  intro a
  match a with
  | ⟨0, _⟩ => show win0_9.index ⟨(i 0).val / 512, hN⟩ (0 : Fin 2) * 512 ≤ (i 0).val ∧ (i 0).val < win0_9.index ⟨(i 0).val / 512, hN⟩ (0 : Fin 2) * 512 + 512; rw [hq.1]; show (i 0).val / 512 * 512 ≤ (i 0).val ∧ (i 0).val < (i 0).val / 512 * 512 + 512; omega
  | ⟨1, _⟩ => show win0_9.index ⟨(i 0).val / 512, hN⟩ (1 : Fin 2) * 1024 ≤ (i 1).val ∧ (i 1).val < win0_9.index ⟨(i 0).val / 512, hN⟩ (1 : Fin 2) * 1024 + 1024; rw [hq.2]; omega

/-- An index of output array 4 is in point t's block iff its coordinates are in the block's ranges. -/
theorem mem_blk10 (t : Fin cfg0.N) (i : S8192x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v15_4).slice (win0_10.rect t)).set ↔ _
  rw [View.set_slice_whole, Rect.mem_set_unit]
  exact Iff.rfl

/-- Row r of the array is in the block of point r / 512, and every point writes back. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_10 _, ?_⟩
  have hq := idx0_10 ⟨(i 0).val / 512, hN⟩
  rw [mem_blk10]
  intro a
  match a with
  | ⟨0, _⟩ => show win0_10.index ⟨(i 0).val / 512, hN⟩ (0 : Fin 2) * 512 ≤ (i 0).val ∧ (i 0).val < win0_10.index ⟨(i 0).val / 512, hN⟩ (0 : Fin 2) * 512 + 512; rw [hq.1]; show (i 0).val / 512 * 512 ≤ (i 0).val ∧ (i 0).val < (i 0).val / 512 * 512 + 512; omega
  | ⟨1, _⟩ => show win0_10.index ⟨(i 0).val / 512, hN⟩ (1 : Fin 2) * 1024 ≤ (i 1).val ∧ (i 1).val < win0_10.index ⟨(i 0).val / 512, hN⟩ (1 : Fin 2) * 1024 + 1024; rw [hq.2]; omega

/-! ## The output blocks as real arrays -/

/-- The q_hi block: one whole-block store of the product. -/
theorem out6_real (x' : Fin 512 → Fin 1024 → ℝ) (w' : Fin 1024 → Fin 1024 → ℝ) (x : Vec Ideal S512x1024 .f32) (w1 w2 : Vec Ideal S1024x1024 .bf16)
    (hx : x = rd x') (hw1 : w1 = rd w') (hw2 : w2 = fun _ => (0 : EReal)) :
    out0_6 x w1 w2 = rd (fun r d => ∑ e, x' r e * w' e d) := by
  unfold out0_6
  rw [View.canon_unit_zero hz]
  simp only [View.ld_unit_zero (S := S512x1024) hz, View.ld_unit_zero (S := S1024x1024) hz]
  exact pay9_real x' w' x w1 w2 hx hw1 hw2

/-- The q_lo block is zero. -/
theorem out7_real (x' : Fin 512 → Fin 1024 → ℝ) (w' : Fin 1024 → Fin 1024 → ℝ) (x : Vec Ideal S512x1024 .f32) (w1 w2 : Vec Ideal S1024x1024 .bf16)
    (hx : x = rd x') (hw1 : w1 = rd w') (hw2 : w2 = fun _ => (0 : EReal)) :
    out0_7 x w1 w2 = fun _ => (0 : EReal) := by
  unfold out0_7
  rw [View.canon_unit_zero hz]
  simp only [View.ld_unit_zero (S := S512x1024) hz, View.ld_unit_zero (S := S1024x1024) hz]
  exact proj_pay10_real x' w' x w1 w2 hx hw1 hw2

/-- The ak_hi block. -/
theorem out8_real (x' : Fin 512 → Fin 1024 → ℝ) (w' : Fin 1024 → Fin 1024 → ℝ) (x : Vec Ideal S512x1024 .f32) (w3 w4 : Vec Ideal S1024x1024 .bf16)
    (hx : x = rd x') (hw3 : w3 = rd w') (hw4 : w4 = fun _ => (0 : EReal)) :
    out0_8 x w3 w4 = rd (fun r d => ∑ e, x' r e * w' e d) := by
  unfold out0_8
  rw [View.canon_unit_zero hz]
  simp only [View.ld_unit_zero (S := S512x1024) hz, View.ld_unit_zero (S := S1024x1024) hz]
  exact pay2_real x' w' x w3 w4 hx hw3 hw4

/-- The ak_lo block is zero. -/
theorem out9_real (x' : Fin 512 → Fin 1024 → ℝ) (w' : Fin 1024 → Fin 1024 → ℝ) (x : Vec Ideal S512x1024 .f32) (w3 w4 : Vec Ideal S1024x1024 .bf16)
    (hx : x = rd x') (hw3 : w3 = rd w') (hw4 : w4 = fun _ => (0 : EReal)) :
    out0_9 x w3 w4 = fun _ => (0 : EReal) := by
  unfold out0_9
  rw [View.canon_unit_zero hz]
  simp only [View.ld_unit_zero (S := S512x1024) hz, View.ld_unit_zero (S := S1024x1024) hz]
  exact pay3_real x' w' x w3 w4 hx hw3 hw4

/-- The u block. -/
theorem out10_real (x' : Fin 512 → Fin 1024 → ℝ) (w' : Fin 1024 → Fin 1024 → ℝ) (x : Vec Ideal S512x1024 .f32) (w5 : Vec Ideal S1024x1024 .bf16)
    (hx : x = rd x') (hw5 : w5 = rd w') :
    out0_10 x w5 = rd (fun r d => ∑ e, x' r e * w' e d) := by
  unfold out0_10
  rw [View.canon_unit_zero hz]
  simp only [View.ld_unit_zero (S := S512x1024) hz, View.ld_unit_zero (S := S1024x1024) hz]
  exact pay4_real x' w' x w5 hx hw5

/-! ## The input blocks at a point -/

/-- Rows 512 t … 512 t + 511 of a real array of 8192 rows. -/
def rows (xf' : Fin 8192 → Fin 1024 → ℝ) (t : Fin cfg0.N) : Fin 512 → Fin 1024 → ℝ :=
  fun r e => xf' ⟨512 * t.val + r.val, by have := point_lt t; have := r.isLt; omega⟩ e

/-- The x block at point t is those rows of the x array. -/
theorem xblk_real (V : (c : Dev nD) → (b : Ref sig .tc) → Buf (Elt Ideal) ((c : Thread nD τ).loc b)) (c : Dev nD) (xf' : Fin 8192 → Fin 1024 → ℝ)
    (h14 : (V c main_v14 : S8192x1024.Idx → EReal) = rd xf') (t : Fin cfg0.N) :
    (iblk0 V c 0 t : Vec Ideal S512x1024 .f32) = rd (rows xf' t) := by
  funext y
  have ht := point_lt t
  have hy0 : (y 0).val < 512 := (y 0).isLt
  refine (blk0_apply (V c main_v14) t y (ix2 ⟨512 * t.val + (y 0).val, by omega⟩ (y 1)) rfl rfl).trans ?_
  rw [h14]
  rfl

/-- Weight window 1's block at any point is its whole array. -/
theorem wblk1_eq (V : (c : Dev nD) → (b : Ref sig .tc) → Buf (Elt Ideal) ((c : Thread nD τ).loc b)) (c : Dev nD) (W : S1024x1024.Idx → EReal)
    (h : (V c main_v3 : S1024x1024.Idx → EReal) = W) (t : Fin cfg0.N) :
    (iblk0 V c 1 t : Vec Ideal S1024x1024 .bf16) = W := by
  funext y
  refine (blk1_apply (V c main_v3) t y y rfl rfl).trans ?_
  rw [h]
/-- Weight window 2's block at any point is its whole array. -/
theorem wblk2_eq (V : (c : Dev nD) → (b : Ref sig .tc) → Buf (Elt Ideal) ((c : Thread nD τ).loc b)) (c : Dev nD) (W : S1024x1024.Idx → EReal)
    (h : (V c main_v6 : S1024x1024.Idx → EReal) = W) (t : Fin cfg0.N) :
    (iblk0 V c 2 t : Vec Ideal S1024x1024 .bf16) = W := by
  funext y
  refine (blk2_apply (V c main_v6) t y y rfl rfl).trans ?_
  rw [h]
/-- Weight window 3's block at any point is its whole array. -/
theorem wblk3_eq (V : (c : Dev nD) → (b : Ref sig .tc) → Buf (Elt Ideal) ((c : Thread nD τ).loc b)) (c : Dev nD) (W : S1024x1024.Idx → EReal)
    (h : (V c main_v8 : S1024x1024.Idx → EReal) = W) (t : Fin cfg0.N) :
    (iblk0 V c 3 t : Vec Ideal S1024x1024 .bf16) = W := by
  funext y
  refine (blk3_apply (V c main_v8) t y y rfl rfl).trans ?_
  rw [h]
/-- Weight window 4's block at any point is its whole array. -/
theorem wblk4_eq (V : (c : Dev nD) → (b : Ref sig .tc) → Buf (Elt Ideal) ((c : Thread nD τ).loc b)) (c : Dev nD) (W : S1024x1024.Idx → EReal)
    (h : (V c main_v11 : S1024x1024.Idx → EReal) = W) (t : Fin cfg0.N) :
    (iblk0 V c 4 t : Vec Ideal S1024x1024 .bf16) = W := by
  funext y
  refine (blk4_apply (V c main_v11) t y y rfl rfl).trans ?_
  rw [h]
/-- Weight window 5's block at any point is its whole array. -/
theorem wblk5_eq (V : (c : Dev nD) → (b : Ref sig .tc) → Buf (Elt Ideal) ((c : Thread nD τ).loc b)) (c : Dev nD) (W : S1024x1024.Idx → EReal)
    (h : (V c main_v13 : S1024x1024.Idx → EReal) = W) (t : Fin cfg0.N) :
    (iblk0 V c 5 t : Vec Ideal S1024x1024 .bf16) = W := by
  funext y
  refine (blk5_apply (V c main_v13) t y y rfl rfl).trans ?_
  rw [h]

/-! ## What each point writes back -/

/-- What point t writes back of output 0: its block of the product array. -/
theorem flushed6_eq (V : (c : Dev nD) → (b : Ref sig .tc) → Buf (Elt Ideal) ((c : Thread nD τ).loc b)) (c : Dev nD) (xf' : Fin 8192 → Fin 1024 → ℝ) (w' : Fin 1024 → Fin 1024 → ℝ)
    (h14 : (V c main_v14 : S8192x1024.Idx → EReal) = rd xf') (h3 : (V c main_v3 : S1024x1024.Idx → EReal) = rd w') (h6 : (V c main_v6 : S1024x1024.Idx → EReal) = fun _ => (0 : EReal))
    (t : Fin cfg0.N) :
    (dat0 V c).flushed 6 t = ((cfg0.win 6).blk t).view.read (Elt Ideal) (rd (fun r d => ∑ e, xf' r e * w' e d)) := by
  show (cfg0.win 6).cut (grid0.coords t) ((dat0 V c).after 6 t) = _
  rw [after0_6, out6_real (rows xf' t) w' (iblk0 V c 0 t) (iblk0 V c 1 t) (iblk0 V c 2 t) (xblk_real V c xf' h14 t) (wblk1_eq V c _ h3 t) (wblk2_eq V c _ h6 t)]
  funext y
  have ht := point_lt t
  have hy0 : (y 0).val < 512 := (y 0).isLt
  refine Eq.trans ?_ (blk6_apply (rd (fun r d => ∑ e, xf' r e * w' e d)) t y (ix2 ⟨512 * t.val + (y 0).val, by omega⟩ (y 1)) rfl rfl).symm
  rfl

/-- What point t writes back of output 1: zeros. -/
theorem flushed7_eq (V : (c : Dev nD) → (b : Ref sig .tc) → Buf (Elt Ideal) ((c : Thread nD τ).loc b)) (c : Dev nD) (xf' : Fin 8192 → Fin 1024 → ℝ) (w' : Fin 1024 → Fin 1024 → ℝ)
    (h14 : (V c main_v14 : S8192x1024.Idx → EReal) = rd xf') (h3 : (V c main_v3 : S1024x1024.Idx → EReal) = rd w') (h6 : (V c main_v6 : S1024x1024.Idx → EReal) = fun _ => (0 : EReal))
    (t : Fin cfg0.N) :
    (dat0 V c).flushed 7 t = ((cfg0.win 7).blk t).view.read (Elt Ideal) (fun _ => (0 : EReal)) := by
  show (cfg0.win 7).cut (grid0.coords t) ((dat0 V c).after 7 t) = _
  rw [after0_7, out7_real (rows xf' t) w' (iblk0 V c 0 t) (iblk0 V c 1 t) (iblk0 V c 2 t) (xblk_real V c xf' h14 t) (wblk1_eq V c _ h3 t) (wblk2_eq V c _ h6 t)]
  funext y
  rfl

/-- What point t writes back of output 2: its block of the product array. -/
theorem flushed8_eq (V : (c : Dev nD) → (b : Ref sig .tc) → Buf (Elt Ideal) ((c : Thread nD τ).loc b)) (c : Dev nD) (xf' : Fin 8192 → Fin 1024 → ℝ) (w' : Fin 1024 → Fin 1024 → ℝ)
    (h14 : (V c main_v14 : S8192x1024.Idx → EReal) = rd xf') (h8 : (V c main_v8 : S1024x1024.Idx → EReal) = rd w') (h11 : (V c main_v11 : S1024x1024.Idx → EReal) = fun _ => (0 : EReal))
    (t : Fin cfg0.N) :
    (dat0 V c).flushed 8 t = ((cfg0.win 8).blk t).view.read (Elt Ideal) (rd (fun r d => ∑ e, xf' r e * w' e d)) := by
  show (cfg0.win 8).cut (grid0.coords t) ((dat0 V c).after 8 t) = _
  rw [after0_8, out8_real (rows xf' t) w' (iblk0 V c 0 t) (iblk0 V c 3 t) (iblk0 V c 4 t) (xblk_real V c xf' h14 t) (wblk3_eq V c _ h8 t) (wblk4_eq V c _ h11 t)]
  funext y
  have ht := point_lt t
  have hy0 : (y 0).val < 512 := (y 0).isLt
  refine Eq.trans ?_ (blk8_apply (rd (fun r d => ∑ e, xf' r e * w' e d)) t y (ix2 ⟨512 * t.val + (y 0).val, by omega⟩ (y 1)) rfl rfl).symm
  rfl

/-- What point t writes back of output 3: zeros. -/
theorem flushed9_eq (V : (c : Dev nD) → (b : Ref sig .tc) → Buf (Elt Ideal) ((c : Thread nD τ).loc b)) (c : Dev nD) (xf' : Fin 8192 → Fin 1024 → ℝ) (w' : Fin 1024 → Fin 1024 → ℝ)
    (h14 : (V c main_v14 : S8192x1024.Idx → EReal) = rd xf') (h8 : (V c main_v8 : S1024x1024.Idx → EReal) = rd w') (h11 : (V c main_v11 : S1024x1024.Idx → EReal) = fun _ => (0 : EReal))
    (t : Fin cfg0.N) :
    (dat0 V c).flushed 9 t = ((cfg0.win 9).blk t).view.read (Elt Ideal) (fun _ => (0 : EReal)) := by
  show (cfg0.win 9).cut (grid0.coords t) ((dat0 V c).after 9 t) = _
  rw [after0_9, out9_real (rows xf' t) w' (iblk0 V c 0 t) (iblk0 V c 3 t) (iblk0 V c 4 t) (xblk_real V c xf' h14 t) (wblk3_eq V c _ h8 t) (wblk4_eq V c _ h11 t)]
  funext y
  rfl

/-- What point t writes back of output 4: its block of the product array. -/
theorem flushed10_eq (V : (c : Dev nD) → (b : Ref sig .tc) → Buf (Elt Ideal) ((c : Thread nD τ).loc b)) (c : Dev nD) (xf' : Fin 8192 → Fin 1024 → ℝ) (w' : Fin 1024 → Fin 1024 → ℝ)
    (h14 : (V c main_v14 : S8192x1024.Idx → EReal) = rd xf') (h13 : (V c main_v13 : S1024x1024.Idx → EReal) = rd w')
    (t : Fin cfg0.N) :
    (dat0 V c).flushed 10 t = ((cfg0.win 10).blk t).view.read (Elt Ideal) (rd (fun r d => ∑ e, xf' r e * w' e d)) := by
  show (cfg0.win 10).cut (grid0.coords t) ((dat0 V c).after 10 t) = _
  rw [after0_10, out10_real (rows xf' t) w' (iblk0 V c 0 t) (iblk0 V c 5 t) (xblk_real V c xf' h14 t) (wblk5_eq V c _ h13 t)]
  funext y
  have ht := point_lt t
  have hy0 : (y 0).val < 512 := (y 0).isLt
  refine Eq.trans ?_ (blk10_apply (rd (fun r d => ∑ e, xf' r e * w' e d)) t y (ix2 ⟨512 * t.val + (y 0).val, by omega⟩ (y 1)) rfl rfl).symm
  rfl

/-! ## The five arrays after the region -/

theorem arr0_6 (V : (c : Dev nD) → (b : Ref sig .tc) → Buf (Elt Ideal) ((c : Thread nD τ).loc b)) (c : Dev nD) (xf' : Fin 8192 → Fin 1024 → ℝ) (wq' : Fin 1024 → Fin 1024 → ℝ)
    (h14 : (V c main_v14 : S8192x1024.Idx → EReal) = fun i => ((xf' (i 0) (i 1) : ℝ) : EReal)) (h3 : (V c main_v3 : S1024x1024.Idx → EReal) = fun i => ((wq' (i 0) (i 1) : ℝ) : EReal)) (h6 : (V c main_v6 : S1024x1024.Idx → EReal) = fun _ => (0 : EReal)) :
    ((dat0 V c).arrAt 6 cfg0.N : S8192x1024.Idx → EReal) = (fun i => ((∑ e, xf' (i 0) e * wq' e (i 1) : ℝ) : EReal)) :=
  (dat0 V c).arrAt_eq_of_cover 6 (rd (fun r d => ∑ e, xf' r e * wq' e d)) (fun t _ => flushed6_eq V c xf' wq' h14 h3 h6 t) cover6

theorem arr0_7 (V : (c : Dev nD) → (b : Ref sig .tc) → Buf (Elt Ideal) ((c : Thread nD τ).loc b)) (c : Dev nD) (xf' : Fin 8192 → Fin 1024 → ℝ) (wq' : Fin 1024 → Fin 1024 → ℝ)
    (h14 : (V c main_v14 : S8192x1024.Idx → EReal) = fun i => ((xf' (i 0) (i 1) : ℝ) : EReal)) (h3 : (V c main_v3 : S1024x1024.Idx → EReal) = fun i => ((wq' (i 0) (i 1) : ℝ) : EReal)) (h6 : (V c main_v6 : S1024x1024.Idx → EReal) = fun _ => (0 : EReal)) :
    ((dat0 V c).arrAt 7 cfg0.N : S8192x1024.Idx → EReal) = (fun _ => (0 : EReal)) :=
  (dat0 V c).arrAt_eq_of_cover 7 (fun _ => (0 : EReal)) (fun t _ => flushed7_eq V c xf' wq' h14 h3 h6 t) cover7

theorem arr0_8 (V : (c : Dev nD) → (b : Ref sig .tc) → Buf (Elt Ideal) ((c : Thread nD τ).loc b)) (c : Dev nD) (xf' : Fin 8192 → Fin 1024 → ℝ) (wak' : Fin 1024 → Fin 1024 → ℝ)
    (h14 : (V c main_v14 : S8192x1024.Idx → EReal) = fun i => ((xf' (i 0) (i 1) : ℝ) : EReal)) (h8 : (V c main_v8 : S1024x1024.Idx → EReal) = fun i => ((wak' (i 0) (i 1) : ℝ) : EReal)) (h11 : (V c main_v11 : S1024x1024.Idx → EReal) = fun _ => (0 : EReal)) :
    ((dat0 V c).arrAt 8 cfg0.N : S8192x1024.Idx → EReal) = (fun i => ((∑ e, xf' (i 0) e * wak' e (i 1) : ℝ) : EReal)) :=
  (dat0 V c).arrAt_eq_of_cover 8 (rd (fun r d => ∑ e, xf' r e * wak' e d)) (fun t _ => flushed8_eq V c xf' wak' h14 h8 h11 t) cover8

theorem arr0_9 (V : (c : Dev nD) → (b : Ref sig .tc) → Buf (Elt Ideal) ((c : Thread nD τ).loc b)) (c : Dev nD) (xf' : Fin 8192 → Fin 1024 → ℝ) (wak' : Fin 1024 → Fin 1024 → ℝ)
    (h14 : (V c main_v14 : S8192x1024.Idx → EReal) = fun i => ((xf' (i 0) (i 1) : ℝ) : EReal)) (h8 : (V c main_v8 : S1024x1024.Idx → EReal) = fun i => ((wak' (i 0) (i 1) : ℝ) : EReal)) (h11 : (V c main_v11 : S1024x1024.Idx → EReal) = fun _ => (0 : EReal)) :
    ((dat0 V c).arrAt 9 cfg0.N : S8192x1024.Idx → EReal) = (fun _ => (0 : EReal)) :=
  (dat0 V c).arrAt_eq_of_cover 9 (fun _ => (0 : EReal)) (fun t _ => flushed9_eq V c xf' wak' h14 h8 h11 t) cover9

theorem arr0_10 (V : (c : Dev nD) → (b : Ref sig .tc) → Buf (Elt Ideal) ((c : Thread nD τ).loc b)) (c : Dev nD) (xf' : Fin 8192 → Fin 1024 → ℝ) (wbv' : Fin 1024 → Fin 1024 → ℝ)
    (h14 : (V c main_v14 : S8192x1024.Idx → EReal) = fun i => ((xf' (i 0) (i 1) : ℝ) : EReal)) (h13 : (V c main_v13 : S1024x1024.Idx → EReal) = fun i => ((wbv' (i 0) (i 1) : ℝ) : EReal)) :
    ((dat0 V c).arrAt 10 cfg0.N : S8192x1024.Idx → EReal) = (fun i => ((∑ e, xf' (i 0) e * wbv' e (i 1) : ℝ) : EReal)) :=
  (dat0 V c).arrAt_eq_of_cover 10 (rd (fun r d => ∑ e, xf' r e * wbv' e d)) (fun t _ => flushed10_eq V c xf' wbv' h14 h13 t) cover10

/-- The five output arrays after the region, for any entry contents whose six window arrays are as stated. -/
theorem arr0_values (V : (c : Dev nD) → (b : Ref sig .tc) → Buf (Elt Ideal) ((c : Thread nD τ).loc b)) (c : Dev nD) (xf' : Fin 8192 → Fin 1024 → ℝ) (wq' wak' wbv' : Fin 1024 → Fin 1024 → ℝ)
      (h14 : (V c main_v14 : S8192x1024.Idx → EReal) = fun i => ((xf' (i 0) (i 1) : ℝ) : EReal)) (h3 : (V c main_v3 : S1024x1024.Idx → EReal) = fun i => ((wq' (i 0) (i 1) : ℝ) : EReal)) (h6 : (V c main_v6 : S1024x1024.Idx → EReal) = fun _ => (0 : EReal))
      (h8 : (V c main_v8 : S1024x1024.Idx → EReal) = fun i => ((wak' (i 0) (i 1) : ℝ) : EReal)) (h11 : (V c main_v11 : S1024x1024.Idx → EReal) = fun _ => (0 : EReal)) (h13 : (V c main_v13 : S1024x1024.Idx → EReal) = fun i => ((wbv' (i 0) (i 1) : ℝ) : EReal)) :
      ((dat0 V c).arrAt 6 cfg0.N : S8192x1024.Idx → EReal) = (fun i => ((∑ e, xf' (i 0) e * wq' e (i 1) : ℝ) : EReal))
      ∧ ((dat0 V c).arrAt 7 cfg0.N : S8192x1024.Idx → EReal) = (fun _ => (0 : EReal))
      ∧ ((dat0 V c).arrAt 8 cfg0.N : S8192x1024.Idx → EReal) = (fun i => ((∑ e, xf' (i 0) e * wak' e (i 1) : ℝ) : EReal))
      ∧ ((dat0 V c).arrAt 9 cfg0.N : S8192x1024.Idx → EReal) = (fun _ => (0 : EReal))
      ∧ ((dat0 V c).arrAt 10 cfg0.N : S8192x1024.Idx → EReal) = (fun i => ((∑ e, xf' (i 0) e * wbv' e (i 1) : ℝ) : EReal)) :=
  ⟨arr0_6 V c xf' wq' h14 h3 h6, arr0_7 V c xf' wq' h14 h3 h6, arr0_8 V c xf' wak' h14 h8 h11, arr0_9 V c xf' wak' h14 h8 h11, arr0_10 V c xf' wbv' h14 h13⟩

end Cert.KernelIdeal.Val

end
-- ==== Proof.Val.Host1.lean ====
/- The five reshapes between the two regions: each [4, 2048, 1024] array they write is the [8192, 1024] array it
   reshapes, read row-major: entry (b, i, e) is entry (2048 * b + i, e) of the flat array. This holds whatever the
   flat arrays are. -/
import proofs.«414092_j9835475108302_3_alg».proof.Proof.Gen.KernelIdeal.Launch
import proofs.«414092_j9835475108302_3_alg».proof.Proof.Val.Spec
import Idealize.ShloMosaic.Lib.StableHlo.Run
import Idealize.ShloMosaic.Lib.Pipeline.Value
import Idealize.ShloMosaic.Lib.ValueIdx

noncomputable section

namespace Cert.KernelIdeal.Val

open Cert.KernelIdeal Idealize.ShloMosaic Idealize.ShloMosaic.TcCoe Idealize.SL.Sem Idealize.ShloMosaic.StableHlo

/-- A [8192, 1024] array reshaped to [4, 2048, 1024], read at (b, i, e): the two row-major positions are
    `((b * 2048 + i) * 1024 + e` and `(2048 * b + i) * 1024 + e`. -/
theorem unflatten_apply {α : Type} (x : S8192x1024.Idx → α) (h : S8192x1024.ShapeCasts S4x2048x1024) (i : S4x2048x1024.Idx) :
    shapeCast S4x2048x1024 x h i = x (ValueIdx.ix2 (Cert.Spec.flat (i 0) (i 1)) (i 2)) := by
  refine shapeCast_apply x h i _ ?_
  rw [Shape.rowMajor_val_two, Shape.rowMajor_val_three]
  show (2048 * (i 0).val + (i 1).val) * 1024 + (i 2).val = ((i 0).val * 2048 + (i 1).val) * 1024 + (i 2).val
  omega

/-- What the reshapes between the regions leave, from any contents `W`. -/
theorem host1_values (W : Valuation τ sig (Elt Ideal)) :
      (StableHlo.after (Gen.hostOps1 (F := Ideal)) W (Proc.devRef .tc main_v16) : S4x2048x1024.Idx → EReal)
        = (fun i => (W (Proc.devRef .tc main_v15_0) : S8192x1024.Idx → EReal) (ValueIdx.ix2 (Cert.Spec.flat (i 0) (i 1)) (i 2)))
      ∧ (StableHlo.after (Gen.hostOps1 (F := Ideal)) W (Proc.devRef .tc main_v17) : S4x2048x1024.Idx → EReal)
        = (fun i => (W (Proc.devRef .tc main_v15_1) : S8192x1024.Idx → EReal) (ValueIdx.ix2 (Cert.Spec.flat (i 0) (i 1)) (i 2)))
      ∧ (StableHlo.after (Gen.hostOps1 (F := Ideal)) W (Proc.devRef .tc main_v18) : S4x2048x1024.Idx → EReal)
        = (fun i => (W (Proc.devRef .tc main_v15_2) : S8192x1024.Idx → EReal) (ValueIdx.ix2 (Cert.Spec.flat (i 0) (i 1)) (i 2)))
      ∧ (StableHlo.after (Gen.hostOps1 (F := Ideal)) W (Proc.devRef .tc main_v19) : S4x2048x1024.Idx → EReal)
        = (fun i => (W (Proc.devRef .tc main_v15_3) : S8192x1024.Idx → EReal) (ValueIdx.ix2 (Cert.Spec.flat (i 0) (i 1)) (i 2)))
      ∧ (StableHlo.after (Gen.hostOps1 (F := Ideal)) W (Proc.devRef .tc main_v20) : S4x2048x1024.Idx → EReal)
        = (fun i => (W (Proc.devRef .tc main_v15_4) : S8192x1024.Idx → EReal) (ValueIdx.ix2 (Cert.Spec.flat (i 0) (i 1)) (i 2))) := by
  refine ⟨?_, ?_, ?_, ?_, ?_⟩
  · have e : (StableHlo.after (Gen.hostOps1 (F := Ideal)) W (Proc.devRef .tc main_v16) : S4x2048x1024.Idx → EReal)
        = shapeCast S4x2048x1024 (W (Proc.devRef .tc main_v15_0) : S8192x1024.Idx → EReal)
            Gen.shapeCasts_S8192x1024_S4x2048x1024 := by
      after_results
      rfl
    rw [e]
    exact funext fun i => unflatten_apply _ _ i
  · have e : (StableHlo.after (Gen.hostOps1 (F := Ideal)) W (Proc.devRef .tc main_v17) : S4x2048x1024.Idx → EReal)
        = shapeCast S4x2048x1024 (W (Proc.devRef .tc main_v15_1) : S8192x1024.Idx → EReal)
            Gen.shapeCasts_S8192x1024_S4x2048x1024 := by
      after_results
      rfl
    rw [e]
    exact funext fun i => unflatten_apply _ _ i
  · have e : (StableHlo.after (Gen.hostOps1 (F := Ideal)) W (Proc.devRef .tc main_v18) : S4x2048x1024.Idx → EReal)
        = shapeCast S4x2048x1024 (W (Proc.devRef .tc main_v15_2) : S8192x1024.Idx → EReal)
            Gen.shapeCasts_S8192x1024_S4x2048x1024 := by
      after_results
      rfl
    rw [e]
    exact funext fun i => unflatten_apply _ _ i
  · have e : (StableHlo.after (Gen.hostOps1 (F := Ideal)) W (Proc.devRef .tc main_v19) : S4x2048x1024.Idx → EReal)
        = shapeCast S4x2048x1024 (W (Proc.devRef .tc main_v15_3) : S8192x1024.Idx → EReal)
            Gen.shapeCasts_S8192x1024_S4x2048x1024 := by
      after_results
      rfl
    rw [e]
    exact funext fun i => unflatten_apply _ _ i
  · have e : (StableHlo.after (Gen.hostOps1 (F := Ideal)) W (Proc.devRef .tc main_v20) : S4x2048x1024.Idx → EReal)
        = shapeCast S4x2048x1024 (W (Proc.devRef .tc main_v15_4) : S8192x1024.Idx → EReal)
            Gen.shapeCasts_S8192x1024_S4x2048x1024 := by
      after_results
      rfl
    rw [e]
    exact funext fun i => unflatten_apply _ _ i

end Cert.KernelIdeal.Val

end
-- ==== Proof.Val.Mid.lean ====
/- The contents of the five arrays the attention region's input windows stage, when that region is entered, from
   real argument arrays: the composition of the first host stretch's values, the projection region's output
   arrays and the second host stretch's reshapes. -/
import proofs.«414092_j9835475108302_3_alg».proof.Proof.KI.Run
import proofs.«414092_j9835475108302_3_alg».proof.Proof.Val.Host0
import proofs.«414092_j9835475108302_3_alg».proof.Proof.Val.Arr0
import proofs.«414092_j9835475108302_3_alg».proof.Proof.Val.Host1
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open scoped BigOperators

/-- Row flat b i of the flattened input against a weight row is the projection's entry at batch b, row i:
    the query projection, -/
theorem q_flat (a : Cert.Spec.Args) (b : Fin 4) (i : Fin 2048) (d : Fin 1024) :
    (∑ e, a.x (Cert.Spec.rowB (Cert.Spec.flat b i)) (Cert.Spec.rowI (Cert.Spec.flat b i)) e * a.wq d e) = Cert.Spec.q a b i d := by
  rw [Cert.Spec.rowB_flat, Cert.Spec.rowI_flat]; rfl
/-- the projected keys, -/
theorem ak_flat (a : Cert.Spec.Args) (b : Fin 4) (i : Fin 2048) (d : Fin 1024) :
    (∑ e, a.x (Cert.Spec.rowB (Cert.Spec.flat b i)) (Cert.Spec.rowI (Cert.Spec.flat b i)) e * Cert.Spec.wak a d e) = Cert.Spec.ak a b i d := by
  rw [Cert.Spec.rowB_flat, Cert.Spec.rowI_flat]; rfl
/-- the projected values. -/
theorem uu_flat (a : Cert.Spec.Args) (b : Fin 4) (i : Fin 2048) (w : Fin 1024) :
    (∑ e, a.x (Cert.Spec.rowB (Cert.Spec.flat b i)) (Cert.Spec.rowI (Cert.Spec.flat b i)) e * Cert.Spec.wbv a w e) = Cert.Spec.uu a b i w := by
  rw [Cert.Spec.rowB_flat, Cert.Spec.rowI_flat]; rfl

/-- What the five arrays that region 1's input windows stage hold when region 1 is entered, from real argument
    arrays: the query projection, the projected keys and the projected values, each of the first two beside a zero
    array (the low half of its two-piece split: over the reals the high half is exact). Each is the second host
    stretch's reshape of a region 0 output array, which is the matrix product of the flattened input (the first host
    stretch's reshape of the input) with a transposed weight (the first host stretch's products and transposes);
    row flat b i of the flattened input is row i of batch b. -/
theorem mid_values (m : (ℓ : Loc nD τ sig) → Buf (Elt Ideal) ℓ) (ρ : Dev nD → PrngReg) (c : Dev nD) (a : Cert.Spec.Args) (h : IsArgs m c a) :
    (Cert.KernelIdeal.Hand.VR3 m ρ c main_v16 : S4x2048x1024.Idx → EReal) = (fun i => ((Cert.Spec.q a (i 0) (i 1) (i 2) : ℝ) : EReal))
    ∧ (Cert.KernelIdeal.Hand.VR3 m ρ c main_v17 : S4x2048x1024.Idx → EReal) = (fun _ => (0 : EReal))
    ∧ (Cert.KernelIdeal.Hand.VR3 m ρ c main_v18 : S4x2048x1024.Idx → EReal) = (fun i => ((Cert.Spec.ak a (i 0) (i 1) (i 2) : ℝ) : EReal))
    ∧ (Cert.KernelIdeal.Hand.VR3 m ρ c main_v19 : S4x2048x1024.Idx → EReal) = (fun _ => (0 : EReal))
    ∧ (Cert.KernelIdeal.Hand.VR3 m ρ c main_v20 : S4x2048x1024.Idx → EReal) = (fun i => ((Cert.Spec.uu a (i 0) (i 1) (i 2) : ℝ) : EReal)) := by
  -- the first host stretch: region 0's six input arrays
  obtain ⟨h14, h3, h6, h8, h11, h13⟩ := host0_values m c a h
  -- region 0: its five output arrays at its exit
  obtain ⟨o6, o7, o8, o9, o10⟩ := arr0_values (Cert.KernelIdeal.Hand.VR1 m ρ) c
    (fun r e => a.x (Cert.Spec.rowB r) (Cert.Spec.rowI r) e) (fun e d => a.wq d e)
    (fun e d => Cert.Spec.wak a d e) (fun e w => Cert.Spec.wbv a w e) h14 h3 h6 h8 h11 h13
  -- the second host stretch: each of region 1's input arrays is a region 0 output array, reshaped
  obtain ⟨r16, r17, r18, r19, r20⟩ := host1_values (Cert.KernelIdeal.Hand.W2 m ρ c)
  have e6 := Cert.KernelIdeal.Hand.W2_arr m ρ c 6
  have e7 := Cert.KernelIdeal.Hand.W2_arr m ρ c 7
  have e8 := Cert.KernelIdeal.Hand.W2_arr m ρ c 8
  have e9 := Cert.KernelIdeal.Hand.W2_arr m ρ c 9
  have e10 := Cert.KernelIdeal.Hand.W2_arr m ρ c 10
  refine ⟨?_, ?_, ?_, ?_, ?_⟩
  · refine r16.trans (funext fun i => ?_)
    exact (congrFun (e6.trans o6) (ValueIdx.ix2 (Cert.Spec.flat (i 0) (i 1)) (i 2))).trans
      (congrArg (fun x : ℝ => (x : EReal)) (q_flat a (i 0) (i 1) (i 2)))
  · refine r17.trans (funext fun i => ?_)
    exact congrFun (e7.trans o7) (ValueIdx.ix2 (Cert.Spec.flat (i 0) (i 1)) (i 2))
  · refine r18.trans (funext fun i => ?_)
    exact (congrFun (e8.trans o8) (ValueIdx.ix2 (Cert.Spec.flat (i 0) (i 1)) (i 2))).trans
      (congrArg (fun x : ℝ => (x : EReal)) (ak_flat a (i 0) (i 1) (i 2)))
  · refine r19.trans (funext fun i => ?_)
    exact congrFun (e9.trans o9) (ValueIdx.ix2 (Cert.Spec.flat (i 0) (i 1)) (i 2))
  · refine r20.trans (funext fun i => ?_)
    exact (congrFun (e10.trans o10) (ValueIdx.ix2 (Cert.Spec.flat (i 0) (i 1)) (i 2))).trans
      (congrArg (fun x : ℝ => (x : EReal)) (uu_flat a (i 0) (i 1) (i 2)))

end Cert.KernelIdeal.Val

end
-- ==== Proof.Val.Piece1.lean ====
/- Region 1 (the attention kernel): what the pieces each whole-body run leaves in the three scratch buffers (running
   maximum, running denominator, running numerator) and in the output window's buffer read back as, in the body's
   payloads over the five input blocks and over what the point before left. Generic in the float type. -/
import proofs.«414092_j9835475108302_3_alg».proof.Proof.KI.R1
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The zero offsets of a rank-3 rectangle, however spelt. -/
theorem hz3 : (![0, 0, 0] : Fin 3 → Nat) = fun _ => 0 := funext fun a => by fin_cases a <;> rfl

/-- Scratch 0 (the running maximum) after the body at the key/value axis's first block (reset, then the first block's update): the update's payload over the input blocks and the reset values. -/
theorem sout1_A_0_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) :
    sout1_A_0 c i arg3 harg3 arg4 harg4 arg5 harg5 arg6 harg6 arg7 harg7 arg8 harg8 arg9 harg9 arg10 harg10 arg11 harg11 hc0 hc1 x0 x1 x2 x3 x4 = k1_pay5 (k1_pay11 x0 x2 x1 x2 x0 x3 k1_pay7) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1x1024x1) hz3]
  simp only [View.readAt_eq_ld, harg3.read_unread, harg4.read_unread, harg5.read_unread, harg6.read_unread, harg7.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 1 (the running denominator) after the body at the key/value axis's first block (reset, then the first block's update): the update's payload over the input blocks and the reset values. -/
theorem sout1_A_1_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) :
    sout1_A_1 c i arg3 harg3 arg4 harg4 arg5 harg5 arg6 harg6 arg7 harg7 arg8 harg8 arg9 harg9 arg10 harg10 arg11 harg11 hc0 hc1 x0 x1 x2 x3 x4 = k1_pay3 (k1_pay10 x0 x2 x1 x2 x0 x3) (k1_pay11 x0 x2 x1 x2 x0 x3 k1_pay7) (k1_pay12 x0 x2 x1 x2 x0 x3 k1_pay7 k1_pay7) k1_pay8 := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1x1024x1) hz3]
  simp only [View.readAt_eq_ld, harg3.read_unread, harg4.read_unread, harg5.read_unread, harg6.read_unread, harg7.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 2 (the running numerator) after the body at the key/value axis's first block (reset, then the first block's update): the update's payload over the input blocks and the reset values. -/
theorem sout1_A_2_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : cond1_0 i) (hc1 : ¬cond1_1 i)
    (x0 x1 : Vec F S1x1024x1024 .bf16) (x2 x3 x4 : Vec F S1x256x1024 .bf16) :
    sout1_A_2 c i arg3 harg3 arg4 harg4 arg5 harg5 arg6 harg6 arg7 harg7 arg8 harg8 arg9 harg9 arg10 harg10 arg11 harg11 hc0 hc1 x0 x1 x2 x3 x4 = k1_pay4 (k1_pay10 x0 x2 x1 x2 x0 x3) (k1_pay11 x0 x2 x1 x2 x0 x3 k1_pay7) (k1_pay12 x0 x2 x1 x2 x0 x3 k1_pay7 k1_pay7) k1_pay9 x4 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1x1024x1024) hz3]
  simp only [View.readAt_eq_ld, harg3.read_unread, harg4.read_unread, harg5.read_unread, harg6.read_unread, harg7.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 0 (the running maximum) after the body strictly between the first and the last block: the update's payload over the input blocks and what the point before left. -/
theorem sout1_B_0_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) :
    sout1_B_0 c i arg3 harg3 arg4 harg4 arg5 harg5 arg6 harg6 arg7 harg7 arg8 harg8 arg9 harg9 arg10 harg10 arg11 harg11 hc0 hc1 x0 x1 x2 x3 x4 xs0 xs1 xs2 = k1_pay5 (k1_pay11 x0 x2 x1 x2 x0 x3 xs0) := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 1 (the running denominator) after the body strictly between the first and the last block: the update's payload over the input blocks and what the point before left. -/
theorem sout1_B_1_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) :
    sout1_B_1 c i arg3 harg3 arg4 harg4 arg5 harg5 arg6 harg6 arg7 harg7 arg8 harg8 arg9 harg9 arg10 harg10 arg11 harg11 hc0 hc1 x0 x1 x2 x3 x4 xs0 xs1 xs2 = k1_pay3 (k1_pay10 x0 x2 x1 x2 x0 x3) (k1_pay11 x0 x2 x1 x2 x0 x3 xs0) (k1_pay12 x0 x2 x1 x2 x0 x3 xs0 xs0) xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 2 (the running numerator) after the body strictly between the first and the last block: the update's payload over the input blocks and what the point before left. -/
theorem sout1_B_2_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : ¬cond1_1 i)
    (x0 x1 : Vec F S1x1024x1024 .bf16) (x2 x3 x4 : Vec F S1x256x1024 .bf16) (xs0 xs1 : Vec F S1x1024x1 .f32) (xs2 : Vec F S1x1024x1024 .f32) :
    sout1_B_2 c i arg3 harg3 arg4 harg4 arg5 harg5 arg6 harg6 arg7 harg7 arg8 harg8 arg9 harg9 arg10 harg10 arg11 harg11 hc0 hc1 x0 x1 x2 x3 x4 xs0 xs1 xs2 = k1_pay4 (k1_pay10 x0 x2 x1 x2 x0 x3) (k1_pay11 x0 x2 x1 x2 x0 x3 xs0) (k1_pay12 x0 x2 x1 x2 x0 x3 xs0 xs0) xs2 x4 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 0 (the running maximum) after the body at the last block: the update's payload over the input blocks and what the point before left. -/
theorem sout1_C_0_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) :
    sout1_C_0 c i arg3 harg3 arg4 harg4 arg5 harg5 arg6 harg6 arg7 harg7 arg8 harg8 arg9 harg9 arg10 harg10 arg11 harg11 hc0 hc1 x0 x1 x2 x3 x4 xs0 xs1 xs2 = k1_pay5 (k1_pay11 x0 x2 x1 x2 x0 x3 xs0) := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 1 (the running denominator) after the body at the last block: the update's payload over the input blocks and what the point before left. -/
theorem sout1_C_1_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) :
    sout1_C_1 c i arg3 harg3 arg4 harg4 arg5 harg5 arg6 harg6 arg7 harg7 arg8 harg8 arg9 harg9 arg10 harg10 arg11 harg11 hc0 hc1 x0 x1 x2 x3 x4 xs0 xs1 xs2 = k1_pay3 (k1_pay10 x0 x2 x1 x2 x0 x3) (k1_pay11 x0 x2 x1 x2 x0 x3 xs0) (k1_pay12 x0 x2 x1 x2 x0 x3 xs0 xs0) xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- Scratch 2 (the running numerator) after the body at the last block: the update's payload over the input blocks and what the point before left. -/
theorem sout1_C_2_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) :
    sout1_C_2 c i arg3 harg3 arg4 harg4 arg5 harg5 arg6 harg6 arg7 harg7 arg8 harg8 arg9 harg9 arg10 harg10 arg11 harg11 hc0 hc1 x0 x1 x2 x3 x4 xs0 xs1 xs2 = k1_pay4 (k1_pay10 x0 x2 x1 x2 x0 x3) (k1_pay11 x0 x2 x1 x2 x0 x3 xs0) (k1_pay12 x0 x2 x1 x2 x0 x3 xs0 xs0) xs2 x4 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

/-- The output window's buffer after the body at the last block: the running numerator over the running denominator,
    both as this point's update leaves them. -/
theorem out1_C_5_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (hc0 : ¬cond1_0 i) (hc1 : cond1_1 i)
    (x0 x1 : Vec F S1x1024x1024 .bf16) (x2 x3 x4 : Vec F S1x256x1024 .bf16) (xs0 xs1 : Vec F S1x1024x1 .f32) (xs2 : Vec F S1x1024x1024 .f32) :
    out1_C_5 c i arg3 harg3 arg4 harg4 arg5 harg5 arg6 harg6 arg7 harg7 arg8 harg8 arg9 harg9 arg10 harg10 arg11 harg11 hc0 hc1 x0 x1 x2 x3 x4 xs0 xs1 xs2 = k1_pay6 (k1_pay4 (k1_pay10 x0 x2 x1 x2 x0 x3) (k1_pay11 x0 x2 x1 x2 x0 x3 xs0) (k1_pay12 x0 x2 x1 x2 x0 x3 xs0 xs0) xs2 x4) (k1_pay3 (k1_pay10 x0 x2 x1 x2 x0 x3) (k1_pay11 x0 x2 x1 x2 x0 x3 xs0) (k1_pay12 x0 x2 x1 x2 x0 x3 xs0 xs0) xs1) := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero hz3]
  simp only [View.readAt_eq_ld, harg3.read_unread, harg4.read_unread, harg5.read_unread, harg6.read_unread, harg7.read_unread, harg9.read_unread, harg10.read_unread, harg11.read_unread, View.ld_unit_zero (S := S1x1024x1024) hz3, View.ld_unit_zero (S := S1x256x1024) hz3, View.ld_unit_zero (S := S1x1024x1) hz3, View.readCov_unit_zero (S := S1x1024x1) _ hz3, View.readCov_unit_zero (S := S1x1024x1024) _ hz3]

end Cert.KernelIdeal.Val

end
-- ==== Proof.Val.Pay1.lean ====
/- The arithmetic of the attention kernel's body, read at an index on the extended reals: the logits of a
   block of keys as sums of products, the new running maximum, the rescaling exponent, the new denominator
   and numerator, the final quotient, and the three reset values. -/
import proofs.«414092_j9835475108302_3_alg».proof.Proof.Gen.KernelIdeal.Skeleton
import proofs.«414092_j9835475108302_3_alg».proof.Proof.Math.Attn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## Layout operations at an index -/

/-- A row vector [1, a] viewed as a column [1, a, 1] reads, at (0, r, 0), the vector at (0, r). -/
theorem column_apply {α : Type} (x : S1x1024.Idx → α) (h : S1x1024.ShapeCasts S1x1024x1) (r : Fin 1024) :
    shapeCast S1x1024x1 x h (ix3 (0 : Fin 1) r (0 : Fin 1)) = x (ix2 (0 : Fin 1) r) :=
  shapeCast_apply x h _ _ (by
    rw [Shape.rowMajor_val_three, Shape.rowMajor_val_two]
    show 0 * 1024 + r.val = (0 * 1024 + r.val) * 1 + 0
    omega)

/-- A column [1, a, 1] spread over 256 lanes reads, at (0, r, jj), the column at (0, r, 0). -/
theorem spread256_apply {α : Type} (x : S1x1024x1.Idx → α) (h : S1x1024x1.Broadcasts S1x1024x256) (r : Fin 1024) (jj : Fin 256) :
    broadcastTo S1x1024x256 x h (ix3 (0 : Fin 1) r jj) = x (ix3 (0 : Fin 1) r (0 : Fin 1)) := by
  refine broadcastTo_apply x h (ix3 (0 : Fin 1) r jj) (ix3 (0 : Fin 1) r (0 : Fin 1)) fun ax => ?_
  match ax with
  | ⟨0, _⟩ => rfl
  | ⟨1, _⟩ => rfl
  | ⟨2, _⟩ => rfl

/-- A column [1, a, 1] spread over 1024 lanes reads, at (0, r, v), the column at (0, r, 0). -/
theorem spread1024_apply {α : Type} (x : S1x1024x1.Idx → α) (h : S1x1024x1.Broadcasts S1x1024x1024) (r v : Fin 1024) :
    broadcastTo S1x1024x1024 x h (ix3 (0 : Fin 1) r v) = x (ix3 (0 : Fin 1) r (0 : Fin 1)) := by
  refine broadcastTo_apply x h (ix3 (0 : Fin 1) r v) (ix3 (0 : Fin 1) r (0 : Fin 1)) fun ax => ?_
  match ax with
  | ⟨0, _⟩ => rfl
  | ⟨1, _⟩ => rfl
  | ⟨2, _⟩ => rfl

/-! ## The lane reductions at an index -/

/-- The sum over the 256 lanes of a [1, a, 256] block, read at (0, r). -/
theorem laneSum_apply (src : FVec Ideal S1x1024x256 .f32) (h : S1x1024x256.Reduces [2] S1x1024) (hφ : FKind.Formats .f32)
    (hacc : (0x00000000#32 : BitVec 32) = FKind.add.neutral .f32 hφ) (r : Fin 1024) :
    multiReduction (F := Ideal) .add [2] S1x1024 src 0x00000000#32 h hφ hacc (ix2 (0 : Fin 1) r)
      = ∑ jj : Fin 256, src (ix3 (0 : Fin 1) r jj) := by
  refine (Ideal.multiReduction_add_single src 0x00000000#32 h hφ hacc (ix2 (0 : Fin 1) r)).trans ?_
  exact Finset.sum_congr rfl fun k _ => congrArg src (funext fun c => Fin.ext (by
    match c with
    | ⟨0, _⟩ => rfl
    | ⟨1, _⟩ => rfl
    | ⟨2, _⟩ => rfl))

/-! ## The two products of the body at an index -/

theorem lhs_qk_0 (i : S1x1024x256.Idx) (q : dot_S1x1024x1024_S1x256x1024_S1x1024x256_2_2_1_1_0_0.contr.Idx) :
    (dot_S1x1024x1024_S1x256x1024_S1x1024x256_2_2_1_1_0_0.lhsIdx i q 0).val = (i 0).val := by
  unfold DotDims.lhsIdx
  rw [dif_pos (show (0 : Fin S1x1024x1024.rank) ∈ dot_S1x1024x1024_S1x256x1024_S1x1024x256_2_2_1_1_0_0.lhsBatch by decide)]
  rfl
theorem lhs_qk_1 (i : S1x1024x256.Idx) (q : dot_S1x1024x1024_S1x256x1024_S1x1024x256_2_2_1_1_0_0.contr.Idx) :
    (dot_S1x1024x1024_S1x256x1024_S1x1024x256_2_2_1_1_0_0.lhsIdx i q 1).val = (i 1).val := by
  unfold DotDims.lhsIdx
  rw [dif_neg (show ¬(1 : Fin S1x1024x1024.rank) ∈ dot_S1x1024x1024_S1x256x1024_S1x1024x256_2_2_1_1_0_0.lhsBatch by decide), dif_pos (show (1 : Fin S1x1024x1024.rank) ∈ dot_S1x1024x1024_S1x256x1024_S1x1024x256_2_2_1_1_0_0.lhsNonContracting by decide)]
  rfl
theorem lhs_qk_2 (i : S1x1024x256.Idx) (q : dot_S1x1024x1024_S1x256x1024_S1x1024x256_2_2_1_1_0_0.contr.Idx) :
    (dot_S1x1024x1024_S1x256x1024_S1x1024x256_2_2_1_1_0_0.lhsIdx i q 2).val = (q ⟨0, by decide⟩).val :=
  dot_S1x1024x1024_S1x256x1024_S1x1024x256_2_2_1_1_0_0.lhsIdx_val_of_single rfl i q
theorem rhs_qk_0 (i : S1x1024x256.Idx) (q : dot_S1x1024x1024_S1x256x1024_S1x1024x256_2_2_1_1_0_0.contr.Idx) :
    (dot_S1x1024x1024_S1x256x1024_S1x1024x256_2_2_1_1_0_0.rhsIdx i q 0).val = (i 0).val := by
  unfold DotDims.rhsIdx
  rw [dif_pos (show (0 : Fin S1x256x1024.rank) ∈ dot_S1x1024x1024_S1x256x1024_S1x1024x256_2_2_1_1_0_0.rhsBatch by decide)]
  rfl
theorem rhs_qk_1 (i : S1x1024x256.Idx) (q : dot_S1x1024x1024_S1x256x1024_S1x1024x256_2_2_1_1_0_0.contr.Idx) :
    (dot_S1x1024x1024_S1x256x1024_S1x1024x256_2_2_1_1_0_0.rhsIdx i q 1).val = (i 2).val := by
  unfold DotDims.rhsIdx
  rw [dif_neg (show ¬(1 : Fin S1x256x1024.rank) ∈ dot_S1x1024x1024_S1x256x1024_S1x1024x256_2_2_1_1_0_0.rhsBatch by decide), dif_pos (show (1 : Fin S1x256x1024.rank) ∈ dot_S1x1024x1024_S1x256x1024_S1x1024x256_2_2_1_1_0_0.rhsNonContracting by decide)]
  rfl
theorem rhs_qk_2 (i : S1x1024x256.Idx) (q : dot_S1x1024x1024_S1x256x1024_S1x1024x256_2_2_1_1_0_0.contr.Idx) :
    (dot_S1x1024x1024_S1x256x1024_S1x1024x256_2_2_1_1_0_0.rhsIdx i q 2).val = (q ⟨0, by decide⟩).val :=
  dot_S1x1024x1024_S1x256x1024_S1x1024x256_2_2_1_1_0_0.rhsIdx_val_of_single rfl i q

/-- Queries against keys into a zero accumulator: at (0, r, jj) the sum over the 1024 features of query row r times key row jj. -/
theorem qk_apply (q : FVec Ideal S1x1024x1024 .bf16) (k : FVec Ideal S1x256x1024 .bf16) (r : Fin 1024) (jj : Fin 256) :
    matmul (F := Ideal) dot_S1x1024x1024_S1x256x1024_S1x1024x256_2_2_1_1_0_0 none q k (constant (F := Ideal) S1x1024x256 .f32 0x00000000#32) (ix3 (0 : Fin 1) r jj)
      = ∑ d : Fin 1024, q (ix3 (0 : Fin 1) r d) * k (ix3 (0 : Fin 1) jj d) := by
  simp only [matmul]
  rw [Ideal.matmul_constant_zero_apply, ← Equiv.sum_comp (contrEquiv1 dot_S1x1024x1024_S1x256x1024_S1x1024x256_2_2_1_1_0_0 1024 rfl rfl).symm]
  refine Finset.sum_congr rfl fun d _ => ?_
  have hk := contrEquiv1_symm_val dot_S1x1024x1024_S1x256x1024_S1x1024x256_2_2_1_1_0_0 1024 rfl rfl d
  have el : dot_S1x1024x1024_S1x256x1024_S1x1024x256_2_2_1_1_0_0.lhsIdx (ix3 (0 : Fin 1) r jj) ((contrEquiv1 dot_S1x1024x1024_S1x256x1024_S1x1024x256_2_2_1_1_0_0 1024 rfl rfl).symm d) = ix3 (0 : Fin 1) r d := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x1024x1024_S1x256x1024_S1x1024x256_2_2_1_1_0_0.rhsIdx (ix3 (0 : Fin 1) r jj) ((contrEquiv1 dot_S1x1024x1024_S1x256x1024_S1x1024x256_2_2_1_1_0_0 1024 rfl rfl).symm d) = ix3 (0 : Fin 1) jj d := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pu_0 (i : S1x1024x1024.Idx) (q : dot_S1x1024x256_S1x256x1024_S1x1024x1024_2_1_1_2_0_0.contr.Idx) :
    (dot_S1x1024x256_S1x256x1024_S1x1024x1024_2_1_1_2_0_0.lhsIdx i q 0).val = (i 0).val := by
  unfold DotDims.lhsIdx
  rw [dif_pos (show (0 : Fin S1x1024x256.rank) ∈ dot_S1x1024x256_S1x256x1024_S1x1024x1024_2_1_1_2_0_0.lhsBatch by decide)]
  rfl
theorem lhs_pu_1 (i : S1x1024x1024.Idx) (q : dot_S1x1024x256_S1x256x1024_S1x1024x1024_2_1_1_2_0_0.contr.Idx) :
    (dot_S1x1024x256_S1x256x1024_S1x1024x1024_2_1_1_2_0_0.lhsIdx i q 1).val = (i 1).val := by
  unfold DotDims.lhsIdx
  rw [dif_neg (show ¬(1 : Fin S1x1024x256.rank) ∈ dot_S1x1024x256_S1x256x1024_S1x1024x1024_2_1_1_2_0_0.lhsBatch by decide), dif_pos (show (1 : Fin S1x1024x256.rank) ∈ dot_S1x1024x256_S1x256x1024_S1x1024x1024_2_1_1_2_0_0.lhsNonContracting by decide)]
  rfl
theorem lhs_pu_2 (i : S1x1024x1024.Idx) (q : dot_S1x1024x256_S1x256x1024_S1x1024x1024_2_1_1_2_0_0.contr.Idx) :
    (dot_S1x1024x256_S1x256x1024_S1x1024x1024_2_1_1_2_0_0.lhsIdx i q 2).val = (q ⟨0, by decide⟩).val :=
  dot_S1x1024x256_S1x256x1024_S1x1024x1024_2_1_1_2_0_0.lhsIdx_val_of_single rfl i q
theorem rhs_pu_0 (i : S1x1024x1024.Idx) (q : dot_S1x1024x256_S1x256x1024_S1x1024x1024_2_1_1_2_0_0.contr.Idx) :
    (dot_S1x1024x256_S1x256x1024_S1x1024x1024_2_1_1_2_0_0.rhsIdx i q 0).val = (i 0).val := by
  unfold DotDims.rhsIdx
  rw [dif_pos (show (0 : Fin S1x256x1024.rank) ∈ dot_S1x1024x256_S1x256x1024_S1x1024x1024_2_1_1_2_0_0.rhsBatch by decide)]
  rfl
theorem rhs_pu_1 (i : S1x1024x1024.Idx) (q : dot_S1x1024x256_S1x256x1024_S1x1024x1024_2_1_1_2_0_0.contr.Idx) :
    (dot_S1x1024x256_S1x256x1024_S1x1024x1024_2_1_1_2_0_0.rhsIdx i q 1).val = (q ⟨0, by decide⟩).val :=
  dot_S1x1024x256_S1x256x1024_S1x1024x1024_2_1_1_2_0_0.rhsIdx_val_of_single rfl i q
theorem rhs_pu_2 (i : S1x1024x1024.Idx) (q : dot_S1x1024x256_S1x256x1024_S1x1024x1024_2_1_1_2_0_0.contr.Idx) :
    (dot_S1x1024x256_S1x256x1024_S1x1024x1024_2_1_1_2_0_0.rhsIdx i q 2).val = (i 2).val := by
  unfold DotDims.rhsIdx
  rw [dif_neg (show ¬(2 : Fin S1x256x1024.rank) ∈ dot_S1x1024x256_S1x256x1024_S1x1024x1024_2_1_1_2_0_0.rhsBatch by decide), dif_pos (show (2 : Fin S1x256x1024.rank) ∈ dot_S1x1024x256_S1x256x1024_S1x1024x1024_2_1_1_2_0_0.rhsNonContracting by decide)]
  rfl

/-- Weights against values into a zero accumulator: at (0, r, v) the sum over the 256 positions of the block of the weight at (r, jj) times the value at (jj, v). -/
theorem pu_apply (p : FVec Ideal S1x1024x256 .bf16) (u : FVec Ideal S1x256x1024 .bf16) (r v : Fin 1024) :
    matmul (F := Ideal) dot_S1x1024x256_S1x256x1024_S1x1024x1024_2_1_1_2_0_0 none p u (constant (F := Ideal) S1x1024x1024 .f32 0x00000000#32) (ix3 (0 : Fin 1) r v)
      = ∑ jj : Fin 256, p (ix3 (0 : Fin 1) r jj) * u (ix3 (0 : Fin 1) jj v) := by
  simp only [matmul]
  rw [Ideal.matmul_constant_zero_apply, ← Equiv.sum_comp (contrEquiv1 dot_S1x1024x256_S1x256x1024_S1x1024x1024_2_1_1_2_0_0 256 rfl rfl).symm]
  refine Finset.sum_congr rfl fun jj _ => ?_
  have hk := contrEquiv1_symm_val dot_S1x1024x256_S1x256x1024_S1x1024x1024_2_1_1_2_0_0 256 rfl rfl jj
  have el : dot_S1x1024x256_S1x256x1024_S1x1024x1024_2_1_1_2_0_0.lhsIdx (ix3 (0 : Fin 1) r v) ((contrEquiv1 dot_S1x1024x256_S1x256x1024_S1x1024x1024_2_1_1_2_0_0 256 rfl rfl).symm jj) = ix3 (0 : Fin 1) r jj := funext fun a => Fin.ext (by
    match a with
    | ⟨0, _⟩ => exact lhs_pu_0 _ _
    | ⟨1, _⟩ => exact lhs_pu_1 _ _
    | ⟨2, _⟩ => exact (lhs_pu_2 _ _).trans hk)
  have er : dot_S1x1024x256_S1x256x1024_S1x1024x1024_2_1_1_2_0_0.rhsIdx (ix3 (0 : Fin 1) r v) ((contrEquiv1 dot_S1x1024x256_S1x256x1024_S1x1024x1024_2_1_1_2_0_0 256 rfl rfl).symm jj) = ix3 (0 : Fin 1) jj v := funext fun a => Fin.ext (by
    match a with
    | ⟨0, _⟩ => exact rhs_pu_0 _ _
    | ⟨1, _⟩ => exact (rhs_pu_1 _ _).trans hk
    | ⟨2, _⟩ => exact rhs_pu_2 _ _)
  rw [el, er]

/-! ## The values the body computes, at an index -/

/-- The running maximum is stored as it is. -/
theorem pay5_eq (M : FVec Ideal S1x1024x1 .f32) : k1_pay5 (F := Ideal) M = M := by
  unfold k1_pay5
  exact shapeCast_self M _

/-- The reset value of the running maximum is the bottom of the extended reals. -/
theorem pay7_eq : (k1_pay7 (F := Ideal)) = fun _ => (⊥ : EReal) := by
  unfold k1_pay7
  refine (shapeCast_self _ _).trans ?_
  funext i
  show Ideal.ofBits .f32 0xFF800000#32 = ⊥
  simp [Ideal.ofBits, Ideal.ieee]

/-- The reset value of the denominator is zero. -/
theorem pay8_eq : (k1_pay8 (F := Ideal)) = fun _ => (0 : EReal) := by
  unfold k1_pay8
  refine (shapeCast_self _ _).trans ?_
  funext i
  exact Ideal.ofBits_zero_f32

/-- The reset value of the numerator is zero. -/
theorem pay9_eq : (k1_pay9 (F := Ideal)) = fun _ => (0 : EReal) := by
  unfold k1_pay9
  refine (shapeCast_self _ _).trans ?_
  funext i
  exact Ideal.ofBits_zero_f32

/-- The output: the numerator divided by the denominator of its row. -/
theorem pay6_apply (Acc : Vec Ideal S1x1024x1024 .f32) (L : Vec Ideal S1x1024x1 .f32) (r v : Fin 1024) :
    k1_pay6 (F := Ideal) Acc L (ix3 (0 : Fin 1) r v) = Ideal.div (Acc (ix3 (0 : Fin 1) r v)) (L (ix3 (0 : Fin 1) r (0 : Fin 1))) := by
  unfold k1_pay6
  refine (divf_apply _ _ _).trans ?_
  rw [spread1024_apply]

/-- The new denominator: the old one rescaled plus the sum of the block's exponentials at the new maximum. -/
theorem pay3_apply (S : FVec Ideal S1x1024x256 .f32) (Mn D : FVec Ideal S1x1024x1 .f32) (Lold : Vec Ideal S1x1024x1 .f32) (r : Fin 1024) :
    k1_pay3 (F := Ideal) S Mn D Lold (ix3 (0 : Fin 1) r (0 : Fin 1))
      = Ideal.exp (D (ix3 (0 : Fin 1) r (0 : Fin 1))) * Lold (ix3 (0 : Fin 1) r (0 : Fin 1))
        + ∑ jj : Fin 256, Ideal.exp (S (ix3 (0 : Fin 1) r jj) - Mn (ix3 (0 : Fin 1) r (0 : Fin 1))) := by
  unfold k1_pay3 k1_pay1 k1_pay2
  refine (congrFun (shapeCast_self _ _) _).trans ?_
  refine (addf_apply _ _ _).trans ?_
  refine congrArg₂ (· + ·) rfl ?_
  refine (column_apply _ _ r).trans ?_
  refine (laneSum_apply _ _ _ _ r).trans ?_
  refine Finset.sum_congr rfl fun jj _ => ?_
  show Ideal.exp (S (ix3 (0 : Fin 1) r jj) - broadcastTo S1x1024x256 Mn broadcasts_S1x1024x1_S1x1024x256 (ix3 (0 : Fin 1) r jj)) = _
  rw [spread256_apply]

/-- The new numerator: the old one rescaled plus the block's exponentials at the new maximum against the values. -/
theorem pay4_apply (S : FVec Ideal S1x1024x256 .f32) (Mn D : FVec Ideal S1x1024x1 .f32) (Acc : Vec Ideal S1x1024x1024 .f32)
    (ub : Vec Ideal S1x256x1024 .bf16) (r v : Fin 1024) :
    k1_pay4 (F := Ideal) S Mn D Acc ub (ix3 (0 : Fin 1) r v)
      = Ideal.exp (D (ix3 (0 : Fin 1) r (0 : Fin 1))) * Acc (ix3 (0 : Fin 1) r v)
        + ∑ jj : Fin 256, Ideal.exp (S (ix3 (0 : Fin 1) r jj) - Mn (ix3 (0 : Fin 1) r (0 : Fin 1))) * ub (ix3 (0 : Fin 1) jj v) := by
  unfold k1_pay4 k1_pay1 k1_pay2
  refine (congrFun (shapeCast_self _ _) _).trans ?_
  refine (addf_apply _ _ _).trans ?_
  refine congrArg₂ (· + ·) ?_ ?_
  · refine (mulf_apply _ _ _).trans ?_
    rw [spread1024_apply]
    rfl
  · rw [shapeCast_self]
    refine (pu_apply _ _ r v).trans ?_
    refine Finset.sum_congr rfl fun jj _ => ?_
    show Ideal.exp (S (ix3 (0 : Fin 1) r jj) - broadcastTo S1x1024x256 Mn broadcasts_S1x1024x1_S1x1024x256 (ix3 (0 : Fin 1) r jj)) * _ = _
    rw [spread256_apply]

/-- One product of the logits with its operands loaded whole: the casts to the same shape drop out. -/
theorem qk_cast_apply (q : Vec Ideal S1x1024x1024 .bf16) (k : Vec Ideal S1x256x1024 .bf16)
    (hq : S1x1024x1024.ShapeCasts S1x1024x1024) (hk : S1x256x1024.ShapeCasts S1x256x1024) (r : Fin 1024) (jj : Fin 256) :
    matmul (F := Ideal) dot_S1x1024x1024_S1x256x1024_S1x1024x256_2_2_1_1_0_0 none
        (shapeCast S1x1024x1024 q hq : FVec Ideal S1x1024x1024 .bf16) (shapeCast S1x256x1024 k hk : FVec Ideal S1x256x1024 .bf16)
        (constant (F := Ideal) S1x1024x256 .f32 0x00000000#32) (ix3 (0 : Fin 1) r jj)
      = ∑ d : Fin 1024, q (ix3 (0 : Fin 1) r d) * k (ix3 (0 : Fin 1) jj d) := by
  rw [shapeCast_self, shapeCast_self]
  exact qk_apply q k r jj

/-- The logits: the sum of three products of queries against keys. -/
theorem pay10_apply (v3 : Vec Ideal S1x1024x1024 .bf16) (v5 : Vec Ideal S1x256x1024 .bf16) (v8 : Vec Ideal S1x1024x1024 .bf16)
    (v10 : Vec Ideal S1x256x1024 .bf16) (v14 : Vec Ideal S1x1024x1024 .bf16) (v16 : Vec Ideal S1x256x1024 .bf16) (r : Fin 1024) (jj : Fin 256) :
    k1_pay10 (F := Ideal) v3 v5 v8 v10 v14 v16 (ix3 (0 : Fin 1) r jj)
      = (∑ d : Fin 1024, v3 (ix3 (0 : Fin 1) r d) * v5 (ix3 (0 : Fin 1) jj d))
        + (∑ d : Fin 1024, v8 (ix3 (0 : Fin 1) r d) * v10 (ix3 (0 : Fin 1) jj d))
        + (∑ d : Fin 1024, v14 (ix3 (0 : Fin 1) r d) * v16 (ix3 (0 : Fin 1) jj d)) := by
  unfold k1_pay10
  exact (addf_apply _ _ _).trans (congrArg₂ (· + ·)
    ((addf_apply _ _ _).trans (congrArg₂ (· + ·) (qk_cast_apply v3 v5 _ _ r jj) (qk_cast_apply v8 v10 _ _ r jj)))
    (qk_cast_apply v14 v16 _ _ r jj))

/-- The logits at real operands whose low parts vanish: the real sum of products of the high parts. -/
theorem pay10_real (qb' : Fin 1024 → Fin 1024 → ℝ) (akb' : Fin 256 → Fin 1024 → ℝ) (qh ql : Vec Ideal S1x1024x1024 .bf16)
    (akh akl : Vec Ideal S1x256x1024 .bf16)
    (hqh : qh = fun i => ((qb' (i 1) (i 2) : ℝ) : EReal)) (hql : ql = fun _ => 0)
    (hakh : akh = fun i => ((akb' (i 1) (i 2) : ℝ) : EReal)) (hakl : akl = fun _ => 0) (r : Fin 1024) (jj : Fin 256) :
    k1_pay10 (F := Ideal) qh akh ql akh qh akl (ix3 (0 : Fin 1) r jj) = ((∑ d, qb' r d * akb' jj d : ℝ) : EReal) := by
  rw [pay10_apply]
  subst hqh hql hakh hakl
  have e1 : (∑ d : Fin 1024, ((qb' r d : ℝ) : EReal) * ((akb' jj d : ℝ) : EReal)) = ((∑ d, qb' r d * akb' jj d : ℝ) : EReal) :=
    Cert.Math.coe_dot (fun d => qb' r d) (fun d => akb' jj d)
  have e2 : (∑ d : Fin 1024, (0 : EReal) * ((akb' jj d : ℝ) : EReal)) = 0 := Cert.Math.dot_zero_left _
  have e3 : (∑ d : Fin 1024, ((qb' r d : ℝ) : EReal) * (0 : EReal)) = 0 := Cert.Math.dot_zero_right _
  exact (congrArg₂ (· + ·) (congrArg₂ (· + ·) e1 e2) e3).trans (by rw [add_zero, add_zero])

/-! ## The row maximum of a block of real logits -/

/-- A real against the running maximum, from the bottom, of finitely many reals is a real. -/
theorem max_fold_coe {ι : Type} (f : ι → ℝ) (t : Finset ι) :
    ∀ c : ℝ, ∃ b : ℝ, max (c : EReal) (t.fold max (⊥ : EReal) (fun i => ((f i : ℝ) : EReal))) = ((b : ℝ) : EReal) := by
  classical
  refine Finset.induction_on t ?_ ?_
  · intro c
    exact ⟨c, by rw [Finset.fold_empty, max_eq_left bot_le]⟩
  · intro a t ha ih c
    obtain ⟨b, hb⟩ := ih (max c (f a))
    refine ⟨b, ?_⟩
    have hmax : max (c : EReal) ((f a : ℝ) : EReal) = ((max c (f a) : ℝ) : EReal) :=
      (EReal.coe_strictMono.monotone.map_max (a := c) (b := f a)).symm
    rw [Finset.fold_insert ha, ← max_assoc, hmax]
    exact hb

/-- The maximum, from the bottom, of the 256 real logits of a row is a real. -/
theorem fold_max_bot_coe (f : Fin 256 → ℝ) :
    ∃ b : ℝ, (Finset.univ : Finset (Fin 256)).fold max (⊥ : EReal) (fun jj => ((f jj : ℝ) : EReal)) = ((b : ℝ) : EReal) := by
  have h : (Finset.univ : Finset (Fin 256)) = insert 0 (Finset.univ.erase 0) := (Finset.insert_erase (Finset.mem_univ _)).symm
  obtain ⟨b, hb⟩ := max_fold_coe f (Finset.univ.erase 0) (f 0)
  refine ⟨b, ?_⟩
  rw [h, Finset.fold_insert (Finset.notMem_erase _ _)]
  exact hb

/-- The lane maximum of a [1, a, 256] block from the word of minus infinity, read at (0, r): the maximum, from the bottom, over the row. -/
theorem laneMax_apply (src : FVec Ideal S1x1024x256 .f32) (h : S1x1024x256.Reduces [2] S1x1024) (hφ : FKind.Formats .f32)
    (hacc : (0xFF800000#32 : BitVec 32) = FKind.maximumf.neutral .f32 hφ) (r : Fin 1024) :
    multiReduction (F := Ideal) .maximumf [2] S1x1024 src 0xFF800000#32 h hφ hacc (ix2 (0 : Fin 1) r)
      = (Finset.univ : Finset (Fin 256)).fold max (⊥ : EReal) (fun jj => src (ix3 (0 : Fin 1) r jj)) := by
  refine (Ideal.multiReduction_maximumf_single src 0xFF800000#32 h hφ hacc (ix2 (0 : Fin 1) r)).trans ?_
  have hb : FloatOps.ofBits (F := Ideal) .f32 0xFF800000#32 = (⊥ : EReal) := by
    show Ideal.ofBits .f32 0xFF800000#32 = ⊥
    simp [Ideal.ofBits, Ideal.ieee]
  have hf : (src ∘ h.lift (ix2 (0 : Fin 1) r)) = fun jj : Fin 256 => src (ix3 (0 : Fin 1) r jj) :=
    funext fun k => congrArg src (funext fun c => Fin.ext (by
      match c with
      | ⟨0, _⟩ => rfl
      | ⟨1, _⟩ => rfl
      | ⟨2, _⟩ => rfl))
  rw [hb, hf]
  rfl

/-- The new running maximum: the old one against the row maximum of the block's logits. -/
theorem pay11_apply (v3 : Vec Ideal S1x1024x1024 .bf16) (v5 : Vec Ideal S1x256x1024 .bf16) (v8 : Vec Ideal S1x1024x1024 .bf16)
    (v10 : Vec Ideal S1x256x1024 .bf16) (v14 : Vec Ideal S1x1024x1024 .bf16) (v16 : Vec Ideal S1x256x1024 .bf16)
    (M : Vec Ideal S1x1024x1 .f32) (r : Fin 1024) :
    k1_pay11 (F := Ideal) v3 v5 v8 v10 v14 v16 M (ix3 (0 : Fin 1) r (0 : Fin 1))
      = max (M (ix3 (0 : Fin 1) r (0 : Fin 1)))
          ((Finset.univ : Finset (Fin 256)).fold max (⊥ : EReal) (fun jj => k1_pay10 (F := Ideal) v3 v5 v8 v10 v14 v16 (ix3 (0 : Fin 1) r jj))) := by
  unfold k1_pay11
  generalize k1_pay10 (F := Ideal) v3 v5 v8 v10 v14 v16 = S
  refine (maximumf_apply _ _ _).trans ?_
  refine congrArg (max _) ?_
  refine (column_apply _ _ r).trans ?_
  exact laneMax_apply S _ _ _ r

/-- At real logits the row maximum of the block is some real. -/
theorem pay11_real (S' : Fin 1024 → Fin 256 → ℝ) (qh ql : Vec Ideal S1x1024x1024 .bf16) (akh akl : Vec Ideal S1x256x1024 .bf16)
    (hS : ∀ r jj, k1_pay10 (F := Ideal) qh akh ql akh qh akl (ix3 (0 : Fin 1) r jj) = ((S' r jj : ℝ) : EReal)) :
    ∃ bm : Fin 1024 → ℝ, ∀ (M : Vec Ideal S1x1024x1 .f32) (r : Fin 1024),
      k1_pay11 (F := Ideal) qh akh ql akh qh akl M (ix3 (0 : Fin 1) r (0 : Fin 1)) = max (M (ix3 (0 : Fin 1) r (0 : Fin 1))) ((bm r : ℝ) : EReal) := by
  choose bm hbm using fun r : Fin 1024 => fold_max_bot_coe (S' r)
  refine ⟨bm, fun M r => ?_⟩
  rw [pay11_apply, funext (fun jj => hS r jj), hbm r]

/-- The rescaling exponent: the old maximum less the new one. -/
theorem pay12_apply (qh ql : Vec Ideal S1x1024x1024 .bf16) (akh akl : Vec Ideal S1x256x1024 .bf16) (M M2 : Vec Ideal S1x1024x1 .f32) (r : Fin 1024) :
    k1_pay12 (F := Ideal) qh akh ql akh qh akl M M2 (ix3 (0 : Fin 1) r (0 : Fin 1))
      = M2 (ix3 (0 : Fin 1) r (0 : Fin 1)) - k1_pay11 (F := Ideal) qh akh ql akh qh akl M (ix3 (0 : Fin 1) r (0 : Fin 1)) := by
  unfold k1_pay12
  exact subf_apply _ _ _

end Cert.KernelIdeal.Val

end
-- ==== Proof.Val.Step1.lean ====
/- One step of the attention kernel's running state at the extended reals, for one row and one output column:
   the state a key/value block leaves satisfies the row invariant of the block-by-block evaluation (new shift the
   larger of the old shift and a real, old denominator and numerator rescaled by exp (old - new), the block's
   terms at the new shift added), and after the last block the stored quotient is the softmax-weighted average. -/
import proofs.«414092_j9835475108302_3_alg».proof.Proof.Val.Pay1
import proofs.«414092_j9835475108302_3_alg».proof.Proof.Math.Attn
import Idealize.ShloMosaic.Lib.ValueIdx

noncomputable section

namespace Cert.KernelIdeal.Val

open Cert.KernelIdeal Cert.KernelIdeal.Gen
open Idealize.ShloMosaic Idealize.ShloMosaic.ValueIdx
open scoped BigOperators

section

variable (qb' : Fin 1024 → Fin 1024 → ℝ) (akb' ub' : Fin 256 → Fin 1024 → ℝ)
  (qh ql : Vec Ideal S1x1024x1024 .bf16) (akh akl ub : Vec Ideal S1x256x1024 .bf16)
  (hqh : qh = fun i => ((qb' (i 1) (i 2) : ℝ) : EReal)) (hql : ql = fun _ => 0)
  (hakh : akh = fun i => ((akb' (i 1) (i 2) : ℝ) : EReal)) (hakl : akl = fun _ => 0)
  (hub : ub = fun i => ((ub' (i 1) (i 2) : ℝ) : EReal))
  (s u : Fin 8 → Fin 256 → ℝ) (r v : Fin 1024)

include hqh hql hakh hakl in
/-- Every logit of the block is the real inner product of the query row with the key row. -/
theorem step_logit_real (r' : Fin 1024) (jj : Fin 256) :
    k1_pay10 (F := Ideal) qh akh ql akh qh akl (ix3 0 r' jj) = ((∑ d, qb' r' d * akb' jj d : ℝ) : EReal) :=
  pay10_real qb' akb' qh ql akh akl hqh hql hakh hakl r' jj

include hub in
/-- The value block's entry at key row jj, column v is the real one. -/
theorem step_value_real (jj : Fin 256) : ub (ix3 0 jj v) = ((ub' jj v : ℝ) : EReal) := by
  rw [hub]

include hqh hql hakh hakl in
/-- The block's contribution to the denominator at any shift X, in the names of the invariant: block kk's logits
    of row r are s kk. -/
theorem step_den_terms (kk : Fin 8) (hs : ∀ jj, s kk jj = ∑ d, qb' r d * akb' jj d) (X : EReal) :
    (∑ jj : Fin 256, Ideal.exp (k1_pay10 (F := Ideal) qh akh ql akh qh akl (ix3 0 r jj) - X))
      = ∑ jj : Fin 256, Ideal.exp (((s kk jj : ℝ) : EReal) - X) :=
  Finset.sum_congr rfl (fun jj _ => by
    rw [step_logit_real qb' akb' qh ql akh akl hqh hql hakh hakl r jj, hs])

include hqh hql hakh hakl hub in
/-- The block's contribution to the numerator at any shift X: block kk's values of column v are u kk. -/
theorem step_num_terms (kk : Fin 8) (hs : ∀ jj, s kk jj = ∑ d, qb' r d * akb' jj d) (hu : ∀ jj, u kk jj = ub' jj v)
    (X : EReal) :
    (∑ jj : Fin 256, Ideal.exp (k1_pay10 (F := Ideal) qh akh ql akh qh akl (ix3 0 r jj) - X) * ub (ix3 0 jj v))
      = ∑ jj : Fin 256, Ideal.exp (((s kk jj : ℝ) : EReal) - X) * ((u kk jj : ℝ) : EReal) :=
  Finset.sum_congr rfl (fun jj _ => by
    rw [step_logit_real qb' akb' qh ql akh akl hqh hql hakh hakl r jj, hs, step_value_real ub' ub hub v jj, hu])

include hqh hql hakh hakl hub in
/-- THE FIRST BLOCK: from the reset scratch (shift -inf, denominator 0, numerator 0) the stored shift, denominator
    and numerator of row r, column v satisfy the invariant after one block. The new shift is the larger of -inf and
    the block's row maximum, a real; the rescaling factor is exp (old - new); the block's terms are taken at the new
    shift. -/
theorem step_first (k0 : Fin 8) (h0 : k0.val = 0) (hs : ∀ jj, s k0 jj = ∑ d, qb' r d * akb' jj d)
    (hu : ∀ jj, u k0 jj = ub' jj v) :
    Cert.Math.RowInv s u 1
      (k1_pay5 (F := Ideal) (k1_pay11 qh akh ql akh qh akl (k1_pay7 (F := Ideal))) (ix3 0 r 0))
      (k1_pay3 (F := Ideal) (k1_pay10 qh akh ql akh qh akl) (k1_pay11 qh akh ql akh qh akl (k1_pay7 (F := Ideal))) (k1_pay12 qh akh ql akh qh akl (k1_pay7 (F := Ideal)) (k1_pay7 (F := Ideal))) (k1_pay8 (F := Ideal)) (ix3 0 r 0))
      (k1_pay4 (F := Ideal) (k1_pay10 qh akh ql akh qh akl) (k1_pay11 qh akh ql akh qh akl (k1_pay7 (F := Ideal))) (k1_pay12 qh akh ql akh qh akl (k1_pay7 (F := Ideal)) (k1_pay7 (F := Ideal))) (k1_pay9 (F := Ideal)) ub (ix3 0 r v)) := by
  obtain ⟨bm, hbm⟩ := pay11_real (fun r' jj => ∑ d, qb' r' d * akb' jj d) qh ql akh akl
    (step_logit_real qb' akb' qh ql akh akl hqh hql hakh hakl)
  -- the reset values read at the row
  have h7 : k1_pay7 (F := Ideal) (ix3 0 r 0) = (⊥ : EReal) := congrFun pay7_eq _
  have h8 : k1_pay8 (F := Ideal) (ix3 0 r 0) = (0 : EReal) := congrFun pay8_eq _
  have h9 : k1_pay9 (F := Ideal) (ix3 0 r v) = (0 : EReal) := congrFun pay9_eq _
  rw [pay5_eq, pay3_apply, pay4_apply, pay12_apply, hbm, h7, h8, h9,
    step_den_terms qb' akb' qh ql akh akl hqh hql hakh hakl s r k0 hs,
    step_num_terms qb' akb' ub' qh ql akh akl ub hqh hql hakh hakl hub s u r v k0 hs hu]
  exact Cert.Math.online_first s u k0 h0 (bm r)

include hqh hql hakh hakl hub in
/-- A LATER BLOCK: if the scratch found satisfies the invariant before block kk, the stored shift, denominator and
    numerator satisfy it after block kk. -/
theorem step_next (kk : Fin 8) (hs : ∀ jj, s kk jj = ∑ d, qb' r d * akb' jj d) (hu : ∀ jj, u kk jj = ub' jj v)
    (M L : Vec Ideal S1x1024x1 .f32) (Acc : Vec Ideal S1x1024x1024 .f32)
    (h : Cert.Math.RowInv s u kk.val (M (ix3 0 r 0)) (L (ix3 0 r 0)) (Acc (ix3 0 r v))) :
    Cert.Math.RowInv s u (kk.val + 1)
      (k1_pay5 (F := Ideal) (k1_pay11 qh akh ql akh qh akl M) (ix3 0 r 0))
      (k1_pay3 (F := Ideal) (k1_pay10 qh akh ql akh qh akl) (k1_pay11 qh akh ql akh qh akl M) (k1_pay12 qh akh ql akh qh akl M M) L (ix3 0 r 0))
      (k1_pay4 (F := Ideal) (k1_pay10 qh akh ql akh qh akl) (k1_pay11 qh akh ql akh qh akl M) (k1_pay12 qh akh ql akh qh akl M M) Acc ub (ix3 0 r v)) := by
  obtain ⟨bm, hbm⟩ := pay11_real (fun r' jj => ∑ d, qb' r' d * akb' jj d) qh ql akh akl
    (step_logit_real qb' akb' qh ql akh akl hqh hql hakh hakl)
  rw [pay5_eq, pay3_apply, pay4_apply, pay12_apply, hbm,
    step_den_terms qb' akb' qh ql akh akl hqh hql hakh hakl s r kk hs,
    step_num_terms qb' akb' ub' qh ql akh akl ub hqh hql hakh hakl hub s u r v kk hs hu]
  exact Cert.Math.online_step s u kk _ _ _ h (bm r)

/-- AFTER THE LAST BLOCK the stored output, numerator over denominator, is the softmax-weighted average of the
    values over all 8 * 256 keys. -/
theorem out_final (L : Vec Ideal S1x1024x1 .f32) (Acc : Vec Ideal S1x1024x1024 .f32) (Mv : EReal)
    (h : Cert.Math.RowInv s u 8 Mv (L (ix3 0 r 0)) (Acc (ix3 0 r v))) :
    k1_pay6 (F := Ideal) Acc L (ix3 0 r v)
      = ((Cert.Math.attn (fun p : Fin 8 × Fin 256 => s p.1 p.2) (fun p => u p.1 p.2) : ℝ) : EReal) := by
  rw [pay6_apply]
  exact Cert.Math.online_final (by decide) (by decide) s u Mv _ _ h

end

end Cert.KernelIdeal.Val

end
-- ==== Proof.Val.Blk1.lean ====
/- The blocks the attention kernel's windows read at a grid point, as functions of the real arrays the region finds
   in its operand buffers: the point's batch, query block and key/value block, the rows of the array a block's rows
   are, and each input window's block read index by index; the rows the output window's block covers. -/
import proofs.«414092_j9835475108302_3_alg».proof.Proof.KI.R1Runs
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

/-! ## The coordinates of a grid point (the grid is 4 x 2 x 8, the last axis fastest) -/

theorem pt_lt (t : Fin cfg1.N) : t.val < 64 := lt_of_lt_of_eq t.isLt (show cfg1.N = 64 from N_1)

/-- The batch of point t. -/
def ptB (t : Fin cfg1.N) : Fin 4 := ⟨t.val / 16, by have := pt_lt t; omega⟩
/-- The query block of point t. -/
def ptQ (t : Fin cfg1.N) : Fin 2 := ⟨(t.val / 8) % 2, Nat.mod_lt _ (by decide)⟩
/-- The key/value block of point t. -/
def ptK (t : Fin cfg1.N) : Fin 8 := ⟨t.val % 8, Nat.mod_lt _ (by decide)⟩
/-- The row of the array that row r of point t's query block is. -/
def qRow (t : Fin cfg1.N) (r : Fin 1024) : Fin 2048 := ⟨1024 * ((t.val / 8) % 2) + r.val, by have := r.isLt; omega⟩
/-- The row of the array that position jj of point t's key/value block is. -/
def kRow (t : Fin cfg1.N) (jj : Fin 256) : Fin 2048 := ⟨256 * (t.val % 8) + jj.val, by have := jj.isLt; omega⟩

/-! ## The windows' block indices, decided over the grid -/

theorem idx1_0 : ∀ t : Fin cfg1.N, win1_0.index t (0 : Fin 3) = t.val / 16 ∧ win1_0.index t (1 : Fin 3) = (t.val / 8) % 2 ∧ win1_0.index t (2 : Fin 3) = 0 :=
  (by decide +kernel : ∀ t : Fin grid1.N, _)
theorem idx1_1 : ∀ t : Fin cfg1.N, win1_1.index t (0 : Fin 3) = t.val / 16 ∧ win1_1.index t (1 : Fin 3) = (t.val / 8) % 2 ∧ win1_1.index t (2 : Fin 3) = 0 :=
  (by decide +kernel : ∀ t : Fin grid1.N, _)
theorem idx1_2 : ∀ t : Fin cfg1.N, win1_2.index t (0 : Fin 3) = t.val / 16 ∧ win1_2.index t (1 : Fin 3) = t.val % 8 ∧ win1_2.index t (2 : Fin 3) = 0 :=
  (by decide +kernel : ∀ t : Fin grid1.N, _)
theorem idx1_3 : ∀ t : Fin cfg1.N, win1_3.index t (0 : Fin 3) = t.val / 16 ∧ win1_3.index t (1 : Fin 3) = t.val % 8 ∧ win1_3.index t (2 : Fin 3) = 0 :=
  (by decide +kernel : ∀ t : Fin grid1.N, _)
theorem idx1_4 : ∀ t : Fin cfg1.N, win1_4.index t (0 : Fin 3) = t.val / 16 ∧ win1_4.index t (1 : Fin 3) = t.val % 8 ∧ win1_4.index t (2 : Fin 3) = 0 :=
  (by decide +kernel : ∀ t : Fin grid1.N, _)
theorem idx1_5 : ∀ t : Fin cfg1.N, win1_5.index t (0 : Fin 3) = t.val / 16 ∧ win1_5.index t (1 : Fin 3) = (t.val / 8) % 2 ∧ win1_5.index t (2 : Fin 3) = 0 :=
  (by decide +kernel : ∀ t : Fin grid1.N, _)

/-! ## Where a block's element sits in its array -/

/-- An element of the query window's block at point t is the array's at the point's batch, the block's row carried to the array, the same feature. -/
theorem emb1_0 (t : Fin cfg1.N) (y : S1x1024x1024.Idx) :
    ((cfg1.win 0).blk t).view.emb y = ix3 (ptB t) (qRow t (y 1)) (y 2) := by
  obtain ⟨e0, e1, e2⟩ := idx1_0 t
  funext a; apply Fin.ext
  match a with
  | ⟨0, _⟩ => show win1_0.index t (0 : Fin 3) * 1 + 1 * (y 0).val = t.val / 16; have hy : (y 0).val < 1 := (y 0).isLt; omega
  | ⟨1, _⟩ => show win1_0.index t (1 : Fin 3) * 1024 + 1 * (y 1).val = 1024 * ((t.val / 8) % 2) + (y 1).val; omega
  | ⟨2, _⟩ => show win1_0.index t (2 : Fin 3) * 1024 + 1 * (y 2).val = (y 2).val; omega

theorem emb1_1 (t : Fin cfg1.N) (y : S1x1024x1024.Idx) :
    ((cfg1.win 1).blk t).view.emb y = ix3 (ptB t) (qRow t (y 1)) (y 2) := by
  obtain ⟨e0, e1, e2⟩ := idx1_1 t
  funext a; apply Fin.ext
  match a with
  | ⟨0, _⟩ => show win1_1.index t (0 : Fin 3) * 1 + 1 * (y 0).val = t.val / 16; have hy : (y 0).val < 1 := (y 0).isLt; omega
  | ⟨1, _⟩ => show win1_1.index t (1 : Fin 3) * 1024 + 1 * (y 1).val = 1024 * ((t.val / 8) % 2) + (y 1).val; omega
  | ⟨2, _⟩ => show win1_1.index t (2 : Fin 3) * 1024 + 1 * (y 2).val = (y 2).val; omega

/-- An element of a key/value window's block at point t is the array's at the point's batch, the block's position carried to the array, the same feature. -/
theorem emb1_2 (t : Fin cfg1.N) (y : S1x256x1024.Idx) :
    ((cfg1.win 2).blk t).view.emb y = ix3 (ptB t) (kRow t (y 1)) (y 2) := by
  obtain ⟨e0, e1, e2⟩ := idx1_2 t
  funext a; apply Fin.ext
  match a with
  | ⟨0, _⟩ => show win1_2.index t (0 : Fin 3) * 1 + 1 * (y 0).val = t.val / 16; have hy : (y 0).val < 1 := (y 0).isLt; omega
  | ⟨1, _⟩ => show win1_2.index t (1 : Fin 3) * 256 + 1 * (y 1).val = 256 * (t.val % 8) + (y 1).val; omega
  | ⟨2, _⟩ => show win1_2.index t (2 : Fin 3) * 1024 + 1 * (y 2).val = (y 2).val; omega

theorem emb1_3 (t : Fin cfg1.N) (y : S1x256x1024.Idx) :
    ((cfg1.win 3).blk t).view.emb y = ix3 (ptB t) (kRow t (y 1)) (y 2) := by
  obtain ⟨e0, e1, e2⟩ := idx1_3 t
  funext a; apply Fin.ext
  match a with
  | ⟨0, _⟩ => show win1_3.index t (0 : Fin 3) * 1 + 1 * (y 0).val = t.val / 16; have hy : (y 0).val < 1 := (y 0).isLt; omega
  | ⟨1, _⟩ => show win1_3.index t (1 : Fin 3) * 256 + 1 * (y 1).val = 256 * (t.val % 8) + (y 1).val; omega
  | ⟨2, _⟩ => show win1_3.index t (2 : Fin 3) * 1024 + 1 * (y 2).val = (y 2).val; omega

theorem emb1_4 (t : Fin cfg1.N) (y : S1x256x1024.Idx) :
    ((cfg1.win 4).blk t).view.emb y = ix3 (ptB t) (kRow t (y 1)) (y 2) := by
  obtain ⟨e0, e1, e2⟩ := idx1_4 t
  funext a; apply Fin.ext
  match a with
  | ⟨0, _⟩ => show win1_4.index t (0 : Fin 3) * 1 + 1 * (y 0).val = t.val / 16; have hy : (y 0).val < 1 := (y 0).isLt; omega
  | ⟨1, _⟩ => show win1_4.index t (1 : Fin 3) * 256 + 1 * (y 1).val = 256 * (t.val % 8) + (y 1).val; omega
  | ⟨2, _⟩ => show win1_4.index t (2 : Fin 3) * 1024 + 1 * (y 2).val = (y 2).val; omega

/-- An element of the output window's block at point t is the array's at the point's batch, the block's row carried to the array, the same feature. -/
theorem emb1_5 (t : Fin cfg1.N) (y : S1x1024x1024.Idx) :
    ((cfg1.win 5).blk t).view.emb y = ix3 (ptB t) (qRow t (y 1)) (y 2) := by
  obtain ⟨e0, e1, e2⟩ := idx1_5 t
  funext a; apply Fin.ext
  match a with
  | ⟨0, _⟩ => show win1_5.index t (0 : Fin 3) * 1 + 1 * (y 0).val = t.val / 16; have hy : (y 0).val < 1 := (y 0).isLt; omega
  | ⟨1, _⟩ => show win1_5.index t (1 : Fin 3) * 1024 + 1 * (y 1).val = 1024 * ((t.val / 8) % 2) + (y 1).val; omega
  | ⟨2, _⟩ => show win1_5.index t (2 : Fin 3) * 1024 + 1 * (y 2).val = (y 2).val; omega

/-! ## The input windows' blocks at real arrays -/

section Blocks
variable (V : (c : Dev nD) → (b : Ref sig .tc) → Buf (Elt Ideal) ((c : Thread nD τ).loc b)) (c : Dev nD)

/-- The high part of the queries: the block is the real array's rows of the point's query block. -/
theorem blk1_0 (q' : Fin 4 → Fin 2048 → Fin 1024 → ℝ)
    (h16 : (V c main_v16 : S4x2048x1024.Idx → EReal) = (fun i => ((q' (i 0) (i 1) (i 2) : ℝ) : EReal))) (t : Fin cfg1.N) :
    (iblk1 V c 0 t : Vec Ideal S1x1024x1024 .bf16) = (fun y => ((q' (ptB t) (qRow t (y 1)) (y 2) : ℝ) : EReal)) := by
  funext y
  show (V c main_v16 : S4x2048x1024.Idx → EReal) (((cfg1.win 0).blk t).view.emb y) = _
  rw [h16, emb1_0]
  rfl

/-- The low part of the queries is zero. -/
theorem blk1_1 (h17 : (V c main_v17 : S4x2048x1024.Idx → EReal) = (fun _ => (0 : EReal))) (t : Fin cfg1.N) :
    (iblk1 V c 1 t : Vec Ideal S1x1024x1024 .bf16) = (fun _ => (0 : EReal)) := by
  funext y
  show (V c main_v17 : S4x2048x1024.Idx → EReal) (((cfg1.win 1).blk t).view.emb y) = _
  rw [h17]

/-- The high part of the keys: the block is the real array's rows of the point's key/value block. -/
theorem blk1_2 (ak' : Fin 4 → Fin 2048 → Fin 1024 → ℝ)
    (h18 : (V c main_v18 : S4x2048x1024.Idx → EReal) = (fun i => ((ak' (i 0) (i 1) (i 2) : ℝ) : EReal))) (t : Fin cfg1.N) :
    (iblk1 V c 2 t : Vec Ideal S1x256x1024 .bf16) = (fun y => ((ak' (ptB t) (kRow t (y 1)) (y 2) : ℝ) : EReal)) := by
  funext y
  show (V c main_v18 : S4x2048x1024.Idx → EReal) (((cfg1.win 2).blk t).view.emb y) = _
  rw [h18, emb1_2]
  rfl

/-- The low part of the keys is zero. -/
theorem blk1_3 (h19 : (V c main_v19 : S4x2048x1024.Idx → EReal) = (fun _ => (0 : EReal))) (t : Fin cfg1.N) :
    (iblk1 V c 3 t : Vec Ideal S1x256x1024 .bf16) = (fun _ => (0 : EReal)) := by
  funext y
  show (V c main_v19 : S4x2048x1024.Idx → EReal) (((cfg1.win 3).blk t).view.emb y) = _
  rw [h19]

/-- The values: the block is the real array's rows of the point's key/value block. -/
theorem blk1_4 (u' : Fin 4 → Fin 2048 → Fin 1024 → ℝ)
    (h20 : (V c main_v20 : S4x2048x1024.Idx → EReal) = (fun i => ((u' (i 0) (i 1) (i 2) : ℝ) : EReal))) (t : Fin cfg1.N) :
    (iblk1 V c 4 t : Vec Ideal S1x256x1024 .bf16) = (fun y => ((u' (ptB t) (kRow t (y 1)) (y 2) : ℝ) : EReal)) := by
  funext y
  show (V c main_v20 : S4x2048x1024.Idx → EReal) (((cfg1.win 4).blk t).view.emb y) = _
  rw [h20, emb1_4]
  rfl

end Blocks

/-! ## The rows the output window's block covers -/

/-- An index of the output array is in point t's block iff each coordinate is in the block's range on its axis. -/
theorem mem_blk1_5_axes (t : Fin cfg1.N) (i : S4x2048x1024.Idx) :
    i ∈ ((cfg1.win 5).blk t).view.set ↔ ∀ a : Fin 3, win1_5.index t a * S1x1024x1024.size a ≤ (i a).val ∧ (i a).val < win1_5.index t a * S1x1024x1024.size a + S1x1024x1024.size a := by
  show i ∈ ((View.whole main_v21).slice (win1_5.rect t)).set ↔ _
  rw [View.set_slice_whole, Rect.mem_set_unit]
  exact Iff.rfl

/-- The output window's block at point t: the point's batch, the 1024 rows of the point's query block, every feature. -/
theorem mem_blk1_5 (t : Fin cfg1.N) (i : S4x2048x1024.Idx) :
    i ∈ ((cfg1.win 5).blk t).view.set ↔ (i 0).val = t.val / 16 ∧ 1024 * ((t.val / 8) % 2) ≤ (i 1).val ∧ (i 1).val < 1024 * ((t.val / 8) % 2) + 1024 := by
  obtain ⟨e0, e1, e2⟩ := idx1_5 t
  rw [mem_blk1_5_axes]
  constructor
  · intro h
    have b0 : win1_5.index t (0 : Fin 3) * 1 ≤ (i 0).val ∧ (i 0).val < win1_5.index t (0 : Fin 3) * 1 + 1 := h 0
    have b1 : win1_5.index t (1 : Fin 3) * 1024 ≤ (i 1).val ∧ (i 1).val < win1_5.index t (1 : Fin 3) * 1024 + 1024 := h 1
    omega
  · intro h a
    have hi2 : (i 2).val < 1024 := (i 2).isLt
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 1024 ≤ (i 1).val ∧ (i 1).val < win1_5.index t (1 : Fin 3) * 1024 + 1024; omega
    | ⟨2, _⟩ => show win1_5.index t (2 : Fin 3) * 1024 ≤ (i 2).val ∧ (i 2).val < win1_5.index t (2 : Fin 3) * 1024 + 1024; omega

end Cert.KernelIdeal.Val

end
-- ==== Proof.Val.Cov1.lean ====
/- The blocks of the second region's output window that are written back cover the whole [4, 2048, 1024] result array:
   the grid is [4, 2, 8] = (batch, query block, key block), the window's block at a point is the 1024 rows of the
   point's query block in the point's batch, and it is written back at the last key block, the points with t % 8 = 7. -/
import proofs.«414092_j9835475108302_3_alg».proof.Proof.Val.Blk1
import proofs.«414092_j9835475108302_3_alg».proof.Proof.Gen.KernelIdeal.Points
import proofs.«414092_j9835475108302_3_alg».proof.Proof.Gen.KernelIdeal.Launch
import Idealize.ShloMosaic.Lib.Pipeline.Value

noncomputable section

namespace Cert.KernelIdeal.Val

open Cert.KernelIdeal Idealize.ShloMosaic Idealize.ShloMosaic.TcCoe Idealize.SL.Sem

/-- THE BLOCKS WRITTEN BACK COVER THE ARRAY: entry (b, row, v) is in the block of the point
    `16 * b + 8 * (row / 1024) + 7`, the last key block of batch `b` and query block `row / 1024`, which is written
    back. Stated over the index type of the window's array on core `c`, the form the whole-array post takes. -/
theorem cover1_5 (c : Dev nD) (i : ((cfg1.win 5).arr.view.loc (c.tc : Thread nD τ)).2.ty.Idx) :
    ∃ t : Fin cfg1.N, (cfg1.win 5).flush t = true ∧ i ∈ ((cfg1.win 5).blk t).view.set := by
  -- over the literal index type, where the coordinates are written `j 0`, `j 1`
  have key : ∀ j : S4x2048x1024.Idx,
      ∃ t : Fin cfg1.N, (cfg1.win 5).flush t = true ∧ j ∈ ((cfg1.win 5).blk t).view.set := by
    intro j
    have hj0 : (j 0).val < 4 := (j 0).isLt
    have hj1 : (j 1).val < 2048 := (j 1).isLt
    have hN : cfg1.N = 64 := Gen.N_1
    refine ⟨⟨16 * (j 0).val + 8 * ((j 1).val / 1024) + 7, by rw [hN]; omega⟩, (Gen.flush1_5 _).2 ?_, (mem_blk1_5 _ j).2 ?_⟩
    · show (16 * (j 0).val + 8 * ((j 1).val / 1024) + 7) % 8 = 7
      omega
    · show (j 0).val = (16 * (j 0).val + 8 * ((j 1).val / 1024) + 7) / 16
        ∧ 1024 * (((16 * (j 0).val + 8 * ((j 1).val / 1024) + 7) / 8) % 2) ≤ (j 1).val
        ∧ (j 1).val < 1024 * (((16 * (j 0).val + 8 * ((j 1).val / 1024) + 7) / 8) % 2) + 1024
      omega
  exact key i

end Cert.KernelIdeal.Val

end
-- ==== Proof.Val.Ind1.lean ====
/- Region 1 (the attention kernel): the row invariant of the block-by-block evaluation holds after every grid point.
   For a row of the point's query block and an output column, the three scratch buffers hold a real shift and, at
   that shift, the partial denominator and numerator over the key blocks up to the point's: by induction along the
   grid, the first block of each run of eight from the reset state, every later block from what the point before
   left. -/
import proofs.«414092_j9835475108302_3_alg».proof.Proof.KI.R1
import proofs.«414092_j9835475108302_3_alg».proof.Proof.Val.Piece1
import proofs.«414092_j9835475108302_3_alg».proof.Proof.Val.Step1
import proofs.«414092_j9835475108302_3_alg».proof.Proof.Val.Blk1
import proofs.«414092_j9835475108302_3_alg».proof.Proof.Math.Attn
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open scoped BigOperators

/-- The row of the key/value array that position jj of key block kk is. -/
def keyRow (kk : Fin 8) (jj : Fin 256) : Fin 2048 := ⟨256 * kk.val + jj.val, by have := kk.isLt; have := jj.isLt; omega⟩

/-- A point's key/value rows are those of its key block. -/
theorem kRow_eq_keyRow (t : Fin cfg1.N) (jj : Fin 256) : kRow t jj = keyRow (ptK t) jj := rfl

section

variable (q' ak' u' : Fin 4 → Fin 2048 → Fin 1024 → ℝ)

/-- The logits of one query row (batch b, array row qr) against every key, key block by key block. -/
def logits (b : Fin 4) (qr : Fin 2048) : Fin 8 → Fin 256 → ℝ := fun kk jj => ∑ d, q' b qr d * ak' b (keyRow kk jj) d
/-- One column of the values at every key of batch b, key block by key block. -/
def vals (b : Fin 4) (v : Fin 1024) : Fin 8 → Fin 256 → ℝ := fun kk jj => u' b (keyRow kk jj) v

end

/-- Within a run of eight points (the key/value axis) the batch does not change. -/
theorem ptB_succ (n : ℕ) (hn : n + 1 < cfg1.N) (h0 : ¬(n + 1) % 8 = 0) :
    ptB ⟨n + 1, hn⟩ = ptB ⟨n, Nat.lt_of_succ_lt hn⟩ :=
  Fin.ext (by show (n + 1) / 16 = n / 16; omega)

/-- Nor does the query block: its rows are the same rows of the array. -/
theorem qRow_succ (n : ℕ) (hn : n + 1 < cfg1.N) (h0 : ¬(n + 1) % 8 = 0) (r : Fin 1024) :
    qRow ⟨n + 1, hn⟩ r = qRow ⟨n, Nat.lt_of_succ_lt hn⟩ r :=
  Fin.ext (by show 1024 * (((n + 1) / 8) % 2) + r.val = 1024 * ((n / 8) % 2) + r.val; omega)

section

variable (V : (c : Dev nD) → (b : Ref sig .tc) → Buf (Elt Ideal) ((c : Thread nD τ).loc b)) (c : Dev nD)
    (q' ak' u' : Fin 4 → Fin 2048 → Fin 1024 → ℝ)
    (h16 : (V c main_v16 : S4x2048x1024.Idx → EReal) = (fun i => ((q' (i 0) (i 1) (i 2) : ℝ) : EReal)))
    (h17 : (V c main_v17 : S4x2048x1024.Idx → EReal) = (fun _ => (0 : EReal)))
    (h18 : (V c main_v18 : S4x2048x1024.Idx → EReal) = (fun i => ((ak' (i 0) (i 1) (i 2) : ℝ) : EReal)))
    (h19 : (V c main_v19 : S4x2048x1024.Idx → EReal) = (fun _ => (0 : EReal)))
    (h20 : (V c main_v20 : S4x2048x1024.Idx → EReal) = (fun i => ((u' (i 0) (i 1) (i 2) : ℝ) : EReal)))

include h16 h17 h18 h19 h20 in
/-- At a point where the key/value axis is at its first block: the reset scratch, then one block. -/
theorem row_first (t : Fin cfg1.N) (h0 : t.val % 8 = 0) (r v : Fin 1024) :
    Cert.Math.RowInv (logits q' ak' (ptB t) (qRow t r)) (vals u' (ptB t) v) (t.val % 8 + 1)
      ((outsAt1 V c t.val t.isLt).2.1 (ix3 (0 : Fin 1) r (0 : Fin 1)))
      ((outsAt1 V c t.val t.isLt).2.2.1 (ix3 (0 : Fin 1) r (0 : Fin 1)))
      ((outsAt1 V c t.val t.isLt).2.2.2 (ix3 (0 : Fin 1) r v)) := by
  have h1 : ¬t.val % 8 = 7 := by omega
  rw [outsAt1_A V c t h0 h1]; dsimp only
  rw [sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)]
  rw [show t.val % 8 + 1 = 1 from by omega]
  exact step_first (fun r d => q' (ptB t) (qRow t r) d) (fun jj d => ak' (ptB t) (kRow t jj) d) (fun jj v => u' (ptB t) (kRow t jj) v)
      (iblk1 V c 0 t) (iblk1 V c 1 t) (iblk1 V c 2 t) (iblk1 V c 3 t) (iblk1 V c 4 t)
      (blk1_0 V c q' h16 t) (blk1_1 V c h17 t) (blk1_2 V c ak' h18 t) (blk1_3 V c h19 t) (blk1_4 V c u' h20 t)
      (logits q' ak' (ptB t) (qRow t r)) (vals u' (ptB t) v) r v (ptK t) h0 (fun _ => rfl) (fun _ => rfl)

include h16 h17 h18 h19 h20 in
/-- At a later point of the key/value axis: from the invariant the point before left, one more block. -/
theorem row_later (t : Fin cfg1.N) (h0 : ¬t.val % 8 = 0) (r v : Fin 1024)
    (ih : Cert.Math.RowInv (logits q' ak' (ptB t) (qRow t r)) (vals u' (ptB t) v) (t.val % 8)
      (((outsAt1 V c (t.val - 1) (Nat.lt_of_le_of_lt (Nat.sub_le _ _) t.isLt))).2.1 (ix3 (0 : Fin 1) r (0 : Fin 1)))
      (((outsAt1 V c (t.val - 1) (Nat.lt_of_le_of_lt (Nat.sub_le _ _) t.isLt))).2.2.1 (ix3 (0 : Fin 1) r (0 : Fin 1)))
      (((outsAt1 V c (t.val - 1) (Nat.lt_of_le_of_lt (Nat.sub_le _ _) t.isLt))).2.2.2 (ix3 (0 : Fin 1) r v))) :
    Cert.Math.RowInv (logits q' ak' (ptB t) (qRow t r)) (vals u' (ptB t) v) (t.val % 8 + 1)
      ((outsAt1 V c t.val t.isLt).2.1 (ix3 (0 : Fin 1) r (0 : Fin 1)))
      ((outsAt1 V c t.val t.isLt).2.2.1 (ix3 (0 : Fin 1) r (0 : Fin 1)))
      ((outsAt1 V c t.val t.isLt).2.2.2 (ix3 (0 : Fin 1) r v)) := by
  by_cases h1 : t.val % 8 = 7
  · rw [outsAt1_C V c t h0 h1]; dsimp only
    rw [sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
    exact step_next (fun r d => q' (ptB t) (qRow t r) d) (fun jj d => ak' (ptB t) (kRow t jj) d) (fun jj v => u' (ptB t) (kRow t jj) v)
      (iblk1 V c 0 t) (iblk1 V c 1 t) (iblk1 V c 2 t) (iblk1 V c 3 t) (iblk1 V c 4 t)
      (blk1_0 V c q' h16 t) (blk1_1 V c h17 t) (blk1_2 V c ak' h18 t) (blk1_3 V c h19 t) (blk1_4 V c u' h20 t)
      (logits q' ak' (ptB t) (qRow t r)) (vals u' (ptB t) v) r v (ptK t) (fun _ => rfl) (fun _ => rfl)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 ih
  · rw [outsAt1_B V c t h0 h1]; dsimp only
    rw [sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
    exact step_next (fun r d => q' (ptB t) (qRow t r) d) (fun jj d => ak' (ptB t) (kRow t jj) d) (fun jj v => u' (ptB t) (kRow t jj) v)
      (iblk1 V c 0 t) (iblk1 V c 1 t) (iblk1 V c 2 t) (iblk1 V c 3 t) (iblk1 V c 4 t)
      (blk1_0 V c q' h16 t) (blk1_1 V c h17 t) (blk1_2 V c ak' h18 t) (blk1_3 V c h19 t) (blk1_4 V c u' h20 t)
      (logits q' ak' (ptB t) (qRow t r)) (vals u' (ptB t) v) r v (ptK t) (fun _ => rfl) (fun _ => rfl)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 ih

include h16 h17 h18 h19 h20 in
/-- The invariant after every point, by induction along the grid. -/
theorem row_inv_at : ∀ (n : ℕ) (hn : n < cfg1.N) (r v : Fin 1024),
    Cert.Math.RowInv (logits q' ak' (ptB ⟨n, hn⟩) (qRow ⟨n, hn⟩ r)) (vals u' (ptB ⟨n, hn⟩) v) (n % 8 + 1)
      ((outsAt1 V c n hn).2.1 (ix3 (0 : Fin 1) r (0 : Fin 1)))
      ((outsAt1 V c n hn).2.2.1 (ix3 (0 : Fin 1) r (0 : Fin 1)))
      ((outsAt1 V c n hn).2.2.2 (ix3 (0 : Fin 1) r v)) := by
  intro n
  induction n with
  | zero =>
    intro hn r v
    exact row_first V c q' ak' u' h16 h17 h18 h19 h20 ⟨0, hn⟩ (Nat.zero_mod 8) r v
  | succ n ih =>
    intro hn r v
    by_cases h0 : (n + 1) % 8 = 0
    · exact row_first V c q' ak' u' h16 h17 h18 h19 h20 ⟨n + 1, hn⟩ h0 r v
    · refine row_later V c q' ak' u' h16 h17 h18 h19 h20 ⟨n + 1, hn⟩ h0 r v ?_
      have ihn := ih (Nat.lt_of_succ_lt hn) r v
      rw [← ptB_succ n hn h0, ← qRow_succ n hn h0 r, show n % 8 + 1 = (n + 1) % 8 from by omega] at ihn
      exact ihn

include h16 h17 h18 h19 h20 in
/-- THE ROW INVARIANT after point t, for row r of the point's query block and output column v: the three scratch
    buffers hold a real shift and, at that shift, the partial denominator and numerator over the key blocks up to
    the point's. -/
theorem row_inv (t : Fin cfg1.N) (r v : Fin 1024) :
    Cert.Math.RowInv (fun (kk : Fin 8) (jj : Fin 256) => ∑ d, q' (ptB t) (qRow t r) d * ak' (ptB t) (keyRow kk jj) d)
      (fun (kk : Fin 8) (jj : Fin 256) => u' (ptB t) (keyRow kk jj) v) (t.val % 8 + 1)
      ((outsAt1 V c t.val t.isLt).2.1 (ix3 (0 : Fin 1) r (0 : Fin 1)))
      ((outsAt1 V c t.val t.isLt).2.2.1 (ix3 (0 : Fin 1) r (0 : Fin 1)))
      ((outsAt1 V c t.val t.isLt).2.2.2 (ix3 (0 : Fin 1) r v)) :=
  row_inv_at V c q' ak' u' h16 h17 h18 h19 h20 t.val t.isLt r v

end

end Cert.KernelIdeal.Val

end
-- ==== Proof.Val.Arr1.lean ====
/- Region 1 (the attention kernel), the array it leaves: a point that closes a query block (its key block is the
   last of the eight) writes back the quotient of the running numerator by the running denominator; by the row
   invariant after all eight key blocks that quotient is, entry by entry, the softmax-weighted average over the
   2048 key rows of the batch; the closing points' blocks cover the output array. -/
import proofs.«414092_j9835475108302_3_alg».proof.Proof.KI.R1
import proofs.«414092_j9835475108302_3_alg».proof.Proof.Val.Piece1
import proofs.«414092_j9835475108302_3_alg».proof.Proof.Val.Step1
import proofs.«414092_j9835475108302_3_alg».proof.Proof.Val.Blk1
import proofs.«414092_j9835475108302_3_alg».proof.Proof.Val.Cov1
import proofs.«414092_j9835475108302_3_alg».proof.Proof.Val.Ind1
import proofs.«414092_j9835475108302_3_alg».proof.Proof.Math.Attn
import Idealize.ShloMosaic.Lib.Pipeline.Value
import Idealize.ShloMosaic.Lib.ValueIdx
import Mathlib.Logic.Equiv.Defs

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open scoped BigOperators

/-! ## Key rows by block -/

/-- A key row is a (block, row inside the block) pair: 2048 = 8 · 256. -/
def keyEquiv : Fin 8 × Fin 256 ≃ Fin 2048 where
  toFun p := keyRow p.1 p.2
  invFun j := (⟨j.val / 256, by have := j.isLt; omega⟩, ⟨j.val % 256, Nat.mod_lt _ (by decide)⟩)
  left_inv p := by
    have h1 := p.1.isLt
    have h2 := p.2.isLt
    have hv : (keyRow p.1 p.2).val = 256 * p.1.val + p.2.val := rfl
    refine Prod.ext (Fin.ext ?_) (Fin.ext ?_)
    · show (keyRow p.1 p.2).val / 256 = p.1.val
      omega
    · show (keyRow p.1 p.2).val % 256 = p.2.val
      omega
  right_inv j := by
    apply Fin.ext
    show 256 * (j.val / 256) + j.val % 256 = j.val
    omega

/-- The softmax-weighted average the output array holds, index by index: the logits of query row (i 0, i 1) against
    every key row of its batch, the values column i 2 of the value rows. -/
def G1 (q' ak' u' : Fin 4 → Fin 2048 → Fin 1024 → ℝ) : S4x2048x1024.Idx → EReal :=
  fun i => ((Cert.Math.attn (fun j : Fin 2048 => ∑ d, q' (i 0) (i 1) d * ak' (i 0) j d) (fun j : Fin 2048 => u' (i 0) j (i 2)) : ℝ) : EReal)

/-! ## The block a closing point writes back -/

/-- At a point that closes a query block (its key block is the last, 7): the output buffer holds the quotient of the
    running numerator by the running denominator, both as this point's update leaves them. -/
theorem out_at_last (V : (c : Dev nD) → (b : Ref sig .tc) → Buf (Elt Ideal) ((c : Thread nD τ).loc b)) (c : Dev nD) (t : Fin cfg1.N) (h7 : t.val % 8 = 7) :
    (outsAt1 V c t.val t.isLt).1 = k1_pay6 (F := Ideal) (outsAt1 V c t.val t.isLt).2.2.2 (outsAt1 V c t.val t.isLt).2.2.1 := by
  have h0 : ¬t.val % 8 = 0 := by omega
  rw [outsAt1_C V c t h0 h7]
  dsimp only
  rw [out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- One entry of that buffer: after all eight key blocks the quotient is the softmax-weighted average over the 2048
    key rows of the batch, the (block, row) pairs read as key rows. -/
theorem out_at_last_apply (V : (c : Dev nD) → (b : Ref sig .tc) → Buf (Elt Ideal) ((c : Thread nD τ).loc b)) (c : Dev nD) (q' ak' u' : Fin 4 → Fin 2048 → Fin 1024 → ℝ)
    (h16 : (V c main_v16 : S4x2048x1024.Idx → EReal) = (fun i => ((q' (i 0) (i 1) (i 2) : ℝ) : EReal))) (h17 : (V c main_v17 : S4x2048x1024.Idx → EReal) = (fun _ => (0 : EReal)))
    (h18 : (V c main_v18 : S4x2048x1024.Idx → EReal) = (fun i => ((ak' (i 0) (i 1) (i 2) : ℝ) : EReal))) (h19 : (V c main_v19 : S4x2048x1024.Idx → EReal) = (fun _ => (0 : EReal)))
    (h20 : (V c main_v20 : S4x2048x1024.Idx → EReal) = (fun i => ((u' (i 0) (i 1) (i 2) : ℝ) : EReal))) (t : Fin cfg1.N) (h7 : t.val % 8 = 7) (y : S1x1024x1024.Idx) :
    (outsAt1 V c t.val t.isLt).1 y = G1 q' ak' u' (ix3 (ptB t) (qRow t (y 1)) (y 2)) := by
  have h8 : t.val % 8 + 1 = 8 := by omega
  -- the row invariant after the point's key block, the eighth
  have hI := row_inv V c q' ak' u' h16 h17 h18 h19 h20 t (y 1) (y 2)
  rw [h8] at hI
  -- the block has one batch coordinate
  have hy0 : y 0 = (0 : Fin 1) := Fin.ext (Nat.lt_one_iff.mp (y 0).isLt)
  have hy : y = ix3 (0 : Fin 1) (y 1) (y 2) := by
    funext a
    match a with
    | ⟨0, _⟩ => exact hy0
    | ⟨1, _⟩ => rfl
    | ⟨2, _⟩ => rfl
  refine (congrFun (out_at_last V c t h7) y).trans ?_
  refine (congrArg (k1_pay6 (F := Ideal) (outsAt1 V c t.val t.isLt).2.2.2 (outsAt1 V c t.val t.isLt).2.2.1) hy).trans ?_
  refine (out_final _ _ (y 1) (y 2) _ _ _ hI).trans ?_
  -- the (block, row) pairs are the 2048 key rows
  exact congrArg (fun x : ℝ => (x : EReal))
    (Cert.Math.attn_equiv keyEquiv (fun j : Fin 2048 => ∑ d, q' (ptB t) (qRow t (y 1)) d * ak' (ptB t) j d) (fun j : Fin 2048 => u' (ptB t) j (y 2)))

/-- WHAT A CLOSING POINT WRITES BACK is its block of the softmax-weighted average. -/
theorem flushed_eq (V : (c : Dev nD) → (b : Ref sig .tc) → Buf (Elt Ideal) ((c : Thread nD τ).loc b)) (c : Dev nD) (q' ak' u' : Fin 4 → Fin 2048 → Fin 1024 → ℝ)
    (h16 : (V c main_v16 : S4x2048x1024.Idx → EReal) = (fun i => ((q' (i 0) (i 1) (i 2) : ℝ) : EReal))) (h17 : (V c main_v17 : S4x2048x1024.Idx → EReal) = (fun _ => (0 : EReal)))
    (h18 : (V c main_v18 : S4x2048x1024.Idx → EReal) = (fun i => ((ak' (i 0) (i 1) (i 2) : ℝ) : EReal))) (h19 : (V c main_v19 : S4x2048x1024.Idx → EReal) = (fun _ => (0 : EReal)))
    (h20 : (V c main_v20 : S4x2048x1024.Idx → EReal) = (fun i => ((u' (i 0) (i 1) (i 2) : ℝ) : EReal))) (t : Fin cfg1.N) (h7 : t.val % 8 = 7) :
    (dat1 V c).flushed 5 t = ((cfg1.win 5).blk t).view.read (Elt Ideal) (G1 q' ak' u') := by
  show (cfg1.win 5).cut (grid1.coords t) ((dat1 V c).after 5 t) = _
  rw [after1_5]
  funext y
  show (outsAt1 V c t.val t.isLt).1 y = G1 q' ak' u' (((cfg1.win 5).blk t).view.emb y)
  rw [emb1_5]
  exact out_at_last_apply V c q' ak' u' h16 h17 h18 h19 h20 t h7 y

/-! ## The array the region leaves -/

/-- THE VALUE OF REGION 1: from real inputs (the low halves zero), the output array ends holding the
    softmax-weighted average: every index lies in the block of the point closing its query block. -/
theorem arr1_value (V : (c : Dev nD) → (b : Ref sig .tc) → Buf (Elt Ideal) ((c : Thread nD τ).loc b)) (c : Dev nD) (q' ak' u' : Fin 4 → Fin 2048 → Fin 1024 → ℝ)
    (h16 : (V c main_v16 : S4x2048x1024.Idx → EReal) = (fun i => ((q' (i 0) (i 1) (i 2) : ℝ) : EReal))) (h17 : (V c main_v17 : S4x2048x1024.Idx → EReal) = (fun _ => (0 : EReal)))
    (h18 : (V c main_v18 : S4x2048x1024.Idx → EReal) = (fun i => ((ak' (i 0) (i 1) (i 2) : ℝ) : EReal))) (h19 : (V c main_v19 : S4x2048x1024.Idx → EReal) = (fun _ => (0 : EReal)))
    (h20 : (V c main_v20 : S4x2048x1024.Idx → EReal) = (fun i => ((u' (i 0) (i 1) (i 2) : ℝ) : EReal))) :
    ((dat1 V c).arrAt 5 cfg1.N : S4x2048x1024.Idx → EReal) = (fun i => ((Cert.Math.attn (fun j : Fin 2048 => ∑ d, q' (i 0) (i 1) d * ak' (i 0) j d) (fun j : Fin 2048 => u' (i 0) j (i 2)) : ℝ) : EReal)) :=
  (dat1 V c).arrAt_eq_of_cover 5 (G1 q' ak' u') (fun t hf => flushed_eq V c q' ak' u' h16 h17 h18 h19 h20 t ((flush1_5 t).mp hf)) (cover1_5 c)

end Cert.KernelIdeal.Val

end
-- ==== Proof.Val.Final.lean ====
/- The attention kernel's output array, from a launch memory whose arguments are real arrays: the values entering
   region 1 are the projected queries, keys and values (and zero residues), and region 1 leaves their
   softmax-weighted averages — the specification's result. -/
import proofs.«414092_j9835475108302_3_alg».proof.Proof.KI.Run
import proofs.«414092_j9835475108302_3_alg».proof.Proof.Val.Mid
import proofs.«414092_j9835475108302_3_alg».proof.Proof.Val.Arr1

noncomputable section

namespace Cert.KernelIdeal.Val

open Cert.KernelIdeal Cert.KernelIdeal.Gen Cert.KernelIdeal.Hand Idealize.ShloMosaic Idealize.ShloMosaic.TcCoe Idealize.SL.Sem

/-- The array the output window's write-backs leave is the specification's result. -/
theorem final_value (m : (ℓ : Loc nD τ sig) → Buf (Elt Ideal) ℓ) (ρ : Dev nD → PrngReg) (c : Dev nD) (a : Cert.Spec.Args)
    (h : IsArgs m c a) : (dat1 (VR3 m ρ) c).arrAt 5 cfg1.N = Cert.Spec.G a := by
  obtain ⟨h16, h17, h18, h19, h20⟩ := mid_values m ρ c a h
  exact (arr1_value (VR3 m ρ) c (Cert.Spec.q a) (Cert.Spec.ak a) (Cert.Spec.uu a) h16 h17 h18 h19 h20).trans rfl

end Cert.KernelIdeal.Val

end
-- ==== Proof.lean ====
/- The certificate's five claims assembled. Both printed kernel programs run region by region (the projection
   kernel, then the attention kernel) to a final memory read off the last boundary's contents; the reference's run
   is its host operations composed. At the extended reals, with every argument entry finite, the attention kernel's
   block-by-block evaluation and the reference's plain softmax give the same weighted averages of the same
   projected rows; the three rounding round-trips the idealization dropped are the identity there. -/
import proofs.«414092_j9835475108302_3_alg».proof.Defs
import proofs.«414092_j9835475108302_3_alg».proof.Proof.Gen.Kernel
import proofs.«414092_j9835475108302_3_alg».proof.Proof.Gen.KernelIdeal
import proofs.«414092_j9835475108302_3_alg».proof.Proof.Gen.ReferenceIdeal
import proofs.«414092_j9835475108302_3_alg».proof.Proof.Gen.Pre_finite_inputs
import proofs.«414092_j9835475108302_3_alg».proof.Proof.Gen.ReferenceIdeal.Run
import proofs.«414092_j9835475108302_3_alg».proof.Proof.Gen.ReferenceIdeal.Read
import proofs.«414092_j9835475108302_3_alg».proof.Proof.KI.Run
import proofs.«414092_j9835475108302_3_alg».proof.Proof.K.Run
import proofs.«414092_j9835475108302_3_alg».proof.Proof.Val.Fin
import proofs.«414092_j9835475108302_3_alg».proof.Proof.Val.Ref
import proofs.«414092_j9835475108302_3_alg».proof.Proof.Val.Final
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_p : Cert.frame_Kernel := fun m ρ _ => Cert.Kernel.Hand.frame (F := Bits) m ρ

/-- The idealized kernel program runs to the end and leaves its arguments as launched. -/
theorem frame_pi : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three rounding round-trips through bf16 that the idealization replaced by the identity: at the extended
    reals each is the identity, at words each is the rounding. -/
theorem preserves : Cert.preserves_Kernel_KernelIdeal :=
  ⟨IdealRules.truncf_extf.statement _ _ _, IdealRules.truncf_extf.statement _ _ _, IdealRules.truncf_extf.statement _ _ _⟩

open Cert.KernelIdeal Cert.KernelIdeal.Hand Cert.KernelIdeal.Val in
/-- From memories agreeing on the arguments, both idealized programs end with the attention output of the real
    argument arrays. -/
theorem algebraic : Cert.algebraic_KernelIdeal_ReferenceIdeal := by
  intro m ρ m' ρ' hpre hagree
  choose a ha using fun c => args_of_pre m hpre c
  refine ⟨fun c => Cert.Spec.G (a c), ?_, ?_⟩
  · refine (θ_run Cert.KernelIdeal.defs _ _).mono (fun r h c => ?_) (run_all (F := Ideal) m ρ)
    exact ⟨((h c _ (mem_uc main_v21 (by decide))).trans (W4_main_v21 m ρ c)).trans (final_value m ρ c (a c) (ha c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩
  · refine (θ_run Cert.ReferenceIdeal.defs _ _).mono (fun r h c => ⟨?_, (h c).2⟩)
      (Cert.ReferenceIdeal.Value.run (F := Ideal) m' ρ')
    obtain ⟨h0, h1, h2, h3, h4, h5⟩ := ha c
    obtain ⟨g0, g1, g2, g3, g4, g5⟩ := hagree c
    rw [(h c).1, Cert.ReferenceIdeal.Read.val_main_v17_eq]
    exact Cert.ReferenceIdeal.RefValue.ref_value (a c) _ _ _ _ _ _ (g0.trans h0) (g1.trans h1) (g2.trans h2) (g3.trans h3) (g4.trans h4) (g5.trans h5)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
